-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S512x8 : Shape := ⟨2, ![512, 8]⟩
abbrev S2x64 : Shape := ⟨2, ![2, 64]⟩
abbrev S64 : Shape := ⟨1, ![64]⟩
abbrev S64x128 : Shape := ⟨2, ![64, 128]⟩
abbrev S128 : Shape := ⟨1, ![128]⟩
abbrev S8x256 : Shape := ⟨2, ![8, 256]⟩
abbrev S256 : Shape := ⟨1, ![256]⟩
abbrev S256x128 : Shape := ⟨2, ![256, 128]⟩
abbrev S256x192 : Shape := ⟨2, ![256, 192]⟩
abbrev S192 : Shape := ⟨1, ![192]⟩
abbrev S192x128 : Shape := ⟨2, ![192, 128]⟩
abbrev S128x1 : Shape := ⟨2, ![128, 1]⟩
abbrev S1 : Shape := ⟨1, ![1]⟩
abbrev S2x600000 : Shape := ⟨2, ![2, 600000]⟩
abbrev S200000 : Shape := ⟨1, ![200000]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S256x192 : S_.BroadcastsInDim S256x192 (![] : Fin 0 → Fin S256x192.rank)
  reducesTo_S256x192_S_d0_1 : S256x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S200000 : S_.BroadcastsInDim S200000 (![] : Fin 0 → Fin S200000.rank)
  reducesTo_S200000_S_d0 : S200000.ReducesTo [0] S_

variable [Facts]

def fn_part8 {F : FTy → Type} [FloatOps F] (main_arg29 : IVec S200000 32) (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  let main_c_54 : IVec S_ 32 := constantI S_ 32 0#32
  let main_v139 : IVec S200000 32 := broadcastInDim S200000 ![] bcast_S_S200000 main_c_54
  let main_v140 : IVec S200000 1 := cmpi .sge main_arg29 main_v139
  let main_c_55 : IVec S_ 1 := constantI S_ 1 1#1
  let main_v141 : IVec S_ 1 := (fun x v => Host.reduce IntOp.andi x v reducesTo_S200000_S_d0 h_S_) main_v140 main_c_55
  let main_v142 : IVec S_ 1 := andi main_v138 main_v141
  main_v142

def fn_part7 {F : FTy → Type} [FloatOps F] (main_arg25 : FVec F S128 .f32) (main_arg26 : FVec F S128x1 .f32) (main_arg27 : FVec F S1 .f32) (main_arg29 : IVec S200000 32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x1 .f32 := Host.absf main_arg26
  let main_cst_50 : FVec F S_ .f32 := constant S_ .f32 0x7F800000#32
  let main_v130 : FVec F S128x1 .f32 := broadcastInDim S128x1 ![] bcast_S_S128x1 main_cst_50
  let main_v131 : IVec S128x1 1 := cmpf .olt main_v129 main_v130
  let main_c_51 : IVec S_ 1 := constantI S_ 1 1#1
  let main_v132 : IVec S_ 1 := (fun x v => Host.reduce IntOp.andi x v reducesTo_S128x1_S_d0_1 h_S_) main_v131 main_c_51
  let main_v133 : IVec S_ 1 := andi main_v128 main_v132
  let main_v134 : FVec F S1 .f32 := Host.absf main_arg27
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_arg29 main_v133 main_v136

def fn_part6 {F : FTy → Type} [FloatOps F] (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v98 : IVec S_ 1) (main_v101 : IVec S192x128 1) (main_c_39 : IVec S_ 1) : IVec S_ 1 :=
  let main_v102 : IVec S_ 1 := (fun x v => Host.reduce IntOp.andi x v reducesTo_S192x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg24
  fn_part7 (F := F) main_arg25 main_arg26 main_arg27 main_arg29 main_v118 main_v119

def fn_part5 {F : FTy → Type} [FloatOps F] (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v83 : IVec S_ 1) (main_v84 : FVec F S192 .f32) (main_cst_32 : FVec F S_ .f32) : IVec S_ 1 :=
  let main_v85 : FVec F S192 .f32 := broadcastInDim S192 ![] bcast_S_S192 main_cst_32
  let main_v86 : IVec S192 1 := cmpf .olt main_v84 main_v85
  let main_c_33 : IVec S_ 1 := constantI S_ 1 1#1
  let main_v87 : IVec S_ 1 := (fun x v => Host.reduce IntOp.andi x v reducesTo_S192_S_d0 h_S_) main_v86 main_c_33
  let main_v88 : IVec S_ 1 := andi main_v83 main_v87
  let main_v89 : FVec F S192 .f32 := Host.absf main_arg18
  let main_cst_34 : FVec F S_ .f32 := constant S_ .f32 0x7F800000#32
  let main_v90 : FVec F S192 .f32 := broadcastInDim S192 ![] bcast_S_S192 main_cst_34
  let main_v91 : IVec S192 1 := cmpf .olt main_v89 main_v90
  let main_c_35 : IVec S_ 1 := constantI S_ 1 1#1
  let main_v92 : IVec S_ 1 := (fun x v => Host.reduce IntOp.andi x v reducesTo_S192_S_d0 h_S_) main_v91 main_c_35
  let main_v93 : IVec S_ 1 := andi main_v88 main_v92
  let main_v94 : FVec F S192 .f32 := Host.absf main_arg19
  let main_cst_36 : FVec F S_ .f32 := constant S_ .f32 0x7F800000#32
  let main_v95 : FVec F S192 .f32 := broadcastInDim S192 ![] bcast_S_S192 main_cst_36
  let main_v96 : IVec S192 1 := cmpf .olt main_v94 main_v95
  let main_c_37 : IVec S_ 1 := constantI S_ 1 1#1
  let main_v97 : IVec S_ 1 := (fun x v => Host.reduce IntOp.andi x v reducesTo_S192_S_d0 h_S_) main_v96 main_c_37
  let main_v98 : IVec S_ 1 := andi main_v93 main_v97
  let main_v99 : FVec F S192x128 .f32 := Host.absf main_arg20
  let main_cst_38 : FVec F S_ .f32 := constant S_ .f32 0x7F800000#32
  let main_v100 : FVec F S192x128 .f32 := broadcastInDim S192x128 ![] bcast_S_S192x128 main_cst_38
  let main_v101 : IVec S192x128 1 := cmpf .olt main_v99 main_v100
  let main_c_39 : IVec S_ 1 := constantI S_ 1 1#1
  fn_part6 (F := F) main_arg21 main_arg22 main_arg23 main_arg24 main_arg25 main_arg26 main_arg27 main_arg29 main_v98 main_v101 main_c_39

def fn_part4 {F : FTy → Type} [FloatOps F] (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v63 : IVec S_ 1) (main_v67 : IVec S_ 1) : IVec S_ 1 :=
  let main_v68 : IVec S_ 1 := andi main_v63 main_v67
  let main_v69 : FVec F S256x192 .f32 := Host.absf main_arg14
  let main_cst_26 : FVec F S_ .f32 := constant S_ .f32 0x7F800000#32
  let main_v70 : FVec F S256x192 .f32 := broadcastInDim S256x192 ![] bcast_S_S256x192 main_cst_26
  let main_v71 : IVec S256x192 1 := cmpf .olt main_v69 main_v70
  let main_c_27 : IVec S_ 1 := constantI S_ 1 1#1
  let main_v72 : IVec S_ 1 := (fun x v => Host.reduce IntOp.andi x v reducesTo_S256x192_S_d0_1 h_S_) main_v71 main_c_27
  let main_v73 : IVec S_ 1 := andi main_v68 main_v72
  let main_v74 : FVec F S192 .f32 := Host.absf main_arg15
  let main_cst_28 : FVec F S_ .f32 := constant S_ .f32 0x7F800000#32
  let main_v75 : FVec F S192 .f32 := broadcastInDim S192 ![] bcast_S_S192 main_cst_28
  let main_v76 : IVec S192 1 := cmpf .olt main_v74 main_v75
  let main_c_29 : IVec S_ 1 := constantI S_ 1 1#1
  let main_v77 : IVec S_ 1 := (fun x v => Host.reduce IntOp.andi x v reducesTo_S192_S_d0 h_S_) main_v76 main_c_29
  let main_v78 : IVec S_ 1 := andi main_v73 main_v77
  let main_v79 : FVec F S192 .f32 := Host.absf main_arg16
  let main_cst_30 : FVec F S_ .f32 := constant S_ .f32 0x7F800000#32
  let main_v80 : FVec F S192 .f32 := broadcastInDim S192 ![] bcast_S_S192 main_cst_30
  let main_v81 : IVec S192 1 := cmpf .olt main_v79 main_v80
  let main_c_31 : IVec S_ 1 := constantI S_ 1 1#1
  let main_v82 : IVec S_ 1 := (fun x v => Host.reduce IntOp.andi x v reducesTo_S192_S_d0 h_S_) main_v81 main_c_31
  let main_v83 : IVec S_ 1 := andi main_v78 main_v82
  let main_v84 : FVec F S192 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg29 main_v83 main_v84 main_cst_32

def fn_part3 {F : FTy → Type} [FloatOps F] (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg29 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg29 main_v48 main_v49 main_v50

def fn_part1 {F : FTy → Type} [FloatOps F] (main_arg4 : FVec F S64x128 .f32) (main_arg5 : FVec F S128 .f32) (main_arg6 : FVec F S8x256 .f32) (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg29 : IVec S200000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S8x256 .f32 := Host.absf main_arg6
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg29 main_v33

def fn {F : FTy → Type} [FloatOps F] (main_arg0 : FVec F S200000x2 .f32) (main_arg1 : FVec F S512x8 .f32) (main_arg2 : FVec F S2x64 .f32) (main_arg3 : FVec F S64 .f32) (main_arg4 : FVec F S64x128 .f32) (main_arg5 : FVec F S128 .f32) (main_arg6 : FVec F S8x256 .f32) (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S256x192 .f32) (main_arg15 : FVec F S192 .f32) (main_arg16 : FVec F S192 .f32) (main_arg17 : FVec F S192 .f32) (main_arg18 : FVec F S192 .f32) (main_arg19 : FVec F S192 .f32) (main_arg20 : FVec F S192x128 .f32) (main_arg21 : FVec F S128 .f32) (main_arg22 : FVec F S128 .f32) (main_arg23 : FVec F S128 .f32) (main_arg24 : FVec F S128 .f32) (main_arg25 : FVec F S128 .f32) (main_arg26 : FVec F S128x1 .f32) (main_arg27 : FVec F S1 .f32) (main_arg28 : IVec S2x600000 32) (main_arg29 : IVec S200000 32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S512x8 .f32 := Host.absf main_arg1
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg29 main_v13 main_v16
-- ==== Kernel.lean ====
abbrev S200000x2 : Shape := ⟨2, ![200000, 2]⟩
abbrev S512x8 : Shape := ⟨2, ![512, 8]⟩
abbrev S2x64 : Shape := ⟨2, ![2, 64]⟩
abbrev S64 : Shape := ⟨1, ![64]⟩
abbrev S64x128 : Shape := ⟨2, ![64, 128]⟩
abbrev S128 : Shape := ⟨1, ![128]⟩
abbrev S8x256 : Shape := ⟨2, ![8, 256]⟩
abbrev S256 : Shape := ⟨1, ![256]⟩
abbrev S256x128 : Shape := ⟨2, ![256, 128]⟩
abbrev S256x192 : Shape := ⟨2, ![256, 192]⟩
abbrev S192 : Shape := ⟨1, ![192]⟩
abbrev S192x128 : Shape := ⟨2, ![192, 128]⟩
abbrev S128x1 : Shape := ⟨2, ![128, 1]⟩
abbrev S1 : Shape := ⟨1, ![1]⟩
abbrev S2x600000 : Shape := ⟨2, ![2, 600000]⟩
abbrev S200000 : Shape := ⟨1, ![200000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S200000x1 : Shape := ⟨2, ![200000, 1]⟩
abbrev S200000x64 : Shape := ⟨2, ![200000, 64]⟩
abbrev S4000x2 : Shape := ⟨2, ![4000, 2]⟩
abbrev S4000x64 : Shape := ⟨2, ![4000, 64]⟩
abbrev S600000x64 : Shape := ⟨2, ![600000, 64]⟩
abbrev S1x64 : Shape := ⟨2, ![1, 64]⟩
abbrev S4000x1 : Shape := ⟨2, ![4000, 1]⟩
abbrev S200000x128 : Shape := ⟨2, ![200000, 128]⟩
abbrev S4000x128 : Shape := ⟨2, ![4000, 128]⟩
abbrev S600000x128 : Shape := ⟨2, ![600000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S1x256 : Shape := ⟨2, ![1, 256]⟩
abbrev S512x256 : Shape := ⟨2, ![512, 256]⟩
abbrev S1x192 : Shape := ⟨2, ![1, 192]⟩
abbrev S1x1 : Shape := ⟨2, ![1, 1]⟩
abbrev S128x192 : Shape := ⟨2, ![128, 192]⟩
abbrev S512x192 : Shape := ⟨2, ![512, 192]⟩

abbrev nBuf : Space → Nat
  | .hbm => 149
  | .vmem => 56
  | .smem => 0
  | _ => 0

abbrev hbmTy0_0 (i : Nat) : BufTy := match i % 128 with
  | 0 => ⟨S200000x2, .f32⟩
  | 1 => ⟨S512x8, .f32⟩
  | 2 => ⟨S2x64, .f32⟩
  | 3 => ⟨S64, .f32⟩
  | 4 => ⟨S64x128, .f32⟩
  | 5 => ⟨S128, .f32⟩
  | 6 => ⟨S8x256, .f32⟩
  | 7 => ⟨S256, .f32⟩
  | 8 => ⟨S256, .f32⟩
  | 9 => ⟨S256, .f32⟩
  | 10 => ⟨S256, .f32⟩
  | 11 => ⟨S256, .f32⟩
  | 12 => ⟨S256x128, .f32⟩
  | 13 => ⟨S128, .f32⟩
  | 14 => ⟨S256x192, .f32⟩
  | 15 => ⟨S192, .f32⟩
  | 16 => ⟨S192, .f32⟩
  | 17 => ⟨S192, .f32⟩
  | 18 => ⟨S192, .f32⟩
  | 19 => ⟨S192, .f32⟩
  | 20 => ⟨S192x128, .f32⟩
  | 21 => ⟨S128, .f32⟩
  | 22 => ⟨S128, .f32⟩
  | 23 => ⟨S128, .f32⟩
  | 24 => ⟨S128, .f32⟩
  | 25 => ⟨S128, .f32⟩
  | 26 => ⟨S128x1, .f32⟩
  | 27 => ⟨S1, .f32⟩
  | 28 => ⟨S2x600000, .i32⟩
  | 29 => ⟨S200000, .i32⟩
  | 30 => ⟨S1x600000, .i32⟩
  | 31 => ⟨S600000, .i32⟩
  | 32 => ⟨S1x600000, .i32⟩
  | 33 => ⟨S600000, .i32⟩
  | 34 => ⟨S_, .f32⟩
  | 35 => ⟨S200000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S_, .f32⟩
  | 45 => ⟨S600000, .f32⟩
  | 46 => ⟨S200000, .f32⟩
  | 47 => ⟨S_, .f32⟩
  | 48 => ⟨S200000, .f32⟩
  | 49 => ⟨S200000, .f32⟩
  | 50 => ⟨S_, .f32⟩
  | 51 => ⟨S200000, .f32⟩
  | 52 => ⟨S200000, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000, .f32⟩
  | 71 => ⟨S600000, .f32⟩
  | 72 => ⟨S200000x1, .f32⟩
  | 73 => ⟨S200000x64, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x64, .f32⟩
  | 83 => ⟨S600000x1, .f32⟩
  | 84 => ⟨S600000x64, .f32⟩
  | 85 => ⟨S600000x64, .f32⟩
  | 86 => ⟨S_, .f32⟩
  | 87 => ⟨S200000x64, .f32⟩
  | 88 => ⟨S600000x1, .i32⟩
  | 89 => ⟨S200000x64, .f32⟩
  | 90 => ⟨S1x64, .f32⟩
  | 91 => ⟨S200000x64, .f32⟩
  | 92 => ⟨S200000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S600000x1, .f32⟩
  | 103 => ⟨S600000x128, .f32⟩
  | 104 => ⟨S600000x128, .f32⟩
  | 105 => ⟨S_, .f32⟩
  | 106 => ⟨S200000x128, .f32⟩
  | 107 => ⟨S600000x1, .i32⟩
  | 108 => ⟨S200000x128, .f32⟩
  | 109 => ⟨S1x128, .f32⟩
  | 110 => ⟨S200000x128, .f32⟩
  | 111 => ⟨S_, .f32⟩
  | 112 => ⟨S512, .f32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S_, .f32⟩
  | 122 => ⟨S200000, .f32⟩
  | 123 => ⟨S512, .f32⟩
  | 124 => ⟨S_, .f32⟩
  | 125 => ⟨S512x128, .f32⟩
  | 126 => ⟨S200000x1, .i32⟩
  | 127 => ⟨S512x128, .f32⟩
  | _ => ⟨S200000x2, .f32⟩

abbrev hbmTy0_1 (i : Nat) : BufTy := match i % 128 with
  | 0 => ⟨S512x1, .f32⟩
  | 1 => ⟨S1x256, .f32⟩
  | 2 => ⟨S1x256, .f32⟩
  | 3 => ⟨S1x256, .f32⟩
  | 4 => ⟨S1x256, .f32⟩
  | 5 => ⟨S1x256, .f32⟩
  | 6 => ⟨S1x128, .f32⟩
  | 7 => ⟨S512x128, .f32⟩
  | 8 => ⟨S1x192, .f32⟩
  | 9 => ⟨S1x192, .f32⟩
  | 10 => ⟨S1x192, .f32⟩
  | 11 => ⟨S1x192, .f32⟩
  | 12 => ⟨S1x192, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S1x1, .f32⟩
  | 19 => ⟨S512x1, .f32⟩
  | 20 => ⟨S512, .f32⟩
  | _ => ⟨S200000x2, .f32⟩

abbrev hbmTy (i : Nat) : BufTy := match i / 128 with
  | 0 => hbmTy0_0 i
  | 1 => hbmTy0_1 i
  | _ => ⟨S200000x2, .f32⟩

abbrev bufTy : (tb : Table) → Fin (tcTables nBuf tb) → BufTy
  | .hbm, ⟨i, _⟩ => hbmTy i
  | .local _ .vmem, ⟨0, _⟩ => ⟨S4000x2, .f32⟩
  | .local _ .vmem, ⟨1, _⟩ => ⟨S4000x2, .f32⟩
  | .local _ .vmem, ⟨2, _⟩ => ⟨S2x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S64x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S512x8, .f32⟩
  | .local _ .vmem, ⟨29, _⟩ => ⟨S8x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S256x128, .f32⟩
  | .local _ .vmem, ⟨36, _⟩ => ⟨S1x128, .f32⟩
  | .local _ .vmem, ⟨37, _⟩ => ⟨S512x128, .f32⟩
  | .local _ .vmem, ⟨38, _⟩ => ⟨S512x128, .f32⟩
  | .local _ .vmem, ⟨39, _⟩ => ⟨S512x1, .f32⟩
  | .local _ .vmem, ⟨40, _⟩ => ⟨S512x128, .f32⟩
  | .local _ .vmem, ⟨41, _⟩ => ⟨S256x192, .f32⟩
  | .local _ .vmem, ⟨42, _⟩ => ⟨S1x192, .f32⟩
  | .local _ .vmem, ⟨43, _⟩ => ⟨S1x192, .f32⟩
  | .local _ .vmem, ⟨44, _⟩ => ⟨S1x192, .f32⟩
  | .local _ .vmem, ⟨45, _⟩ => ⟨S1x192, .f32⟩
  | .local _ .vmem, ⟨46, _⟩ => ⟨S1x192, .f32⟩
  | .local _ .vmem, ⟨47, _⟩ => ⟨S192x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S128x1, .f32⟩
  | .local _ .vmem, ⟨54, _⟩ => ⟨S1x1, .f32⟩
  | .local _ .vmem, ⟨55, _⟩ => ⟨S512x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_c : Ref sig .tc := ⟨.hbm, 36, rfl⟩
abbrev main_v5 : Ref sig .tc := ⟨.hbm, 37, rfl⟩
abbrev main_v6 : Ref sig .tc := ⟨.hbm, 38, rfl⟩
abbrev main_c_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_v16 : Ref sig .tc := ⟨.hbm, 52, rfl⟩
abbrev main_c_4 : Ref sig .tc := ⟨.hbm, 53, rfl⟩
abbrev main_v17 : Ref sig .tc := ⟨.hbm, 54, rfl⟩
abbrev main_v18 : Ref sig .tc := ⟨.hbm, 55, rfl⟩
abbrev main_c_5 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_6 : Ref sig .tc := ⟨.hbm, 62, rfl⟩
abbrev main_v24 : Ref sig .tc := ⟨.hbm, 63, rfl⟩
abbrev main_v25 : Ref sig .tc := ⟨.hbm, 64, rfl⟩
abbrev main_c_7 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_8 : Ref sig .tc := ⟨.hbm, 74, rfl⟩
abbrev main_v34 : Ref sig .tc := ⟨.hbm, 75, rfl⟩
abbrev main_v35 : Ref sig .tc := ⟨.hbm, 76, rfl⟩
abbrev main_c_9 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_11 : Ref sig .tc := ⟨.hbm, 93, rfl⟩
abbrev main_v50 : Ref sig .tc := ⟨.hbm, 94, rfl⟩
abbrev main_v51 : Ref sig .tc := ⟨.hbm, 95, rfl⟩
abbrev main_c_12 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_13 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_14 : Ref sig .tc := ⟨.hbm, 111, rfl⟩
abbrev main_v65 : Ref sig .tc := ⟨.hbm, 112, rfl⟩
abbrev main_c_15 : Ref sig .tc := ⟨.hbm, 113, rfl⟩
abbrev main_v66 : Ref sig .tc := ⟨.hbm, 114, rfl⟩
abbrev main_v67 : Ref sig .tc := ⟨.hbm, 115, rfl⟩
abbrev main_c_16 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_17 : Ref sig .tc := ⟨.hbm, 121, rfl⟩
abbrev main_v72 : Ref sig .tc := ⟨.hbm, 122, rfl⟩
abbrev main_v73 : Ref sig .tc := ⟨.hbm, 123, rfl⟩
abbrev main_cst_18 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg9_0 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg7_0 : Ref sig .tc := ⟨.vmem, 45, rfl⟩
abbrev cc5_stg8_0 : Ref sig .tc := ⟨.vmem, 46, rfl⟩
abbrev cc5_stg9_0 : Ref sig .tc := ⟨.vmem, 47, rfl⟩
abbrev cc5_stg10_0 : Ref sig .tc := ⟨.vmem, 48, rfl⟩
abbrev cc5_stg11_0 : Ref sig .tc := ⟨.vmem, 49, rfl⟩
abbrev cc5_stg12_0 : Ref sig .tc := ⟨.vmem, 50, rfl⟩
abbrev cc5_stg13_0 : Ref sig .tc := ⟨.vmem, 51, rfl⟩
abbrev cc5_stg14_0 : Ref sig .tc := ⟨.vmem, 52, rfl⟩
abbrev cc5_stg15_0 : Ref sig .tc := ⟨.vmem, 53, rfl⟩
abbrev cc5_stg16_0 : Ref sig .tc := ⟨.vmem, 54, rfl⟩
abbrev cc5_stg17_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc4_sem8_0 : DmaSem sig := 36
abbrev cc4_sem9_0 : DmaSem sig := 37
abbrev cc5_sem0_0 : DmaSem sig := 38
abbrev cc5_sem1_0 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem7_0 : DmaSem sig := 45
abbrev cc5_sem8_0 : DmaSem sig := 46
abbrev cc5_sem9_0 : DmaSem sig := 47
abbrev cc5_sem10_0 : DmaSem sig := 48
abbrev cc5_sem11_0 : DmaSem sig := 49
abbrev cc5_sem12_0 : DmaSem sig := 50
abbrev cc5_sem13_0 : DmaSem sig := 51
abbrev cc5_sem14_0 : DmaSem sig := 52
abbrev cc5_sem15_0 : DmaSem sig := 53
abbrev cc5_sem16_0 : DmaSem sig := 54
abbrev cc5_sem17_0 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x8 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S8x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_17 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S512x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x192 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x192 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x192 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S192x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x128 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S128x1 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S1x1 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

abbrev stage5_17 : Fin 1 → Memref sig .tc .vmem S512x1 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))
abbrev reads5_17 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S200000 : S_.BroadcastsInDim S200000 (![] : Fin 0 → Fin S200000.rank)
  bcast_S_S600000 : S_.BroadcastsInDim S600000 (![] : Fin 0 → Fin S600000.rank)
  bcast_S600000_S600000x1_0 : S600000.BroadcastsInDim S600000x1 (![0] : Fin 1 → Fin S600000x1.rank)
  bcast_S200000_S200000x1_0 : S200000.BroadcastsInDim S200000x1 (![0] : Fin 1 → Fin S200000x1.rank)
  inb_S4000x2_S4000x2_0_0 : ∀ a, (![0, 0] : Fin 2 → Nat) a + S4000x2.size a ≤ S4000x2.size a
  h_S4000x2 : 0 < S4000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S4000x64_S4000x64_0_0 : ∀ a, (![0, 0] : Fin 2 → Nat) a + S4000x64.size a ≤ S4000x64.size a
  h_S4000x64 : 0 < S4000x64.numel
  bcast_S600000x1_S600000x64_0_1 : S600000x1.BroadcastsInDim S600000x64 (![0, 1] : Fin 2 → Fin S600000x64.rank)
  bcast_S_S200000x64 : S_.BroadcastsInDim S200000x64 (![] : Fin 0 → Fin S200000x64.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  inb_S4000x128_S4000x128_0_0 : ∀ a, (![0, 0] : Fin 2 → Nat) a + S4000x128.size a ≤ S4000x128.size a
  h_S4000x128 : 0 < S4000x128.numel
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  shapeCasts_S128_S1x128 : S128.ShapeCasts S1x128
  shapeCasts_S4000x128_S4000x128 : S4000x128.ShapeCasts S4000x128
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  shapeCasts_S256_S1x256 : S256.ShapeCasts S1x256
  inb_S512x8_S512x8_0_0 : ∀ a, (![0, 0] : Fin 2 → Nat) a + S512x8.size a ≤ S512x8.size a
  h_S512x8 : 0 < S512x8.numel
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S192_S1x192 : S192.ShapeCasts S1x192
  shapeCasts_S1_S1x1 : S1.ShapeCasts S1x1
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S256x192_S256x192_0_0 : ∀ a, (![0, 0] : Fin 2 → Nat) a + S256x192.size a ≤ S256x192.size a
  h_S256x192 : 0 < S256x192.numel
  slices_S256x192_o0_0_S128x192 : S256x192.Slices ![0, 0] S128x192
  slices_S256x192_o128_0_S128x192 : S256x192.Slices ![128, 0] S128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S512x192 : S1x192.Broadcasts S512x192
  inb_S192x128_S192x128_0_0 : ∀ a, (![0, 0] : Fin 2 → Nat) a + S192x128.size a ≤ S192x128.size a
  h_S192x128 : 0 < S192x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  dot_S4000x2_S2x64_S4000x64_1_0_0_1_n_n_wf : DotDims.WF S4000x2 S2x64 S4000x64 [1] [0] [0] [1] [] []
  gather_S200000x64_S600000x1_S600000x64_1_0_n_n_0_1_164_wf : GatherDims.WF S200000x64 S600000x1 S600000x64 [1] [0] [] [0] [] 1 ![1, 64]
  scatter_S200000x64_S600000x1_S600000x64_1_0_0_1_wf : ScatterDims.WF S200000x64 S600000x1 S600000x64 [1] [0] [0] 1
  dot_S4000x64_S64x128_S4000x128_1_0_0_1_n_n_wf : DotDims.WF S4000x64 S64x128 S4000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S512_S200000x1_S200000_n_0_0_1_wf : ScatterDims.WF S512 S200000x1 S200000 [] [0] [0] 1
  scatter_S512x128_S200000x1_S200000x128_1_0_0_1_wf : ScatterDims.WF S512x128 S200000x1 S200000x128 [1] [0] [0] 1
  dot_S512x8_S8x256_S512x256_1_0_0_1_n_n_wf : DotDims.WF S512x8 S8x256 S512x256 [1] [0] [0] [1] [] []
  dot_S512x256_S256x128_S512x128_1_0_0_1_n_n_wf : DotDims.WF S512x256 S256x128 S512x128 [1] [0] [0] [1] [] []
  dot_S512x128_S128x192_S512x192_1_0_0_1_n_n_wf : DotDims.WF S512x128 S128x192 S512x192 [1] [0] [0] [1] [] []
  dot_S512x192_S192x128_S512x128_1_0_0_1_n_n_wf : DotDims.WF S512x192 S192x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S200000x2.size a
  hwx0_0 : ∀ i : grid0.Coords, EltTy.bits .f32 = 32 ∨ (Rect.block (s := S200000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S200000x64.size a
  hwx0_2 : ∀ i : grid0.Coords, EltTy.bits .f32 = 32 ∨ (Rect.block (s := S200000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S200000x64.size a
  hwx1_4 : ∀ i : grid1.Coords, EltTy.bits .f32 = 32 ∨ (Rect.block (s := S200000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S200000x128.size a
  hwx2_2 : ∀ i : grid2.Coords, EltTy.bits .f32 = 32 ∨ (Rect.block (s := S200000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S200000x1.size a
  hwx3_2 : ∀ i : grid3.Coords, EltTy.bits .f32 = 32 ∨ (Rect.block (s := S200000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S200000x128.size a
  hwx3_4 : ∀ i : grid3.Coords, EltTy.bits .f32 = 32 ∨ (Rect.block (s := S200000x128) S4000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x8.size a ≤ S512x8.size a
  hwx4_0 : ∀ i : grid4.Coords, EltTy.bits .f32 = 32 ∨ (Rect.block (s := S512x8) S512x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x256.size a ≤ S8x256.size a
  hwx4_1 : ∀ i : grid4.Coords, EltTy.bits .f32 = 32 ∨ (Rect.block (s := S8x256) S8x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S512x128.size a ≤ S512x128.size a
  hwx4_9 : ∀ i : grid4.Coords, EltTy.bits .f32 = 32 ∨ (Rect.block (s := S512x128) S512x128.size (cc4_transform_9 i) (hinb4_9 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x1.size a ≤ S512x1.size a
  hwx5_1 : ∀ i : grid5.Coords, EltTy.bits .f32 = 32 ∨ (Rect.block (s := S512x1) S512x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x128.size a ≤ S512x128.size a
  hwx5_2 : ∀ i : grid5.Coords, EltTy.bits .f32 = 32 ∨ (Rect.block (s := S512x128) S512x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x192.size a ≤ S256x192.size a
  hwx5_3 : ∀ i : grid5.Coords, EltTy.bits .f32 = 32 ∨ (Rect.block (s := S256x192) S256x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x192.size a ≤ S1x192.size a
  hwx5_4 : ∀ i : grid5.Coords, EltTy.bits .f32 = 32 ∨ (Rect.block (s := S1x192) S1x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x192.size a ≤ S1x192.size a
  hwx5_6 : ∀ i : grid5.Coords, EltTy.bits .f32 = 32 ∨ (Rect.block (s := S1x192) S1x192.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x192.size a ≤ S1x192.size a
  hwx5_7 : ∀ i : grid5.Coords, EltTy.bits .f32 = 32 ∨ (Rect.block (s := S1x192) S1x192.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x192.size a ≤ S1x192.size a
  hwx5_8 : ∀ i : grid5.Coords, EltTy.bits .f32 = 32 ∨ (Rect.block (s := S1x192) S1x192.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S192x128.size a ≤ S192x128.size a
  hwx5_9 : ∀ i : grid5.Coords, EltTy.bits .f32 = 32 ∨ (Rect.block (s := S192x128) S192x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x128.size a ≤ S1x128.size a
  hwx5_12 : ∀ i : grid5.Coords, EltTy.bits .f32 = 32 ∨ (Rect.block (s := S1x128) S1x128.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x128.size a ≤ S1x128.size a
  hwx5_13 : ∀ i : grid5.Coords, EltTy.bits .f32 = 32 ∨ (Rect.block (s := S1x128) S1x128.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x128.size a ≤ S1x128.size a
  hwx5_14 : ∀ i : grid5.Coords, EltTy.bits .f32 = 32 ∨ (Rect.block (s := S1x128) S1x128.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S128x1.size a ≤ S128x1.size a
  hwx5_15 : ∀ i : grid5.Coords, EltTy.bits .f32 = 32 ∨ (Rect.block (s := S128x1) S128x1.size (cc5_transform_15 i) (hinb5_15 i)).WholeWords (EltTy.packing .f32)
  hstage5_16 : ∀ j, (stage5_16 j).IsWhole
  nbuf5_16 : grid5.bufCount reads5_16 true = 1
  hreads5_16 : ∀ i i' : grid5.Coords, (∀ a, reads5_16 a = true → i a = i' a) → cc5_transform_16 i = cc5_transform_16 i'
  hinb5_16 : ∀ (i : grid5.Coords) a, (cc5_transform_16 i a + 1) * S1x1.size a ≤ S1x1.size a
  hwx5_16 : ∀ i : grid5.Coords, EltTy.bits .f32 = 32 ∨ (Rect.block (s := S1x1) S1x1.size (cc5_transform_16 i) (hinb5_16 i)).WholeWords (EltTy.packing .f32)
  hstage5_17 : ∀ j, (stage5_17 j).IsWhole
  nbuf5_17 : grid5.bufCount reads5_17 true = 1
  hreads5_17 : ∀ i i' : grid5.Coords, (∀ a, reads5_17 a = true → i a = i' a) → cc5_transform_17 i = cc5_transform_17 i'
  hinb5_17 : ∀ (i : grid5.Coords) a, (cc5_transform_17 i a + 1) * S512x1.size a ≤ S512x1.size a
  hwx5_17 : ∀ i : grid5.Coords, EltTy.bits .f32 = 32 ∨ (Rect.block (s := S512x1) S512x1.size (cc5_transform_17 i) (hinb5_17 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def dot_S4000x2_S2x64_S4000x64_1_0_0_1_n_n : DotDims S4000x2 S2x64 S4000x64 where
  lhsContracting := [1]
  rhsContracting := [0]
  lhsNonContracting := [0]
  rhsNonContracting := [1]
  lhsBatch := []
  rhsBatch := []
  wf := dot_S4000x2_S2x64_S4000x64_1_0_0_1_n_n_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x128_S200000x1_S200000x128_1_0_0_1 : ScatterDims S512x128 S200000x1 S200000x128 where
  updateWindowDims := [1]
  insertedWindowDims := [0]
  scatterDimsToOperandDims := [0]
  indexVectorDim := 1
  wf := scatter_S512x128_S200000x1_S200000x128_1_0_0_1_wf
def dot_S512x8_S8x256_S512x256_1_0_0_1_n_n : DotDims S512x8 S8x256 S512x256 where
  lhsContracting := [1]
  rhsContracting := [0]
  lhsNonContracting := [0]
  rhsNonContracting := [1]
  lhsBatch := []
  rhsBatch := []
  wf := dot_S512x8_S8x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x192_S512x192_1_0_0_1_n_n : DotDims S512x128 S128x192 S512x192 where
  lhsContracting := [1]
  rhsContracting := [0]
  lhsNonContracting := [0]
  rhsNonContracting := [1]
  lhsBatch := []
  rhsBatch := []
  wf := dot_S512x128_S128x192_S512x192_1_0_0_1_n_n_wf
def dot_S512x192_S192x128_S512x128_1_0_0_1_n_n : DotDims S512x192 S192x128 S512x128 where
  lhsContracting := [1]
  rhsContracting := [0]
  lhsNonContracting := [0]
  rhsNonContracting := [1]
  lhsBatch := []
  rhsBatch := []
  wf := dot_S512x192_S192x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S512x8.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S8x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg12) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v83) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v84) S512x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v76) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v77) S512x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S512x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S256x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S1x192.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v88) S1x192.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v89) S1x192.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg20) S192x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v90) S1x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v91) S1x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v92) S1x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v93) S1x128.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v94) S1x128.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_arg26) S128x1.size cc5_transform_15 reads5_15 false true 1 stage5_15 sem5_15
    hrank5 hreads5_15 hinb5_15 nbuf5_15 (Memref.isWhole_whole _) hwx5_15 hstage5_15

abbrev win5_16 : Pipeline.Window sig grid5 :=
  Pipeline.Window.ofSpec (Memref.whole main_v95) S1x1.size cc5_transform_16 reads5_16 false true 1 stage5_16 sem5_16
    hrank5 hreads5_16 hinb5_16 nbuf5_16 (Memref.isWhole_whole _) hwx5_16 hstage5_16

abbrev win5_17 : Pipeline.Window sig grid5 :=
  Pipeline.Window.ofSpec (Memref.whole main_v96) S512x1.size cc5_transform_17 reads5_17 true true 1 stage5_17 sem5_17
    hrank5 hreads5_17 hinb5_17 nbuf5_17 (Memref.isWhole_whole _) hwx5_17 hstage5_17

abbrev win5 : Fin 18 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | 17 => win5_17 | ⟨_ + 18, h⟩ => absurd h (Nat.not_lt.2 (Nat.le_add_left _ _))
abbrev spec5 : Fin 18 → Pipeline.WinSpec sig grid5.rank := fun w => (win5 w).toWinSpec

class Facts : Prop extends Facts₀ where

variable [Facts]
-- ==== ReferenceIdeal.lean ====
abbrev S200000x2 : Shape := ⟨2, ![200000, 2]⟩
abbrev S512x8 : Shape := ⟨2, ![512, 8]⟩
abbrev S2x64 : Shape := ⟨2, ![2, 64]⟩
abbrev S64 : Shape := ⟨1, ![64]⟩
abbrev S64x128 : Shape := ⟨2, ![64, 128]⟩
abbrev S128 : Shape := ⟨1, ![128]⟩
abbrev S8x256 : Shape := ⟨2, ![8, 256]⟩
abbrev S256 : Shape := ⟨1, ![256]⟩
abbrev S256x128 : Shape := ⟨2, ![256, 128]⟩
abbrev S256x192 : Shape := ⟨2, ![256, 192]⟩
abbrev S192 : Shape := ⟨1, ![192]⟩
abbrev S192x128 : Shape := ⟨2, ![192, 128]⟩
abbrev S128x1 : Shape := ⟨2, ![128, 1]⟩
abbrev S1 : Shape := ⟨1, ![1]⟩
abbrev S2x600000 : Shape := ⟨2, ![2, 600000]⟩
abbrev S200000 : Shape := ⟨1, ![200000]⟩
abbrev S1x600000 : Shape := ⟨2, ![1, 600000]⟩
abbrev S600000 : Shape := ⟨1, ![600000]⟩
abbrev S200000x64 : Shape := ⟨2, ![200000, 64]⟩
abbrev S_ : Shape := ⟨0, ![]⟩
abbrev S600000x1 : Shape := ⟨2, ![600000, 1]⟩
abbrev S600000x64 : Shape := ⟨2, ![600000, 64]⟩
abbrev S200000x1 : Shape := ⟨2, ![200000, 1]⟩
abbrev S1x64 : Shape := ⟨2, ![1, 64]⟩
abbrev S200000x128 : Shape := ⟨2, ![200000, 128]⟩
abbrev S600000x128 : Shape := ⟨2, ![600000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S512x256 : Shape := ⟨2, ![512, 256]⟩
abbrev S1x256 : Shape := ⟨2, ![1, 256]⟩
abbrev S512x192 : Shape := ⟨2, ![512, 192]⟩
abbrev S1x192 : Shape := ⟨2, ![1, 192]⟩
abbrev S1x1 : Shape := ⟨2, ![1, 1]⟩

abbrev nBuf : Space → Nat
  | .hbm => 269
  | .vmem => 0
  | .smem => 0
  | _ => 0

abbrev hbmTy0_0 (i : Nat) : BufTy := match i % 128 with
  | 0 => ⟨S200000x2, .f32⟩
  | 1 => ⟨S512x8, .f32⟩
  | 2 => ⟨S2x64, .f32⟩
  | 3 => ⟨S64, .f32⟩
  | 4 => ⟨S64x128, .f32⟩
  | 5 => ⟨S128, .f32⟩
  | 6 => ⟨S8x256, .f32⟩
  | 7 => ⟨S256, .f32⟩
  | 8 => ⟨S256, .f32⟩
  | 9 => ⟨S256, .f32⟩
  | 10 => ⟨S256, .f32⟩
  | 11 => ⟨S256, .f32⟩
  | 12 => ⟨S256x128, .f32⟩
  | 13 => ⟨S128, .f32⟩
  | 14 => ⟨S256x192, .f32⟩
  | 15 => ⟨S192, .f32⟩
  | 16 => ⟨S192, .f32⟩
  | 17 => ⟨S192, .f32⟩
  | 18 => ⟨S192, .f32⟩
  | 19 => ⟨S192, .f32⟩
  | 20 => ⟨S192x128, .f32⟩
  | 21 => ⟨S128, .f32⟩
  | 22 => ⟨S128, .f32⟩
  | 23 => ⟨S128, .f32⟩
  | 24 => ⟨S128, .f32⟩
  | 25 => ⟨S128, .f32⟩
  | 26 => ⟨S128x1, .f32⟩
  | 27 => ⟨S1, .f32⟩
  | 28 => ⟨S2x600000, .i32⟩
  | 29 => ⟨S200000, .i32⟩
  | 30 => ⟨S1x600000, .i32⟩
  | 31 => ⟨S600000, .i32⟩
  | 32 => ⟨S1x600000, .i32⟩
  | 33 => ⟨S600000, .i32⟩
  | 34 => ⟨S200000x64, .f32⟩
  | 35 => ⟨S_, .f32⟩
  | 36 => ⟨S200000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S_, .f32⟩
  | 46 => ⟨S600000, .f32⟩
  | 47 => ⟨S200000, .f32⟩
  | 48 => ⟨S_, .f32⟩
  | 49 => ⟨S200000, .f32⟩
  | 50 => ⟨S200000, .f32⟩
  | 51 => ⟨S_, .f32⟩
  | 52 => ⟨S200000, .f32⟩
  | 53 => ⟨S200000, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x64, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000, .f32⟩
  | 81 => ⟨S600000, .f32⟩
  | 82 => ⟨S600000x1, .f32⟩
  | 83 => ⟨S600000x64, .f32⟩
  | 84 => ⟨S600000x64, .f32⟩
  | 85 => ⟨S_, .f32⟩
  | 86 => ⟨S200000x64, .f32⟩
  | 87 => ⟨S600000x1, .i32⟩
  | 88 => ⟨S200000x64, .f32⟩
  | 89 => ⟨S200000, .f32⟩
  | 90 => ⟨S200000x1, .f32⟩
  | 91 => ⟨S200000x64, .f32⟩
  | 92 => ⟨S200000x64, .f32⟩
  | 93 => ⟨S200000x64, .f32⟩
  | 94 => ⟨S1x64, .f32⟩
  | 95 => ⟨S200000x64, .f32⟩
  | 96 => ⟨S200000x64, .f32⟩
  | 97 => ⟨S_, .f32⟩
  | 98 => ⟨S200000x64, .f32⟩
  | 99 => ⟨S200000x64, .f32⟩
  | 100 => ⟨S200000x128, .f32⟩
  | 101 => ⟨S_, .f32⟩
  | 102 => ⟨S200000, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S_, .f32⟩
  | 112 => ⟨S600000, .f32⟩
  | 113 => ⟨S200000, .f32⟩
  | 114 => ⟨S_, .f32⟩
  | 115 => ⟨S200000, .f32⟩
  | 116 => ⟨S200000, .f32⟩
  | 117 => ⟨S_, .f32⟩
  | 118 => ⟨S200000, .f32⟩
  | 119 => ⟨S200000, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S200000x2, .f32⟩

abbrev hbmTy0_1 (i : Nat) : BufTy := match i % 128 with
  | 0 => ⟨S600000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000, .f32⟩
  | 19 => ⟨S600000, .f32⟩
  | 20 => ⟨S600000x1, .f32⟩
  | 21 => ⟨S600000x128, .f32⟩
  | 22 => ⟨S600000x128, .f32⟩
  | 23 => ⟨S_, .f32⟩
  | 24 => ⟨S200000x128, .f32⟩
  | 25 => ⟨S600000x1, .i32⟩
  | 26 => ⟨S200000x128, .f32⟩
  | 27 => ⟨S200000, .f32⟩
  | 28 => ⟨S200000x1, .f32⟩
  | 29 => ⟨S200000x128, .f32⟩
  | 30 => ⟨S200000x128, .f32⟩
  | 31 => ⟨S200000x128, .f32⟩
  | 32 => ⟨S1x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S_, .f32⟩
  | 39 => ⟨S200000, .f32⟩
  | 40 => ⟨S_, .f32⟩
  | 41 => ⟨S512, .f32⟩
  | 42 => ⟨S200000x1, .i32⟩
  | 43 => ⟨S512, .f32⟩
  | 44 => ⟨S_, .f32⟩
  | 45 => ⟨S512x128, .f32⟩
  | 46 => ⟨S200000x1, .i32⟩
  | 47 => ⟨S512x128, .f32⟩
  | 48 => ⟨S_, .f32⟩
  | 49 => ⟨S512, .f32⟩
  | 50 => ⟨S512, .f32⟩
  | 51 => ⟨S512x1, .f32⟩
  | 52 => ⟨S512x128, .f32⟩
  | 53 => ⟨S512x128, .f32⟩
  | 54 => ⟨S512x256, .f32⟩
  | 55 => ⟨S1x256, .f32⟩
  | 56 => ⟨S512x256, .f32⟩
  | 57 => ⟨S512x256, .f32⟩
  | 58 => ⟨S1x256, .f32⟩
  | 59 => ⟨S512x256, .f32⟩
  | 60 => ⟨S512x256, .f32⟩
  | 61 => ⟨S_, .f32⟩
  | 62 => ⟨S256, .f32⟩
  | 63 => ⟨S256, .f32⟩
  | 64 => ⟨S256, .f32⟩
  | 65 => ⟨S1x256, .f32⟩
  | 66 => ⟨S512x256, .f32⟩
  | 67 => ⟨S512x256, .f32⟩
  | 68 => ⟨S1x256, .f32⟩
  | 69 => ⟨S512x256, .f32⟩
  | 70 => ⟨S512x256, .f32⟩
  | 71 => ⟨S1x256, .f32⟩
  | 72 => ⟨S512x256, .f32⟩
  | 73 => ⟨S512x256, .f32⟩
  | 74 => ⟨S_, .f32⟩
  | 75 => ⟨S512x256, .f32⟩
  | 76 => ⟨S512x256, .f32⟩
  | 77 => ⟨S512x128, .f32⟩
  | 78 => ⟨S1x128, .f32⟩
  | 79 => ⟨S512x128, .f32⟩
  | 80 => ⟨S512x128, .f32⟩
  | 81 => ⟨S512x256, .f32⟩
  | 82 => ⟨S512x192, .f32⟩
  | 83 => ⟨S1x192, .f32⟩
  | 84 => ⟨S512x192, .f32⟩
  | 85 => ⟨S512x192, .f32⟩
  | 86 => ⟨S1x192, .f32⟩
  | 87 => ⟨S512x192, .f32⟩
  | 88 => ⟨S512x192, .f32⟩
  | 89 => ⟨S_, .f32⟩
  | 90 => ⟨S192, .f32⟩
  | 91 => ⟨S192, .f32⟩
  | 92 => ⟨S192, .f32⟩
  | 93 => ⟨S1x192, .f32⟩
  | 94 => ⟨S512x192, .f32⟩
  | 95 => ⟨S512x192, .f32⟩
  | 96 => ⟨S1x192, .f32⟩
  | 97 => ⟨S512x192, .f32⟩
  | 98 => ⟨S512x192, .f32⟩
  | 99 => ⟨S1x192, .f32⟩
  | 100 => ⟨S512x192, .f32⟩
  | 101 => ⟨S512x192, .f32⟩
  | 102 => ⟨S_, .f32⟩
  | 103 => ⟨S512x192, .f32⟩
  | 104 => ⟨S512x192, .f32⟩
  | 105 => ⟨S512x128, .f32⟩
  | 106 => ⟨S1x128, .f32⟩
  | 107 => ⟨S512x128, .f32⟩
  | 108 => ⟨S512x128, .f32⟩
  | 109 => ⟨S1x128, .f32⟩
  | 110 => ⟨S512x128, .f32⟩
  | 111 => ⟨S512x128, .f32⟩
  | 112 => ⟨S_, .f32⟩
  | 113 => ⟨S128, .f32⟩
  | 114 => ⟨S128, .f32⟩
  | 115 => ⟨S128, .f32⟩
  | 116 => ⟨S1x128, .f32⟩
  | 117 => ⟨S512x128, .f32⟩
  | 118 => ⟨S512x128, .f32⟩
  | 119 => ⟨S1x128, .f32⟩
  | 120 => ⟨S512x128, .f32⟩
  | 121 => ⟨S512x128, .f32⟩
  | 122 => ⟨S1x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S200000x2, .f32⟩

abbrev hbmTy0_2 (i : Nat) : BufTy := match i % 128 with
  | 0 => ⟨S512x1, .f32⟩
  | 1 => ⟨S1x1, .f32⟩
  | 2 => ⟨S512x1, .f32⟩
  | 3 => ⟨S512x1, .f32⟩
  | 4 => ⟨S512x1, .f32⟩
  | 5 => ⟨S512x1, .f32⟩
  | 6 => ⟨S_, .f32⟩
  | 7 => ⟨S512x1, .f32⟩
  | 8 => ⟨S512x1, .f32⟩
  | 9 => ⟨S_, .f32⟩
  | 10 => ⟨S512x1, .f32⟩
  | 11 => ⟨S512x1, .f32⟩
  | 12 => ⟨S512, .f32⟩
  | _ => ⟨S200000x2, .f32⟩

abbrev hbmTy (i : Nat) : BufTy := match i / 128 with
  | 0 => hbmTy0_0 i
  | 1 => hbmTy0_1 i
  | 2 => hbmTy0_2 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_c : Ref sig .tc := ⟨.hbm, 37, rfl⟩
abbrev main_v6 : Ref sig .tc := ⟨.hbm, 38, rfl⟩
abbrev main_v7 : Ref sig .tc := ⟨.hbm, 39, rfl⟩
abbrev main_c_0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_v17 : Ref sig .tc := ⟨.hbm, 53, rfl⟩
abbrev main_c_4 : Ref sig .tc := ⟨.hbm, 54, rfl⟩
abbrev main_v18 : Ref sig .tc := ⟨.hbm, 55, rfl⟩
abbrev main_v19 : Ref sig .tc := ⟨.hbm, 56, rfl⟩
abbrev main_c_5 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_6 : Ref sig .tc := ⟨.hbm, 63, rfl⟩
abbrev main_v25 : Ref sig .tc := ⟨.hbm, 64, rfl⟩
abbrev main_v26 : Ref sig .tc := ⟨.hbm, 65, rfl⟩
abbrev main_c_7 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_c_8 : Ref sig .tc := ⟨.hbm, 72, rfl⟩
abbrev main_v32 : Ref sig .tc := ⟨.hbm, 73, rfl⟩
abbrev main_v33 : Ref sig .tc := ⟨.hbm, 74, rfl⟩
abbrev main_c_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_10 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call0_cst : Ref sig .tc := ⟨.hbm, 97, rfl⟩
abbrev main_call0_v0 : Ref sig .tc := ⟨.hbm, 98, rfl⟩
abbrev main_v54 : Ref sig .tc := ⟨.hbm, 99, rfl⟩
abbrev main_v55 : Ref sig .tc := ⟨.hbm, 100, rfl⟩
abbrev main_cst_11 : Ref sig .tc := ⟨.hbm, 101, rfl⟩
abbrev main_v56 : Ref sig .tc := ⟨.hbm, 102, rfl⟩
abbrev main_c_12 : Ref sig .tc := ⟨.hbm, 103, rfl⟩
abbrev main_v57 : Ref sig .tc := ⟨.hbm, 104, rfl⟩
abbrev main_v58 : Ref sig .tc := ⟨.hbm, 105, rfl⟩
abbrev main_c_13 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_14 : Ref sig .tc := ⟨.hbm, 111, rfl⟩
abbrev main_v63 : Ref sig .tc := ⟨.hbm, 112, rfl⟩
abbrev main_v64 : Ref sig .tc := ⟨.hbm, 113, rfl⟩
abbrev main_cst_15 : Ref sig .tc := ⟨.hbm, 114, rfl⟩
abbrev main_v65 : Ref sig .tc := ⟨.hbm, 115, rfl⟩
abbrev main_v66 : Ref sig .tc := ⟨.hbm, 116, rfl⟩
abbrev main_cst_16 : Ref sig .tc := ⟨.hbm, 117, rfl⟩
abbrev main_v67 : Ref sig .tc := ⟨.hbm, 118, rfl⟩
abbrev main_v68 : Ref sig .tc := ⟨.hbm, 119, rfl⟩
abbrev main_c_17 : Ref sig .tc := ⟨.hbm, 120, rfl⟩
abbrev main_v69 : Ref sig .tc := ⟨.hbm, 121, rfl⟩
abbrev main_v70 : Ref sig .tc := ⟨.hbm, 122, rfl⟩
abbrev main_c_18 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_19 : Ref sig .tc := ⟨.hbm, 129, rfl⟩
abbrev main_v76 : Ref sig .tc := ⟨.hbm, 130, rfl⟩
abbrev main_v77 : Ref sig .tc := ⟨.hbm, 131, rfl⟩
abbrev main_c_20 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_21 : Ref sig .tc := ⟨.hbm, 138, rfl⟩
abbrev main_v83 : Ref sig .tc := ⟨.hbm, 139, rfl⟩
abbrev main_v84 : Ref sig .tc := ⟨.hbm, 140, rfl⟩
abbrev main_c_22 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_23 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call1_cst : Ref sig .tc := ⟨.hbm, 163, rfl⟩
abbrev main_call1_v0 : Ref sig .tc := ⟨.hbm, 164, rfl⟩
abbrev main_v105 : Ref sig .tc := ⟨.hbm, 165, rfl⟩
abbrev main_cst_24 : Ref sig .tc := ⟨.hbm, 166, rfl⟩
abbrev main_v106 : Ref sig .tc := ⟨.hbm, 167, rfl⟩
abbrev main_cst_25 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_26 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_27 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_28 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_call2_cst : Ref sig .tc := ⟨.hbm, 202, rfl⟩
abbrev main_call2_v0 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_29 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_call3_cst : Ref sig .tc := ⟨.hbm, 230, rfl⟩
abbrev main_call3_v0 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_cst_30 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_call4_cst : Ref sig .tc := ⟨.hbm, 253, rfl⟩
abbrev main_call4_v0 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_cst_31 : Ref sig .tc := ⟨.hbm, 262, rfl⟩
abbrev main_v189 : Ref sig .tc := ⟨.hbm, 263, rfl⟩
abbrev main_v190 : Ref sig .tc := ⟨.hbm, 264, rfl⟩
abbrev main_cst_32 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S200000 : S_.BroadcastsInDim S200000 (![] : Fin 0 → Fin S200000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S256 : S_.BroadcastsInDim S256 (![] : Fin 0 → Fin S256.rank)
  bcast_S_S512x256 : S_.BroadcastsInDim S512x256 (![] : Fin 0 → Fin S512x256.rank)
  bcast_S1x128_S512x128_0_1 : S1x128.BroadcastsInDim S512x128 (![0, 1] : Fin 2 → Fin S512x128.rank)
  concatenates_S512x128_S512x128_S512x256_d1 : Shape.Concatenates [S512x128, S512x128] S512x256 1
  bcast_S192_S1x192_1 : S192.BroadcastsInDim S1x192 (![1] : Fin 1 → Fin S1x192.rank)
  bcast_S1x192_S512x192_0_1 : S1x192.BroadcastsInDim S512x192 (![0, 1] : Fin 2 → Fin S512x192.rank)
  bcast_S_S192 : S_.BroadcastsInDim S192 (![] : Fin 0 → Fin S192.rank)
  bcast_S_S512x192 : S_.BroadcastsInDim S512x192 (![] : Fin 0 → Fin S512x192.rank)
  bcast_S_S128 : S_.BroadcastsInDim S128 (![] : Fin 0 → Fin S128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  shapeCasts_S512x1_S512 : S512x1.ShapeCasts S512
  dot_S200000x2_S2x64_S200000x64_1_0_0_1_n_n_wf : DotDims.WF S200000x2 S2x64 S200000x64 [1] [0] [0] [1] [] []
  scatter_S200000_S600000x1_S600000_n_0_0_1_wf : ScatterDims.WF S200000 S600000x1 S600000 [] [0] [0] 1
  gather_S200000x64_S600000x1_S600000x64_1_0_n_n_0_1_164_wf : GatherDims.WF S200000x64 S600000x1 S600000x64 [1] [0] [] [0] [] 1 ![1, 64]
  gather_S200000_S600000x1_S600000_n_0_n_n_0_1_1_wf : GatherDims.WF S200000 S600000x1 S600000 [] [0] [] [0] [] 1 ![1]
  scatter_S200000x64_S600000x1_S600000x64_1_0_0_1_wf : ScatterDims.WF S200000x64 S600000x1 S600000x64 [1] [0] [0] 1
  dot_S200000x64_S64x128_S200000x128_1_0_0_1_n_n_wf : DotDims.WF S200000x64 S64x128 S200000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S512_S200000x1_S200000_n_0_0_1_wf : ScatterDims.WF S512 S200000x1 S200000 [] [0] [0] 1
  scatter_S512x128_S200000x1_S200000x128_1_0_0_1_wf : ScatterDims.WF S512x128 S200000x1 S200000x128 [1] [0] [0] 1
  dot_S512x8_S8x256_S512x256_1_0_0_1_n_n_wf : DotDims.WF S512x8 S8x256 S512x256 [1] [0] [0] [1] [] []
  dot_S512x256_S256x128_S512x128_1_0_0_1_n_n_wf : DotDims.WF S512x256 S256x128 S512x128 [1] [0] [0] [1] [] []
  dot_S512x256_S256x192_S512x192_1_0_0_1_n_n_wf : DotDims.WF S512x256 S256x192 S512x192 [1] [0] [0] [1] [] []
  dot_S512x192_S192x128_S512x128_1_0_0_1_n_n_wf : DotDims.WF S512x192 S192x128 S512x128 [1] [0] [0] [1] [] []
  dot_S512x128_S128x1_S512x1_1_0_0_1_n_n_wf : DotDims.WF S512x128 S128x1 S512x1 [1] [0] [0] [1] [] []

variable [Facts₀]

def dot_S200000x2_S2x64_S200000x64_1_0_0_1_n_n : DotDims S200000x2 S2x64 S200000x64 where
  lhsContracting := [1]
  rhsContracting := [0]
  lhsNonContracting := [0]
  rhsNonContracting := [1]
  lhsBatch := []
  rhsBatch := []
  wf := dot_S200000x2_S2x64_S200000x64_1_0_0_1_n_n_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x128_S200000x1_S200000x128_1_0_0_1 : ScatterDims S512x128 S200000x1 S200000x128 where
  updateWindowDims := [1]
  insertedWindowDims := [0]
  scatterDimsToOperandDims := [0]
  indexVectorDim := 1
  wf := scatter_S512x128_S200000x1_S200000x128_1_0_0_1_wf
def dot_S512x8_S8x256_S512x256_1_0_0_1_n_n : DotDims S512x8 S8x256 S512x256 where
  lhsContracting := [1]
  rhsContracting := [0]
  lhsNonContracting := [0]
  rhsNonContracting := [1]
  lhsBatch := []
  rhsBatch := []
  wf := dot_S512x8_S8x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x256_S256x192_S512x192_1_0_0_1_n_n : DotDims S512x256 S256x192 S512x192 where
  lhsContracting := [1]
  rhsContracting := [0]
  lhsNonContracting := [0]
  rhsNonContracting := [1]
  lhsBatch := []
  rhsBatch := []
  wf := dot_S512x256_S256x192_S512x192_1_0_0_1_n_n_wf
def dot_S512x192_S192x128_S512x128_1_0_0_1_n_n : DotDims S512x192 S192x128 S512x128 where
  lhsContracting := [1]
  rhsContracting := [0]
  lhsNonContracting := [0]
  rhsNonContracting := [1]
  lhsBatch := []
  rhsBatch := []
  wf := dot_S512x192_S192x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Walk.lean ====
/- The contents of the kernel's buffers at the boundaries between the segments of @main, read back to where each was
   last written: a host stretch that does not write a buffer leaves it as it was, and so does a pallas_call of which it
   is not an operand; an input operand of a pallas_call ends at what it held at entry. One theorem per buffer and
   boundary that the value proof reads. -/
import proofs.«147598_j30477087932519_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- One step back through a host stretch none of whose operations writes the buffer. -/
macro "hnw " ops:ident : tactic => `(tactic|
  refine (StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans ?_)

/-- One step back through a pallas_call of which the buffer is no operand. -/
macro "rne " l:ident b:ident : tactic => `(tactic| refine ($l:ident _ _ _ $b:ident (by decide)).trans ?_)

/-- The column of inverse square-root degrees is an input operand of the first finalize call: it leaves the call as it entered. -/
theorem w4_v32_from3 (c : Dev nD) : W4 m ρ c (Proc.devRef .tc main_v32) = W3 m ρ c (Proc.devRef .tc main_v32) :=
  (W4_arr m ρ c 2).trans (((dat1 (V3 m ρ) c).arrAt_in 2 rfl _).trans (A_eq1 (V3 m ρ) c 2))

theorem w1_arg0 (c : Dev nD) : W1 m ρ c (Proc.devRef .tc main_arg0) = m ((c : Thread nD τ).loc main_arg0) := by
  hnw hostOps0; rfl

theorem w1_arg2 (c : Dev nD) : W1 m ρ c (Proc.devRef .tc main_arg2) = m ((c : Thread nD τ).loc main_arg2) := by
  hnw hostOps0; rfl

theorem w2_arg3 (c : Dev nD) : W2 m ρ c (Proc.devRef .tc main_arg3) = m ((c : Thread nD τ).loc main_arg3) := by
  rne W2_of_ne main_arg3; hnw hostOps0; rfl

theorem w4_arg4 (c : Dev nD) : W4 m ρ c (Proc.devRef .tc main_arg4) = m ((c : Thread nD τ).loc main_arg4) := by
  rne W4_of_ne main_arg4; hnw hostOps1; rne W2_of_ne main_arg4; hnw hostOps0; rfl

theorem w5_arg5 (c : Dev nD) : W5 m ρ c (Proc.devRef .tc main_arg5) = m ((c : Thread nD τ).loc main_arg5) := by
  rne W5_of_ne main_arg5; rne W4_of_ne main_arg5; hnw hostOps1; rne W2_of_ne main_arg5; hnw hostOps0; rfl

theorem w7_arg29 (c : Dev nD) : W7 m ρ c (Proc.devRef .tc main_arg29) = m ((c : Thread nD τ).loc main_arg29) := by
  rne W7_of_ne main_arg29; hnw hostOps3; rne W5_of_ne main_arg29; rne W4_of_ne main_arg29; hnw hostOps1; rne W2_of_ne main_arg29; hnw hostOps0; rfl

theorem w7_arg7 (c : Dev nD) : W7 m ρ c (Proc.devRef .tc main_arg7) = m ((c : Thread nD τ).loc main_arg7) := by
  rne W7_of_ne main_arg7; hnw hostOps3; rne W5_of_ne main_arg7; rne W4_of_ne main_arg7; hnw hostOps1; rne W2_of_ne main_arg7; hnw hostOps0; rfl

theorem w7_arg8 (c : Dev nD) : W7 m ρ c (Proc.devRef .tc main_arg8) = m ((c : Thread nD τ).loc main_arg8) := by
  rne W7_of_ne main_arg8; hnw hostOps3; rne W5_of_ne main_arg8; rne W4_of_ne main_arg8; hnw hostOps1; rne W2_of_ne main_arg8; hnw hostOps0; rfl

theorem w7_arg9 (c : Dev nD) : W7 m ρ c (Proc.devRef .tc main_arg9) = m ((c : Thread nD τ).loc main_arg9) := by
  rne W7_of_ne main_arg9; hnw hostOps3; rne W5_of_ne main_arg9; rne W4_of_ne main_arg9; hnw hostOps1; rne W2_of_ne main_arg9; hnw hostOps0; rfl

theorem w7_arg10 (c : Dev nD) : W7 m ρ c (Proc.devRef .tc main_arg10) = m ((c : Thread nD τ).loc main_arg10) := by
  rne W7_of_ne main_arg10; hnw hostOps3; rne W5_of_ne main_arg10; rne W4_of_ne main_arg10; hnw hostOps1; rne W2_of_ne main_arg10; hnw hostOps0; rfl

theorem w7_arg11 (c : Dev nD) : W7 m ρ c (Proc.devRef .tc main_arg11) = m ((c : Thread nD τ).loc main_arg11) := by
  rne W7_of_ne main_arg11; hnw hostOps3; rne W5_of_ne main_arg11; rne W4_of_ne main_arg11; hnw hostOps1; rne W2_of_ne main_arg11; hnw hostOps0; rfl

theorem w7_arg13 (c : Dev nD) : W7 m ρ c (Proc.devRef .tc main_arg13) = m ((c : Thread nD τ).loc main_arg13) := by
  rne W7_of_ne main_arg13; hnw hostOps3; rne W5_of_ne main_arg13; rne W4_of_ne main_arg13; hnw hostOps1; rne W2_of_ne main_arg13; hnw hostOps0; rfl

theorem w8_arg1 (c : Dev nD) : W8 m ρ c (Proc.devRef .tc main_arg1) = m ((c : Thread nD τ).loc main_arg1) := by
  hnw hostOps4; rne W7_of_ne main_arg1; hnw hostOps3; rne W5_of_ne main_arg1; rne W4_of_ne main_arg1; hnw hostOps1; rne W2_of_ne main_arg1; hnw hostOps0; rfl

theorem w8_arg6 (c : Dev nD) : W8 m ρ c (Proc.devRef .tc main_arg6) = m ((c : Thread nD τ).loc main_arg6) := by
  hnw hostOps4; rne W7_of_ne main_arg6; hnw hostOps3; rne W5_of_ne main_arg6; rne W4_of_ne main_arg6; hnw hostOps1; rne W2_of_ne main_arg6; hnw hostOps0; rfl

theorem w8_arg12 (c : Dev nD) : W8 m ρ c (Proc.devRef .tc main_arg12) = m ((c : Thread nD τ).loc main_arg12) := by
  hnw hostOps4; rne W7_of_ne main_arg12; hnw hostOps3; rne W5_of_ne main_arg12; rne W4_of_ne main_arg12; hnw hostOps1; rne W2_of_ne main_arg12; hnw hostOps0; rfl

theorem w9_arg15 (c : Dev nD) : W9 m ρ c (Proc.devRef .tc main_arg15) = m ((c : Thread nD τ).loc main_arg15) := by
  rne W9_of_ne main_arg15; hnw hostOps4; rne W7_of_ne main_arg15; hnw hostOps3; rne W5_of_ne main_arg15; rne W4_of_ne main_arg15; hnw hostOps1; rne W2_of_ne main_arg15; hnw hostOps0; rfl

theorem w9_arg16 (c : Dev nD) : W9 m ρ c (Proc.devRef .tc main_arg16) = m ((c : Thread nD τ).loc main_arg16) := by
  rne W9_of_ne main_arg16; hnw hostOps4; rne W7_of_ne main_arg16; hnw hostOps3; rne W5_of_ne main_arg16; rne W4_of_ne main_arg16; hnw hostOps1; rne W2_of_ne main_arg16; hnw hostOps0; rfl

theorem w9_arg17 (c : Dev nD) : W9 m ρ c (Proc.devRef .tc main_arg17) = m ((c : Thread nD τ).loc main_arg17) := by
  rne W9_of_ne main_arg17; hnw hostOps4; rne W7_of_ne main_arg17; hnw hostOps3; rne W5_of_ne main_arg17; rne W4_of_ne main_arg17; hnw hostOps1; rne W2_of_ne main_arg17; hnw hostOps0; rfl

theorem w9_arg18 (c : Dev nD) : W9 m ρ c (Proc.devRef .tc main_arg18) = m ((c : Thread nD τ).loc main_arg18) := by
  rne W9_of_ne main_arg18; hnw hostOps4; rne W7_of_ne main_arg18; hnw hostOps3; rne W5_of_ne main_arg18; rne W4_of_ne main_arg18; hnw hostOps1; rne W2_of_ne main_arg18; hnw hostOps0; rfl

theorem w9_arg19 (c : Dev nD) : W9 m ρ c (Proc.devRef .tc main_arg19) = m ((c : Thread nD τ).loc main_arg19) := by
  rne W9_of_ne main_arg19; hnw hostOps4; rne W7_of_ne main_arg19; hnw hostOps3; rne W5_of_ne main_arg19; rne W4_of_ne main_arg19; hnw hostOps1; rne W2_of_ne main_arg19; hnw hostOps0; rfl

theorem w9_arg21 (c : Dev nD) : W9 m ρ c (Proc.devRef .tc main_arg21) = m ((c : Thread nD τ).loc main_arg21) := by
  rne W9_of_ne main_arg21; hnw hostOps4; rne W7_of_ne main_arg21; hnw hostOps3; rne W5_of_ne main_arg21; rne W4_of_ne main_arg21; hnw hostOps1; rne W2_of_ne main_arg21; hnw hostOps0; rfl

theorem w9_arg22 (c : Dev nD) : W9 m ρ c (Proc.devRef .tc main_arg22) = m ((c : Thread nD τ).loc main_arg22) := by
  rne W9_of_ne main_arg22; hnw hostOps4; rne W7_of_ne main_arg22; hnw hostOps3; rne W5_of_ne main_arg22; rne W4_of_ne main_arg22; hnw hostOps1; rne W2_of_ne main_arg22; hnw hostOps0; rfl

theorem w9_arg23 (c : Dev nD) : W9 m ρ c (Proc.devRef .tc main_arg23) = m ((c : Thread nD τ).loc main_arg23) := by
  rne W9_of_ne main_arg23; hnw hostOps4; rne W7_of_ne main_arg23; hnw hostOps3; rne W5_of_ne main_arg23; rne W4_of_ne main_arg23; hnw hostOps1; rne W2_of_ne main_arg23; hnw hostOps0; rfl

theorem w9_arg24 (c : Dev nD) : W9 m ρ c (Proc.devRef .tc main_arg24) = m ((c : Thread nD τ).loc main_arg24) := by
  rne W9_of_ne main_arg24; hnw hostOps4; rne W7_of_ne main_arg24; hnw hostOps3; rne W5_of_ne main_arg24; rne W4_of_ne main_arg24; hnw hostOps1; rne W2_of_ne main_arg24; hnw hostOps0; rfl

theorem w9_arg25 (c : Dev nD) : W9 m ρ c (Proc.devRef .tc main_arg25) = m ((c : Thread nD τ).loc main_arg25) := by
  rne W9_of_ne main_arg25; hnw hostOps4; rne W7_of_ne main_arg25; hnw hostOps3; rne W5_of_ne main_arg25; rne W4_of_ne main_arg25; hnw hostOps1; rne W2_of_ne main_arg25; hnw hostOps0; rfl

theorem w9_arg27 (c : Dev nD) : W9 m ρ c (Proc.devRef .tc main_arg27) = m ((c : Thread nD τ).loc main_arg27) := by
  rne W9_of_ne main_arg27; hnw hostOps4; rne W7_of_ne main_arg27; hnw hostOps3; rne W5_of_ne main_arg27; rne W4_of_ne main_arg27; hnw hostOps1; rne W2_of_ne main_arg27; hnw hostOps0; rfl

theorem w10_arg14 (c : Dev nD) : W10 m ρ c (Proc.devRef .tc main_arg14) = m ((c : Thread nD τ).loc main_arg14) := by
  hnw hostOps5; rne W9_of_ne main_arg14; hnw hostOps4; rne W7_of_ne main_arg14; hnw hostOps3; rne W5_of_ne main_arg14; rne W4_of_ne main_arg14; hnw hostOps1; rne W2_of_ne main_arg14; hnw hostOps0; rfl

theorem w10_arg20 (c : Dev nD) : W10 m ρ c (Proc.devRef .tc main_arg20) = m ((c : Thread nD τ).loc main_arg20) := by
  hnw hostOps5; rne W9_of_ne main_arg20; hnw hostOps4; rne W7_of_ne main_arg20; hnw hostOps3; rne W5_of_ne main_arg20; rne W4_of_ne main_arg20; hnw hostOps1; rne W2_of_ne main_arg20; hnw hostOps0; rfl

theorem w10_arg26 (c : Dev nD) : W10 m ρ c (Proc.devRef .tc main_arg26) = m ((c : Thread nD τ).loc main_arg26) := by
  hnw hostOps5; rne W9_of_ne main_arg26; hnw hostOps4; rne W7_of_ne main_arg26; hnw hostOps3; rne W5_of_ne main_arg26; rne W4_of_ne main_arg26; hnw hostOps1; rne W2_of_ne main_arg26; hnw hostOps0; rfl

theorem w2_v1_from1 (c : Dev nD) : W2 m ρ c (Proc.devRef .tc main_v1) = W1 m ρ c (Proc.devRef .tc main_v1) := by
  rne W2_of_ne main_v1; rfl

theorem w2_v3_from1 (c : Dev nD) : W2 m ρ c (Proc.devRef .tc main_v3) = W1 m ρ c (Proc.devRef .tc main_v3) := by
  rne W2_of_ne main_v3; rfl

theorem w2_v31_from1 (c : Dev nD) : W2 m ρ c (Proc.devRef .tc main_v31) = W1 m ρ c (Proc.devRef .tc main_v31) := by
  rne W2_of_ne main_v31; rfl

theorem w3_v33_from2 (c : Dev nD) : W3 m ρ c (Proc.devRef .tc main_v33) = W2 m ρ c (Proc.devRef .tc main_v33) := by
  hnw hostOps1; rfl

theorem w3_v32_from1 (c : Dev nD) : W3 m ρ c (Proc.devRef .tc main_v32) = W1 m ρ c (Proc.devRef .tc main_v32) := by
  hnw hostOps1; rne W2_of_ne main_v32; rfl

theorem w5_v1_from1 (c : Dev nD) : W5 m ρ c (Proc.devRef .tc main_v1) = W1 m ρ c (Proc.devRef .tc main_v1) := by
  rne W5_of_ne main_v1; rne W4_of_ne main_v1; hnw hostOps1; rne W2_of_ne main_v1; rfl

theorem w5_v3_from1 (c : Dev nD) : W5 m ρ c (Proc.devRef .tc main_v3) = W1 m ρ c (Proc.devRef .tc main_v3) := by
  rne W5_of_ne main_v3; rne W4_of_ne main_v3; hnw hostOps1; rne W2_of_ne main_v3; rfl

theorem w5_v31_from1 (c : Dev nD) : W5 m ρ c (Proc.devRef .tc main_v31) = W1 m ρ c (Proc.devRef .tc main_v31) := by
  rne W5_of_ne main_v31; rne W4_of_ne main_v31; hnw hostOps1; rne W2_of_ne main_v31; rfl

theorem w6_v49_from5 (c : Dev nD) : W6 m ρ c (Proc.devRef .tc main_v49) = W5 m ρ c (Proc.devRef .tc main_v49) := by
  hnw hostOps3; rfl

theorem w6_v32_from4 (c : Dev nD) : W6 m ρ c (Proc.devRef .tc main_v32) = W4 m ρ c (Proc.devRef .tc main_v32) := by
  hnw hostOps3; rne W5_of_ne main_v32; rfl

theorem w10_v76_from8 (c : Dev nD) : W10 m ρ c (Proc.devRef .tc main_v76) = W8 m ρ c (Proc.devRef .tc main_v76) := by
  hnw hostOps5; rne W9_of_ne main_v76; rfl

theorem w10_v77_from8 (c : Dev nD) : W10 m ρ c (Proc.devRef .tc main_v77) = W8 m ρ c (Proc.devRef .tc main_v77) := by
  hnw hostOps5; rne W9_of_ne main_v77; rfl

theorem w10_v84_from9 (c : Dev nD) : W10 m ρ c (Proc.devRef .tc main_v84) = W9 m ρ c (Proc.devRef .tc main_v84) := by
  hnw hostOps5; rfl

end Cert.KernelIdeal.KV

end
-- ==== Proof.StageA.lean ====
/- The first host stretch of the kernel's @main computes, from the edge list alone, what the reference computes in
   its own first operations: the source and destination rows of the edge list, the inverse square root of the degree
   (one plus the number of edges that end at a node), and for every edge the product of that quantity at its two ends.
   The operations are the same on both sides, so each buffer at the first boundary holds the reference's stage of the
   same name, and the reference's second computation of the same quantities (for its second layer) is the first one. -/
import proofs.«147598_j30477087932519_1_alg».proof.Proof.Walk
import proofs.«147598_j30477087932519_1_alg».proof.Proof.Gen.ReferenceIdeal.Read

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The reference recomputes the inverse square-root degree for its second layer by the same operations. -/
theorem dis_again (x28 : (⟨S2x600000, .i32⟩ : BufTy).Contents (Elt Ideal)) :
    Cert.ReferenceIdeal.Read.val_main_v68 (F := Ideal) x28 = Cert.ReferenceIdeal.Read.val_main_v17 (F := Ideal) x28 := rfl

/-- … and the per-edge product of the two ends' values likewise. -/
theorem norm_again (x28 : (⟨S2x600000, .i32⟩ : BufTy).Contents (Elt Ideal)) :
    Cert.ReferenceIdeal.Read.val_main_v90 (F := Ideal) x28 = Cert.ReferenceIdeal.Read.val_main_v39 (F := Ideal) x28 := rfl

/-- The source row of the edge list. -/
theorem w1_v1 (c : Dev nD) : W1 m ρ c (Proc.devRef .tc main_v1)
    = Cert.ReferenceIdeal.Read.val_main_v1 (F := Ideal) (m ((c : Thread nD τ).loc main_arg28)) := by
  show StableHlo.after hostOps0 (W0 m ρ c) (Proc.devRef .tc main_v1) = _
  simp only [hostOps0]
  after_results
  rfl

/-- The destination row of the edge list. -/
theorem w1_v3 (c : Dev nD) : W1 m ρ c (Proc.devRef .tc main_v3)
    = Cert.ReferenceIdeal.Read.val_main_v3 (F := Ideal) (m ((c : Thread nD τ).loc main_arg28)) := by
  show StableHlo.after hostOps0 (W0 m ρ c) (Proc.devRef .tc main_v3) = _
  simp only [hostOps0]
  after_results
  rfl

set_option maxHeartbeats 8000000 in
/-- The per-edge product of the inverse square-root degrees at the edge's two ends. -/
theorem w1_v31 (c : Dev nD) : W1 m ρ c (Proc.devRef .tc main_v31)
    = Cert.ReferenceIdeal.Read.val_main_v39 (F := Ideal) (m ((c : Thread nD τ).loc main_arg28)) := by
  show StableHlo.after hostOps0 (W0 m ρ c) (Proc.devRef .tc main_v31) = _
  simp only [hostOps0]
  after_results
  rfl

set_option maxHeartbeats 8000000 in
/-- The inverse square-root degree as a column. -/
theorem w1_v32 (c : Dev nD) : W1 m ρ c (Proc.devRef .tc main_v32)
    = broadcastInDim S200000x1 ![0] bcast_S200000_S200000x1_0
        (Cert.ReferenceIdeal.Read.val_main_v17 (F := Ideal) (m ((c : Thread nD τ).loc main_arg28))) := by
  show StableHlo.after hostOps0 (W0 m ρ c) (Proc.devRef .tc main_v32) = _
  simp only [hostOps0]
  after_results
  rfl

end Cert.KernelIdeal.KV

end
-- ==== Proof.Reg0.lean ====
/-
  Region 0 of the kernel's @main, the first linear map h = x · W on 50 row blocks of 4000: the array its write-backs
  leave is the host's dot_general of the two arrays the region finds. Entry (r, j) of the output lies in row block
  r / 4000, whose flushed value at (r mod 4000, j) is the sum over k of x(r, k) · w(k, j); that sum is the host
  product's entry (r, j).
-/
import proofs.«147598_j30477087932519_1_alg».proof.Proof.Gen.KernelIdeal.Frame
import proofs.«147598_j30477087932519_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

namespace Reg0

/-- The zero offset of an access that starts at the buffer's corner. -/
theorem corner0 : (![0, 0] : Fin 2 → Nat) = fun _ => 0 := funext fun a => by fin_cases a <;> rfl

/-- Entry (r, j) of the product x · w: the sum over the contracted axis of x(r, k) · w(k, j). -/
abbrev lin0 (x : Vec Ideal S200000x2 .f32) (w : Vec Ideal S2x64 .f32) : Vec Ideal S200000x64 .f32 :=
  fun i => ∑ k : Fin 2, x (ValueIdx.ix2 (i 0) k) * w (ValueIdx.ix2 k (i 1))

/-! ## The block product at an index -/

theorem klhs0_0 (j : S4000x64.Idx) (q : dot_S4000x2_S2x64_S4000x64_1_0_0_1_n_n.contr.Idx) :
    (dot_S4000x2_S2x64_S4000x64_1_0_0_1_n_n.lhsIdx j q 0).val = (j 0).val := by
  unfold DotDims.lhsIdx
  rw [dif_neg (show ¬(0 : Fin S4000x2.rank) ∈ dot_S4000x2_S2x64_S4000x64_1_0_0_1_n_n.lhsBatch by decide), dif_pos (show (0 : Fin S4000x2.rank) ∈ dot_S4000x2_S2x64_S4000x64_1_0_0_1_n_n.lhsNonContracting by decide)]
  rfl
theorem klhs0_1 (j : S4000x64.Idx) (q : dot_S4000x2_S2x64_S4000x64_1_0_0_1_n_n.contr.Idx) :
    (dot_S4000x2_S2x64_S4000x64_1_0_0_1_n_n.lhsIdx j q 1).val = (q ⟨0, by decide⟩).val :=
  dot_S4000x2_S2x64_S4000x64_1_0_0_1_n_n.lhsIdx_val_of_single rfl j q
theorem krhs0_0 (j : S4000x64.Idx) (q : dot_S4000x2_S2x64_S4000x64_1_0_0_1_n_n.contr.Idx) :
    (dot_S4000x2_S2x64_S4000x64_1_0_0_1_n_n.rhsIdx j q 0).val = (q ⟨0, by decide⟩).val :=
  dot_S4000x2_S2x64_S4000x64_1_0_0_1_n_n.rhsIdx_val_of_single rfl j q
theorem krhs0_1 (j : S4000x64.Idx) (q : dot_S4000x2_S2x64_S4000x64_1_0_0_1_n_n.contr.Idx) :
    (dot_S4000x2_S2x64_S4000x64_1_0_0_1_n_n.rhsIdx j q 1).val = (j 1).val := by
  unfold DotDims.rhsIdx
  rw [dif_neg (show ¬(1 : Fin S2x64.rank) ∈ dot_S4000x2_S2x64_S4000x64_1_0_0_1_n_n.rhsBatch by decide), dif_pos (show (1 : Fin S2x64.rank) ∈ dot_S4000x2_S2x64_S4000x64_1_0_0_1_n_n.rhsNonContracting by decide)]
  rfl

/-- The body's payload at an index: the rounding to bf16 is the identity at the ideal values, and the product into
    the zero accumulator is the sum over the contracted axis. -/
theorem pay0_apply (x0 : Vec Ideal S4000x2 .f32) (x1 : Vec Ideal S2x64 .f32) (j : S4000x64.Idx) :
    k0_pay1 (F := Ideal) x0 x1 j = ∑ k : Fin 2, x0 (ValueIdx.ix2 (j 0) k) * x1 (ValueIdx.ix2 k (j 1)) := by
  unfold k0_pay1
  refine (Ideal.matmul_constant_zero_apply dot_S4000x2_S2x64_S4000x64_1_0_0_1_n_n none _ _ j).trans ?_
  rw [← Equiv.sum_comp (ValueIdx.contrEquiv1 dot_S4000x2_S2x64_S4000x64_1_0_0_1_n_n 2 rfl rfl).symm]
  refine Finset.sum_congr rfl fun k _ => ?_
  have hk := ValueIdx.contrEquiv1_symm_val dot_S4000x2_S2x64_S4000x64_1_0_0_1_n_n 2 rfl rfl k
  have el : dot_S4000x2_S2x64_S4000x64_1_0_0_1_n_n.lhsIdx j ((ValueIdx.contrEquiv1 dot_S4000x2_S2x64_S4000x64_1_0_0_1_n_n 2 rfl rfl).symm k) = ValueIdx.ix2 (j 0) k := funext fun a => Fin.ext (by
    match a with
    | ⟨0, _⟩ => exact klhs0_0 _ _
    | ⟨1, _⟩ => exact (klhs0_1 _ _).trans hk)
  have er : dot_S4000x2_S2x64_S4000x64_1_0_0_1_n_n.rhsIdx j ((ValueIdx.contrEquiv1 dot_S4000x2_S2x64_S4000x64_1_0_0_1_n_n 2 rfl rfl).symm k) = ValueIdx.ix2 k (j 1) := funext fun a => Fin.ext (by
    match a with
    | ⟨0, _⟩ => exact (krhs0_0 _ _).trans hk
    | ⟨1, _⟩ => exact krhs0_1 _ _)
  rw [el, er]
  rfl

/-! ## The host's product at an index -/

theorem hlhs0_0 (i : Cert.ReferenceIdeal.S200000x64.Idx) (q : Cert.ReferenceIdeal.dot_S200000x2_S2x64_S200000x64_1_0_0_1_n_n.contr.Idx) :
    (Cert.ReferenceIdeal.dot_S200000x2_S2x64_S200000x64_1_0_0_1_n_n.lhsIdx i q 0).val = (i 0).val := by
  unfold DotDims.lhsIdx
  rw [dif_neg (show ¬(0 : Fin Cert.ReferenceIdeal.S200000x2.rank) ∈ Cert.ReferenceIdeal.dot_S200000x2_S2x64_S200000x64_1_0_0_1_n_n.lhsBatch by decide), dif_pos (show (0 : Fin Cert.ReferenceIdeal.S200000x2.rank) ∈ Cert.ReferenceIdeal.dot_S200000x2_S2x64_S200000x64_1_0_0_1_n_n.lhsNonContracting by decide)]
  rfl
theorem hlhs0_1 (i : Cert.ReferenceIdeal.S200000x64.Idx) (q : Cert.ReferenceIdeal.dot_S200000x2_S2x64_S200000x64_1_0_0_1_n_n.contr.Idx) :
    (Cert.ReferenceIdeal.dot_S200000x2_S2x64_S200000x64_1_0_0_1_n_n.lhsIdx i q 1).val = (q ⟨0, by decide⟩).val :=
  Cert.ReferenceIdeal.dot_S200000x2_S2x64_S200000x64_1_0_0_1_n_n.lhsIdx_val_of_single rfl i q
theorem hrhs0_0 (i : Cert.ReferenceIdeal.S200000x64.Idx) (q : Cert.ReferenceIdeal.dot_S200000x2_S2x64_S200000x64_1_0_0_1_n_n.contr.Idx) :
    (Cert.ReferenceIdeal.dot_S200000x2_S2x64_S200000x64_1_0_0_1_n_n.rhsIdx i q 0).val = (q ⟨0, by decide⟩).val :=
  Cert.ReferenceIdeal.dot_S200000x2_S2x64_S200000x64_1_0_0_1_n_n.rhsIdx_val_of_single rfl i q
theorem hrhs0_1 (i : Cert.ReferenceIdeal.S200000x64.Idx) (q : Cert.ReferenceIdeal.dot_S200000x2_S2x64_S200000x64_1_0_0_1_n_n.contr.Idx) :
    (Cert.ReferenceIdeal.dot_S200000x2_S2x64_S200000x64_1_0_0_1_n_n.rhsIdx i q 1).val = (i 1).val := by
  unfold DotDims.rhsIdx
  rw [dif_neg (show ¬(1 : Fin Cert.ReferenceIdeal.S2x64.rank) ∈ Cert.ReferenceIdeal.dot_S200000x2_S2x64_S200000x64_1_0_0_1_n_n.rhsBatch by decide), dif_pos (show (1 : Fin Cert.ReferenceIdeal.S2x64.rank) ∈ Cert.ReferenceIdeal.dot_S200000x2_S2x64_S200000x64_1_0_0_1_n_n.rhsNonContracting by decide)]
  rfl

/-- The host's dot_general at an index is the same sum over the contracted axis. -/
theorem host0_apply (x : Vec Ideal S200000x2 .f32) (w : Vec Ideal S2x64 .f32) (i : S200000x64.Idx) :
    Host.dotGeneral (F := Ideal) (φ₁ := .f32) (φ₂ := .f32) Cert.ReferenceIdeal.dot_S200000x2_S2x64_S200000x64_1_0_0_1_n_n none x w i = lin0 x w i := by
  simp only [Host.dotGeneral]
  rw [Ideal.dotGeneral_apply, ← Equiv.sum_comp (ValueIdx.contrEquiv1 Cert.ReferenceIdeal.dot_S200000x2_S2x64_S200000x64_1_0_0_1_n_n 2 rfl rfl).symm]
  refine Finset.sum_congr rfl fun k _ => ?_
  have hk := ValueIdx.contrEquiv1_symm_val Cert.ReferenceIdeal.dot_S200000x2_S2x64_S200000x64_1_0_0_1_n_n 2 rfl rfl k
  have el : Cert.ReferenceIdeal.dot_S200000x2_S2x64_S200000x64_1_0_0_1_n_n.lhsIdx i ((ValueIdx.contrEquiv1 Cert.ReferenceIdeal.dot_S200000x2_S2x64_S200000x64_1_0_0_1_n_n 2 rfl rfl).symm k) = ValueIdx.ix2 (i 0) k := funext fun a => Fin.ext (by
    match a with
    | ⟨0, _⟩ => exact hlhs0_0 _ _
    | ⟨1, _⟩ => exact (hlhs0_1 _ _).trans hk)
  have er : Cert.ReferenceIdeal.dot_S200000x2_S2x64_S200000x64_1_0_0_1_n_n.rhsIdx i ((ValueIdx.contrEquiv1 Cert.ReferenceIdeal.dot_S200000x2_S2x64_S200000x64_1_0_0_1_n_n 2 rfl rfl).symm k) = ValueIdx.ix2 k (i 1) := funext fun a => Fin.ext (by
    match a with
    | ⟨0, _⟩ => exact (hrhs0_0 _ _).trans hk
    | ⟨1, _⟩ => exact hrhs0_1 _ _)
  rw [el, er]
  rfl

/-! ## From the blocks to the array -/

/-- The printed index maps, decided over the grid: point t reads row block t of x, the whole of w, and writes row
    block t of the output. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the arrays the region finds. -/
theorem flushed0_eq (c : Dev nD) (t : Fin cfg0.N) :
    (dat0 (F := Ideal) V c).flushed 2 t = ((cfg0.win 2).blk t).view.read (Elt Ideal) (lin0 (V c (Pipeline.arrRef spec0 0)) (V c (Pipeline.arrRef spec0 1))) := by
  show (cfg0.win 2).cut (grid0.coords t) ((dat0 V c).after 2 t) = _
  rw [after0_2]
  unfold out0_2
  rw [View.canon_unit_zero corner0]
  simp only [View.ld_unit_zero (S := S4000x2) corner0, View.ld_unit_zero (S := S2x64) corner0]
  obtain ⟨e0, e1, e2, e3, e4, e5⟩ := idx_facts0 t
  funext j
  show k0_pay1 (F := Ideal) (iblk0 V c 0 t) (iblk0 V c 1 t) j = lin0 (V c (Pipeline.arrRef spec0 0)) (V c (Pipeline.arrRef spec0 1)) (((cfg0.win 2).blk t).view.emb j)
  refine (pay0_apply (iblk0 V c 0 t) (iblk0 V c 1 t) j).trans ?_
  refine Finset.sum_congr rfl fun k _ => ?_
  have hj0 : (j 0).val < 4000 := (j 0).isLt
  have hj1 : (j 1).val < 64 := (j 1).isLt
  have hk : k.val < 2 := k.isLt
  have h0 : ((cfg0.win 0).blk t).view.emb (ValueIdx.ix2 (j 0) k) = ValueIdx.ix2 ((((cfg0.win 2).blk t).view.emb j) 0) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 2 + 1 * k.val = k.val; omega
  have h1 : ((cfg0.win 1).blk t).view.emb (ValueIdx.ix2 k (j 1)) = ValueIdx.ix2 k ((((cfg0.win 2).blk t).view.emb j) 1) := by
    funext a; apply Fin.ext
    match a with
    | ⟨0, _⟩ => show win0_1.index t (0 : Fin 2) * 2 + 1 * k.val = k.val; omega
    | ⟨1, _⟩ => show win0_1.index t (1 : Fin 2) * 64 + 1 * (j 1).val = win0_2.index t (1 : Fin 2) * 64 + 1 * (j 1).val; omega
  exact congrArg₂ HMul.hMul (congrArg (V c (Pipeline.arrRef spec0 0)) h0) (congrArg (V c (Pipeline.arrRef spec0 1)) h1)

/-- An index of the array is in point t's block iff each coordinate is in the block's range on its axis. -/
theorem mem_blk0 (t : Fin cfg0.N) (i : S200000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v33).slice (win0_2.rect t)).set ↔ _
  rw [View.set_slice_whole, Rect.mem_set_unit]
  exact Iff.rfl

/-- Row r lies in the block of point r / 4000: the 50 row blocks cover the array. -/
theorem cover0 (i : S200000x64.Idx) : ∃ t : Fin cfg0.N, (cfg0.win 2).flush t = true ∧ i ∈ ((cfg0.win 2).blk t).view.set := by
  have hi0 : (i 0).val < 200000 := (i 0).isLt
  have hi1 : (i 1).val < 64 := (i 1).isLt
  obtain ⟨t, ht⟩ : ∃ t : Fin cfg0.N, t.val = (i 0).val / 4000 := ⟨⟨(i 0).val / 4000, by show (i 0).val / 4000 < 50; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The array the write-backs leave is the product, entry by entry. -/
theorem arr0_lin (c : Dev nD) : (dat0 (F := Ideal) V c).arrAt 2 cfg0.N = lin0 (V c (Pipeline.arrRef spec0 0)) (V c (Pipeline.arrRef spec0 1)) :=
  (dat0 (F := Ideal) V c).arrAt_eq_of_cover 2 _ (fun t _ => flushed0_eq V c t) cover0

end Reg0

open Reg0 in
/-- The array the write-backs leave is the host's dot_general of the arrays the region finds. -/
theorem arr0 (c : Dev nD) : (dat0 (F := Ideal) V c).arrAt 2 cfg0.N
      = Host.dotGeneral (F := Ideal) (φ₁ := .f32) (φ₂ := .f32) Cert.ReferenceIdeal.dot_S200000x2_S2x64_S200000x64_1_0_0_1_n_n none (V c (Pipeline.arrRef spec0 0)) (V c (Pipeline.arrRef spec0 1)) :=
  (arr0_lin V c).trans (funext fun i => (host0_apply (V c (Pipeline.arrRef spec0 0)) (V c (Pipeline.arrRef spec0 1)) i).symm)

end Cert.KernelIdeal.KV

end
-- ==== Proof.Reg1.lean ====
/- Region 1 of the kernel (the first finalize call): the array its 50 write-backs leave is the reference's
   max((agg + h * (dis * dis)) + b, 0). The blocks tile the rows 4000 at a time; every entry (r, j) of both sides is
   max((agg(r, j) + h(r, j) * (dis r * dis r)) + b j, 0) in the same grouping, so nothing is used beyond reading each
   broadcast at the entry's row or column. -/
import proofs.«147598_j30477087932519_1_alg».proof.Proof.Gen.KernelIdeal.Frame
import proofs.«147598_j30477087932519_1_alg».proof.Proof.Gen.ReferenceIdeal.Read
import Idealize.ShloMosaic.Lib.Pipeline.Value
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)

variable (V : (c : Dev nD) → (b : Ref sig .tc) → Buf (Elt Ideal) ((c : Thread nD τ).loc b))

/-- The zero offset of a whole-block access. -/
theorem hz1 : (![0, 0] : Fin 2 → Nat) = fun _ => 0 := funext fun a => by fin_cases a <;> rfl

/-- The finalize map on whole arrays, entry by entry: max((agg + h * (dis * dis)) + b, 0), the degree column read at
    the entry's row and the bias row at the entry's column. -/
def G1 (a0 a1 : S200000x64.Idx → Elt Ideal .f32) (a2 : S200000x1.Idx → Elt Ideal .f32) (a3 : S1x64.Idx → Elt Ideal .f32) :
    S200000x64.Idx → Elt Ideal .f32 := fun i =>
  FloatOps.maximumf (F := Ideal) (FloatOps.addf (FloatOps.addf (a0 i) (FloatOps.mulf (a1 i)
    (FloatOps.mulf (a2 (ix2 (i 0) (0 : Fin 1))) (a2 (ix2 (i 0) (0 : Fin 1)))))) (a3 (ix2 (0 : Fin 1) (i 1))))
    (Scalar.ofBits .f32 0x00000000#32)

/-- The body's payload read at an entry of the block: the same formula of the loaded blocks. -/
theorem pay1_apply (v0 : Vec Ideal S4000x1 .f32) (v2 v7 : Vec Ideal S4000x64 .f32) (v10 : Vec Ideal S1x64 .f32) (j : S4000x64.Idx) :
    k1_pay1 v0 v2 v7 v10 j = FloatOps.maximumf (F := Ideal) (FloatOps.addf (FloatOps.addf (v7 j) (FloatOps.mulf (v2 j)
      (FloatOps.mulf (v0 (ix2 (j 0) (0 : Fin 1))) (v0 (ix2 (j 0) (0 : Fin 1)))))) (v10 (ix2 (0 : Fin 1) (j 1))))
      (Scalar.ofBits .f32 0x00000000#32) := by
  unfold k1_pay1
  simp only [shapeCast_self]
  have e1 : broadcastTo S4000x64 (mulf (F := Ideal) (φ := .f32) v0 v0) broadcasts_S4000x1_S4000x64 j
      = FloatOps.mulf (F := Ideal) (φ := .f32) (v0 (ix2 (j 0) (0 : Fin 1))) (v0 (ix2 (j 0) (0 : Fin 1))) :=
    broadcastTo_apply (mulf (F := Ideal) (φ := .f32) v0 v0) broadcasts_S4000x1_S4000x64 j (ix2 (j 0) (0 : Fin 1)) (fun a => match a with
      | ⟨0, _⟩ => by show (j 0).val = if (4000 : Nat) = 1 then 0 else (j 0).val; rw [if_neg (by decide)]
      | ⟨1, _⟩ => by show 0 = if (1 : Nat) = 1 then 0 else (j 1).val; rw [if_pos rfl])
  have e2 : broadcastTo S4000x64 v10 broadcasts_S1x64_S4000x64 j = v10 (ix2 (0 : Fin 1) (j 1)) :=
    broadcastTo_apply (α := Elt Ideal .f32) v10 broadcasts_S1x64_S4000x64 j (ix2 (0 : Fin 1) (j 1)) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])
  show FloatOps.maximumf (F := Ideal) (FloatOps.addf (FloatOps.addf (v7 j) (FloatOps.mulf (v2 j)
      (broadcastTo S4000x64 (mulf (F := Ideal) (φ := .f32) v0 v0) broadcasts_S4000x1_S4000x64 j))) (broadcastTo S4000x64 v10 broadcasts_S1x64_S4000x64 j)) _ = _
  rw [e1, e2]
  rfl

/-- The payload as a function of the block's entries. -/
theorem pay1_eq (v0 : Vec Ideal S4000x1 .f32) (v2 v7 : Vec Ideal S4000x64 .f32) (v10 : Vec Ideal S1x64 .f32) :
    k1_pay1 v0 v2 v7 v10 = fun j => FloatOps.maximumf (F := Ideal) (FloatOps.addf (FloatOps.addf (v7 j) (FloatOps.mulf (v2 j)
      (FloatOps.mulf (v0 (ix2 (j 0) (0 : Fin 1))) (v0 (ix2 (j 0) (0 : Fin 1)))))) (v10 (ix2 (0 : Fin 1) (j 1))))
      (Scalar.ofBits .f32 0x00000000#32) :=
  funext fun j => pay1_apply v0 v2 v7 v10 j
/-- The printed index maps over the grid: the two wide inputs and the degree column move with the output's row block,
    every column block is 0, the bias row stays at block (0, 0), and the output's row block is below 50. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 49 :=
  (by decide +kernel : ∀ t : Fin grid1.N, _)

/-- Every row block of the output is some point's. -/
theorem idx_onto1 : ∀ q0 : Fin 50, ∃ t : Fin cfg1.N, win1_4.index t = ![q0.val, 0] :=
  (by decide +kernel : ∀ q0 : Fin 50, ∃ t : Fin grid1.N, win1_4.index t = ![q0.val, 0])

set_option maxHeartbeats 1000000 in
/-- What point `t` writes back is block `t` of `G1` of the four input arrays as the region finds them. -/
theorem flushed1_eq (c : Dev nD) (t : Fin cfg1.N) :
    (dat1 (F := Ideal) V c).flushed 4 t = ((cfg1.win 4).blk t).view.read (Elt Ideal)
      (G1 (V c (Pipeline.arrRef spec1 0)) (V c (Pipeline.arrRef spec1 1)) (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero hz1]
  simp only [View.ld_unit_zero (S := S4000x64) hz1, View.ld_unit_zero (S := S4000x1) hz1, View.ld_unit_zero (S := S1x64) hz1]
  rw [pay1_eq]
  obtain ⟨e0, e1, e2, e3, e4, e5, e6, e7, e8, e9⟩ := idx_facts1 t
  funext j
  have h0 : ((cfg1.win 0).blk t).view.emb j = ((cfg1.win 4).blk t).view.emb j := by
    funext a; apply Fin.ext
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb (ix2 (j 0) (0 : Fin 1)) = ix2 ((((cfg1.win 4).blk t).view.emb j) 0) (0 : Fin 1) := by
    funext a; apply Fin.ext
    match a with
    | ⟨0, _⟩ => show win1_2.index t (0 : Fin 2) * 4000 + 1 * (j 0).val = win1_4.index t (0 : Fin 2) * 4000 + 1 * (j 0).val; omega
    | ⟨1, _⟩ => show win1_2.index t (1 : Fin 2) * 1 + 1 * 0 = 0; omega
  have h3 : ((cfg1.win 3).blk t).view.emb (ix2 (0 : Fin 1) (j 1)) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  show FloatOps.maximumf (F := Ideal) (FloatOps.addf (FloatOps.addf (V c (Pipeline.arrRef spec1 0) (((cfg1.win 0).blk t).view.emb j))
      (FloatOps.mulf (V c (Pipeline.arrRef spec1 1) (((cfg1.win 1).blk t).view.emb j))
        (FloatOps.mulf (V c (Pipeline.arrRef spec1 2) (((cfg1.win 2).blk t).view.emb (ix2 (j 0) (0 : Fin 1))))
          (V c (Pipeline.arrRef spec1 2) (((cfg1.win 2).blk t).view.emb (ix2 (j 0) (0 : Fin 1)))))))
      (V c (Pipeline.arrRef spec1 3) (((cfg1.win 3).blk t).view.emb (ix2 (0 : Fin 1) (j 1))))) (Scalar.ofBits .f32 0x00000000#32)
    = G1 (V c (Pipeline.arrRef spec1 0)) (V c (Pipeline.arrRef spec1 1)) (V c (Pipeline.arrRef spec1 2)) (V c (Pipeline.arrRef spec1 3)) (((cfg1.win 4).blk t).view.emb j)
  rw [h0, h1, h2, h3]
  rfl

/-- An entry of the array is in point `t`'s block iff each coordinate is in the block's range on its axis. -/
theorem mem_blk1 (t : Fin cfg1.N) (i : S200000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v48).slice (win1_4.rect t)).set ↔ _
  rw [View.set_slice_whole, Rect.mem_set_unit]
  exact Iff.rfl

/-- The 50 row blocks cover the array: row `r` is in the block of the point whose row block is `r / 4000`. -/
theorem cover1 (i : S200000x64.Idx) :
    ∃ t : Fin cfg1.N, (cfg1.win 4).flush t = true ∧ i ∈ ((cfg1.win 4).blk t).view.set := by
  have hi0 : (i 0).val < 200000 := (i 0).isLt
  have hi1 : (i 1).val < 64 := (i 1).isLt
  obtain ⟨t, ht⟩ := idx_onto1 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- The array the write-backs leave is `G1` of the four input arrays at region entry. -/
theorem final1 (c : Dev nD) : (dat1 (F := Ideal) V c).arrAt 4 cfg1.N
    = G1 (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed1_eq V c t) cover1

/-- The degree column (a one-axis array broadcast along a new unit axis) read at row `r` is the array at `r`. -/
theorem col_apply1 (d : S200000.Idx → Elt Ideal .f32) (k : S200000.Idx) (r : Fin 200000) (hk : (k 0).val = r.val) :
    broadcastInDim S200000x1 ![0] bcast_S200000_S200000x1_0 d (ix2 r (0 : Fin 1)) = d k :=
  broadcastInDim_apply _ bcast_S200000_S200000x1_0 d _ k (fun a => match a with
    | ⟨0, _⟩ => by show (k 0).val = if (200000 : Nat) = 1 then 0 else r.val; rw [if_neg (by decide)]; exact hk)

/-- The bias row (a one-axis array reshaped to one row) read at column `q` is the array at `q`. -/
theorem row_apply1 (b : S64.Idx → Elt Ideal .f32) (k : S64.Idx) (q : Fin 64) (hk : (k 0).val = q.val) :
    shapeCast S1x64 b shapeCasts_S64_S1x64 (ix2 (0 : Fin 1) q) = b k :=
  shapeCast_apply b shapeCasts_S64_S1x64 _ k (by
    rw [Shape.rowMajor_val_one, Shape.rowMajor_val_two]
    show (k 0).val = 0 * 64 + q.val
    omega)

/-- `G1` of the region's four inputs as the reference names them is the reference's finalize result, entry by entry:
    the same sums and products in the same grouping, each broadcast read at the entry's row or column. -/
theorem G1_ref
    (x0 : (⟨Cert.ReferenceIdeal.S200000x2, .f32⟩ : BufTy).Contents (Elt Ideal))
    (x2 : (⟨Cert.ReferenceIdeal.S2x64, .f32⟩ : BufTy).Contents (Elt Ideal))
    (x3 : (⟨Cert.ReferenceIdeal.S64, .f32⟩ : BufTy).Contents (Elt Ideal))
    (x28 : (⟨Cert.ReferenceIdeal.S2x600000, .i32⟩ : BufTy).Contents (Elt Ideal)) :
    G1 (Cert.ReferenceIdeal.Read.val_main_v45 (F := Ideal) x0 x2 x28) (Cert.ReferenceIdeal.Read.val_main_v4 (F := Ideal) x0 x2)
      (broadcastInDim S200000x1 ![0] bcast_S200000_S200000x1_0 (Cert.ReferenceIdeal.Read.val_main_v17 (F := Ideal) x28))
      (shapeCast S1x64 x3 shapeCasts_S64_S1x64)
    = Cert.ReferenceIdeal.Read.val_main_v54 (F := Ideal) x0 x2 x3 x28 := by
  funext i
  rw [Cert.ReferenceIdeal.Read.val_main_v54_apply, Cert.ReferenceIdeal.Read.val_main_v53_apply,
    Cert.ReferenceIdeal.Read.val_main_v50_apply, Cert.ReferenceIdeal.Read.val_main_v49_apply,
    Cert.ReferenceIdeal.Read.val_main_v48_apply, Cert.ReferenceIdeal.Read.val_main_v47_apply,
    Cert.ReferenceIdeal.Read.val_main_v46_apply, Cert.ReferenceIdeal.Read.val_main_v52_apply,
    Cert.ReferenceIdeal.Read.val_main_v51_apply, Cert.ReferenceIdeal.Read.val_main_call0_v0_apply,
    Cert.ReferenceIdeal.Read.val_main_call0_cst_apply]
  unfold G1
  rw [col_apply1 (Cert.ReferenceIdeal.Read.val_main_v17 (F := Ideal) x28)
      (Cert.ReferenceIdeal.Read.idx_main_v47 (Cert.ReferenceIdeal.Read.idx_main_v48 i)) (i 0) rfl,
    row_apply1 x3 (Cert.ReferenceIdeal.Read.idx_main_v51 (Cert.ReferenceIdeal.Read.idx_main_v52 i)) (i 1) rfl]

theorem arr1 (c : Dev nD)
    (x0 : (⟨Cert.ReferenceIdeal.S200000x2, .f32⟩ : BufTy).Contents (Elt Ideal))
    (x2 : (⟨Cert.ReferenceIdeal.S2x64, .f32⟩ : BufTy).Contents (Elt Ideal))
    (x3 : (⟨Cert.ReferenceIdeal.S64, .f32⟩ : BufTy).Contents (Elt Ideal))
    (x28 : (⟨Cert.ReferenceIdeal.S2x600000, .i32⟩ : BufTy).Contents (Elt Ideal))
    (h46 : V c (Pipeline.arrRef spec1 0) = Cert.ReferenceIdeal.Read.val_main_v45 (F := Ideal) x0 x2 x28)
    (h33 : V c (Pipeline.arrRef spec1 1) = Cert.ReferenceIdeal.Read.val_main_v4 (F := Ideal) x0 x2)
    (h32 : V c (Pipeline.arrRef spec1 2) = broadcastInDim S200000x1 ![0] bcast_S200000_S200000x1_0 (Cert.ReferenceIdeal.Read.val_main_v17 (F := Ideal) x28))
    (h47 : V c (Pipeline.arrRef spec1 3) = shapeCast S1x64 x3 shapeCasts_S64_S1x64) :
    (dat1 (F := Ideal) V c).arrAt 4 cfg1.N = Cert.ReferenceIdeal.Read.val_main_v54 (F := Ideal) x0 x2 x3 x28 := by
  rw [final1 V c, h46, h33, h32, h47]
  exact G1_ref x0 x2 x3 x28

end Cert.KernelIdeal.KV

end
-- ==== Proof.Reg2.lean ====
/-
  Region 2 of the kernel's @main, the second linear map h = x · W on 50 row blocks of 4000 (64 columns in, 128 out):
  the array its write-backs leave is the host's dot_general of the two arrays the region finds. Entry (r, j) of the
  output lies in row block r / 4000, whose flushed value at (r mod 4000, j) is the sum over k of x(r, k) · w(k, j);
  that sum is the host product's entry (r, j).
-/
import proofs.«147598_j30477087932519_1_alg».proof.Proof.Gen.KernelIdeal.Frame
import proofs.«147598_j30477087932519_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

namespace Reg2

/-- The zero offset of an access that starts at the buffer's corner. -/
theorem corner2 : (![0, 0] : Fin 2 → Nat) = fun _ => 0 := funext fun a => by fin_cases a <;> rfl

/-- Entry (r, j) of the product x · w: the sum over the contracted axis of x(r, k) · w(k, j). -/
abbrev lin2 (x : Vec Ideal S200000x64 .f32) (w : Vec Ideal S64x128 .f32) : Vec Ideal S200000x128 .f32 :=
  fun i => ∑ k : Fin 64, x (ValueIdx.ix2 (i 0) k) * w (ValueIdx.ix2 k (i 1))

/-! ## The block product at an index -/

theorem klhs2_0 (j : S4000x128.Idx) (q : dot_S4000x64_S64x128_S4000x128_1_0_0_1_n_n.contr.Idx) :
    (dot_S4000x64_S64x128_S4000x128_1_0_0_1_n_n.lhsIdx j q 0).val = (j 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem klhs2_1 (j : S4000x128.Idx) (q : dot_S4000x64_S64x128_S4000x128_1_0_0_1_n_n.contr.Idx) :
    (dot_S4000x64_S64x128_S4000x128_1_0_0_1_n_n.lhsIdx j q 1).val = (q ⟨0, by decide⟩).val :=
  dot_S4000x64_S64x128_S4000x128_1_0_0_1_n_n.lhsIdx_val_of_single rfl j q
theorem krhs2_0 (j : S4000x128.Idx) (q : dot_S4000x64_S64x128_S4000x128_1_0_0_1_n_n.contr.Idx) :
    (dot_S4000x64_S64x128_S4000x128_1_0_0_1_n_n.rhsIdx j q 0).val = (q ⟨0, by decide⟩).val :=
  dot_S4000x64_S64x128_S4000x128_1_0_0_1_n_n.rhsIdx_val_of_single rfl j q
theorem krhs2_1 (j : S4000x128.Idx) (q : dot_S4000x64_S64x128_S4000x128_1_0_0_1_n_n.contr.Idx) :
    (dot_S4000x64_S64x128_S4000x128_1_0_0_1_n_n.rhsIdx j q 1).val = (j 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The body's payload at an index: the reshape to the same shape reads the same entry, the rounding to bf16 is the identity at
    the ideal values, and the product into the zero accumulator is the sum over the contracted axis. -/
theorem pay2_apply (x0 : Vec Ideal S4000x64 .f32) (x1 : Vec Ideal S64x128 .f32) (j : S4000x128.Idx) :
    k2_pay1 (F := Ideal) x0 x1 j = ∑ k : Fin 64, x0 (ValueIdx.ix2 (j 0) k) * x1 (ValueIdx.ix2 k (j 1)) := by
  unfold k2_pay1
  refine (Ideal.matmul_constant_zero_apply dot_S4000x64_S64x128_S4000x128_1_0_0_1_n_n none _ _ j).trans ?_
  rw [← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx j ((ValueIdx.contrEquiv1 dot_S4000x64_S64x128_S4000x128_1_0_0_1_n_n 64 rfl rfl).symm k) = ValueIdx.ix2 (j 0) k := funext fun a => Fin.ext (by
    match a with
    | ⟨0, _⟩ => exact klhs2_0 _ _
    | ⟨1, _⟩ => exact (klhs2_1 _ _).trans hk)
  have er : dot_S4000x64_S64x128_S4000x128_1_0_0_1_n_n.rhsIdx j ((ValueIdx.contrEquiv1 dot_S4000x64_S64x128_S4000x128_1_0_0_1_n_n 64 rfl rfl).symm k) = ValueIdx.ix2 k (j 1) := funext fun a => Fin.ext (by
    match a with
    | ⟨0, _⟩ => exact (krhs2_0 _ _).trans hk
    | ⟨1, _⟩ => exact krhs2_1 _ _)
  rw [el, er]
  exact congrArg (fun a : Elt Ideal .f32 => a * x1 (ValueIdx.ix2 k (j 1)))
    (shapeCast_apply x0 shapeCasts_S4000x64_S4000x64 (ValueIdx.ix2 (j 0) k) (ValueIdx.ix2 (j 0) k) rfl)

/-! ## The host's product at an index -/

theorem hlhs2_0 (i : Cert.ReferenceIdeal.S200000x128.Idx) (q : Cert.ReferenceIdeal.dot_S200000x64_S64x128_S200000x128_1_0_0_1_n_n.contr.Idx) :
    (Cert.ReferenceIdeal.dot_S200000x64_S64x128_S200000x128_1_0_0_1_n_n.lhsIdx i q 0).val = (i 0).val := by
  unfold DotDims.lhsIdx
  rw [dif_neg (show ¬(0 : Fin Cert.ReferenceIdeal.S200000x64.rank) ∈ Cert.ReferenceIdeal.dot_S200000x64_S64x128_S200000x128_1_0_0_1_n_n.lhsBatch by decide), dif_pos (show (0 : Fin Cert.ReferenceIdeal.S200000x64.rank) ∈ Cert.ReferenceIdeal.dot_S200000x64_S64x128_S200000x128_1_0_0_1_n_n.lhsNonContracting by decide)]
  rfl
theorem hlhs2_1 (i : Cert.ReferenceIdeal.S200000x128.Idx) (q : Cert.ReferenceIdeal.dot_S200000x64_S64x128_S200000x128_1_0_0_1_n_n.contr.Idx) :
    (Cert.ReferenceIdeal.dot_S200000x64_S64x128_S200000x128_1_0_0_1_n_n.lhsIdx i q 1).val = (q ⟨0, by decide⟩).val :=
  Cert.ReferenceIdeal.dot_S200000x64_S64x128_S200000x128_1_0_0_1_n_n.lhsIdx_val_of_single rfl i q
theorem hrhs2_0 (i : Cert.ReferenceIdeal.S200000x128.Idx) (q : Cert.ReferenceIdeal.dot_S200000x64_S64x128_S200000x128_1_0_0_1_n_n.contr.Idx) :
    (Cert.ReferenceIdeal.dot_S200000x64_S64x128_S200000x128_1_0_0_1_n_n.rhsIdx i q 0).val = (q ⟨0, by decide⟩).val :=
  Cert.ReferenceIdeal.dot_S200000x64_S64x128_S200000x128_1_0_0_1_n_n.rhsIdx_val_of_single rfl i q
theorem hrhs2_1 (i : Cert.ReferenceIdeal.S200000x128.Idx) (q : Cert.ReferenceIdeal.dot_S200000x64_S64x128_S200000x128_1_0_0_1_n_n.contr.Idx) :
    (Cert.ReferenceIdeal.dot_S200000x64_S64x128_S200000x128_1_0_0_1_n_n.rhsIdx i q 1).val = (i 1).val := by
  unfold DotDims.rhsIdx
  rw [dif_neg (show ¬(1 : Fin Cert.ReferenceIdeal.S64x128.rank) ∈ Cert.ReferenceIdeal.dot_S200000x64_S64x128_S200000x128_1_0_0_1_n_n.rhsBatch by decide), dif_pos (show (1 : Fin Cert.ReferenceIdeal.S64x128.rank) ∈ Cert.ReferenceIdeal.dot_S200000x64_S64x128_S200000x128_1_0_0_1_n_n.rhsNonContracting by decide)]
  rfl

/-- The host's dot_general at an index is the same sum over the contracted axis. -/
theorem host2_apply (x : Vec Ideal S200000x64 .f32) (w : Vec Ideal S64x128 .f32) (i : S200000x128.Idx) :
    Host.dotGeneral (F := Ideal) (φ₁ := .f32) (φ₂ := .f32) Cert.ReferenceIdeal.dot_S200000x64_S64x128_S200000x128_1_0_0_1_n_n none x w i = lin2 x w i := by
  simp only [Host.dotGeneral]
  rw [Ideal.dotGeneral_apply, ← Equiv.sum_comp (ValueIdx.contrEquiv1 Cert.ReferenceIdeal.dot_S200000x64_S64x128_S200000x128_1_0_0_1_n_n 64 rfl rfl).symm]
  refine Finset.sum_congr rfl fun k _ => ?_
  have hk := ValueIdx.contrEquiv1_symm_val Cert.ReferenceIdeal.dot_S200000x64_S64x128_S200000x128_1_0_0_1_n_n 64 rfl rfl k
  have el : Cert.ReferenceIdeal.dot_S200000x64_S64x128_S200000x128_1_0_0_1_n_n.lhsIdx i ((ValueIdx.contrEquiv1 Cert.ReferenceIdeal.dot_S200000x64_S64x128_S200000x128_1_0_0_1_n_n 64 rfl rfl).symm k) = ValueIdx.ix2 (i 0) k := funext fun a => Fin.ext (by
    match a with
    | ⟨0, _⟩ => exact hlhs2_0 _ _
    | ⟨1, _⟩ => exact (hlhs2_1 _ _).trans hk)
  have er : Cert.ReferenceIdeal.dot_S200000x64_S64x128_S200000x128_1_0_0_1_n_n.rhsIdx i ((ValueIdx.contrEquiv1 Cert.ReferenceIdeal.dot_S200000x64_S64x128_S200000x128_1_0_0_1_n_n 64 rfl rfl).symm k) = ValueIdx.ix2 k (i 1) := funext fun a => Fin.ext (by
    match a with
    | ⟨0, _⟩ => exact (hrhs2_0 _ _).trans hk
    | ⟨1, _⟩ => exact hrhs2_1 _ _)
  rw [el, er]
  rfl

/-! ## From the blocks to the array -/

/-- The printed index maps, decided over the grid: point t reads row block t of x, the whole of w, and writes row
    block t of the output. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product of the arrays the region finds. -/
theorem flushed2_eq (c : Dev nD) (t : Fin cfg2.N) :
    (dat2 (F := Ideal) V c).flushed 2 t = ((cfg2.win 2).blk t).view.read (Elt Ideal) (lin2 (V c (Pipeline.arrRef spec2 0)) (V c (Pipeline.arrRef spec2 1))) := by
  show (cfg2.win 2).cut (grid2.coords t) ((dat2 V c).after 2 t) = _
  rw [after2_2]
  unfold out2_2
  rw [View.canon_unit_zero corner2]
  simp only [View.ld_unit_zero (S := S4000x64) corner2, View.ld_unit_zero (S := S64x128) corner2]
  obtain ⟨e0, e1, e2, e3, e4, e5⟩ := idx_facts2 t
  funext j
  show k2_pay1 (F := Ideal) (iblk2 V c 0 t) (iblk2 V c 1 t) j = lin2 (V c (Pipeline.arrRef spec2 0)) (V c (Pipeline.arrRef spec2 1)) (((cfg2.win 2).blk t).view.emb j)
  refine (pay2_apply (iblk2 V c 0 t) (iblk2 V c 1 t) j).trans ?_
  refine Finset.sum_congr rfl fun k _ => ?_
  have hj0 : (j 0).val < 4000 := (j 0).isLt
  have hj1 : (j 1).val < 128 := (j 1).isLt
  have hk : k.val < 64 := k.isLt
  have h0 : ((cfg2.win 0).blk t).view.emb (ValueIdx.ix2 (j 0) k) = ValueIdx.ix2 ((((cfg2.win 2).blk t).view.emb j) 0) k := by
    funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 64 + 1 * k.val = k.val; omega
  have h1 : ((cfg2.win 1).blk t).view.emb (ValueIdx.ix2 k (j 1)) = ValueIdx.ix2 k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 128 + 1 * (j 1).val = win2_2.index t (1 : Fin 2) * 128 + 1 * (j 1).val; omega
  exact congrArg₂ HMul.hMul (congrArg (V c (Pipeline.arrRef spec2 0)) h0) (congrArg (V c (Pipeline.arrRef spec2 1)) h1)

/-- An index of the array is in point t's block iff each coordinate is in the block's range on its axis. -/
theorem mem_blk2 (t : Fin cfg2.N) (i : S200000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v49).slice (win2_2.rect t)).set ↔ _
  rw [View.set_slice_whole, Rect.mem_set_unit]
  exact Iff.rfl

/-- Row r lies in the block of point r / 4000: the 50 row blocks cover the array. -/
theorem cover2 (i : S200000x128.Idx) : ∃ t : Fin cfg2.N, (cfg2.win 2).flush t = true ∧ i ∈ ((cfg2.win 2).blk t).view.set := by
  have hi0 : (i 0).val < 200000 := (i 0).isLt
  have hi1 : (i 1).val < 128 := (i 1).isLt
  obtain ⟨t, ht⟩ : ∃ t : Fin cfg2.N, t.val = (i 0).val / 4000 := ⟨⟨(i 0).val / 4000, by show (i 0).val / 4000 < 50; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- The array the write-backs leave is the product, entry by entry. -/
theorem arr2_lin (c : Dev nD) : (dat2 (F := Ideal) V c).arrAt 2 cfg2.N = lin2 (V c (Pipeline.arrRef spec2 0)) (V c (Pipeline.arrRef spec2 1)) :=
  (dat2 (F := Ideal) V c).arrAt_eq_of_cover 2 _ (fun t _ => flushed2_eq V c t) cover2

end Reg2

open Reg2 in
/-- The array the write-backs leave is the host's dot_general of the arrays the region finds. -/
theorem arr2 (c : Dev nD) : (dat2 (F := Ideal) V c).arrAt 2 cfg2.N
      = Host.dotGeneral (F := Ideal) (φ₁ := .f32) (φ₂ := .f32) Cert.ReferenceIdeal.dot_S200000x64_S64x128_S200000x128_1_0_0_1_n_n none (V c (Pipeline.arrRef spec2 0)) (V c (Pipeline.arrRef spec2 1)) :=
  (arr2_lin V c).trans (funext fun i => (host2_apply (V c (Pipeline.arrRef spec2 0)) (V c (Pipeline.arrRef spec2 1)) i).symm)

end Cert.KernelIdeal.KV

end
-- ==== Proof.Reg3.lean ====
/- Region 3 of the kernel (the second finalize call, 128 columns): the array its 50 write-backs leave is the
   reference's max((agg + h * (dis * dis)) + b, 0). The blocks tile the rows 4000 at a time; every entry (r, j) of both
   sides is max((agg(r, j) + h(r, j) * (dis r * dis r)) + b j, 0) in the same grouping, so nothing is used beyond reading
   each broadcast at the entry's row or column. -/
import proofs.«147598_j30477087932519_1_alg».proof.Proof.Gen.KernelIdeal.Frame
import proofs.«147598_j30477087932519_1_alg».proof.Proof.Gen.ReferenceIdeal.Read
import Idealize.ShloMosaic.Lib.Pipeline.Value
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)

variable (V : (c : Dev nD) → (b : Ref sig .tc) → Buf (Elt Ideal) ((c : Thread nD τ).loc b))

/-- The zero offset of a whole-block access. -/
theorem hz3 : (![0, 0] : Fin 2 → Nat) = fun _ => 0 := funext fun a => by fin_cases a <;> rfl

/-- The finalize map on whole arrays, entry by entry: max((agg + h * (dis * dis)) + b, 0), the degree column read at
    the entry's row and the bias row at the entry's column. -/
def G3 (a0 a1 : S200000x128.Idx → Elt Ideal .f32) (a2 : S200000x1.Idx → Elt Ideal .f32) (a3 : S1x128.Idx → Elt Ideal .f32) :
    S200000x128.Idx → Elt Ideal .f32 := fun i =>
  FloatOps.maximumf (F := Ideal) (FloatOps.addf (FloatOps.addf (a0 i) (FloatOps.mulf (a1 i)
    (FloatOps.mulf (a2 (ix2 (i 0) (0 : Fin 1))) (a2 (ix2 (i 0) (0 : Fin 1)))))) (a3 (ix2 (0 : Fin 1) (i 1))))
    (Scalar.ofBits .f32 0x00000000#32)

/-- The body's payload read at an entry of the block: the same formula of the loaded blocks. -/
theorem pay3_apply (v0 : Vec Ideal S4000x1 .f32) (v2 v7 : Vec Ideal S4000x128 .f32) (v10 : Vec Ideal S1x128 .f32) (j : S4000x128.Idx) :
    k3_pay1 v0 v2 v7 v10 j = FloatOps.maximumf (F := Ideal) (FloatOps.addf (FloatOps.addf (v7 j) (FloatOps.mulf (v2 j)
      (FloatOps.mulf (v0 (ix2 (j 0) (0 : Fin 1))) (v0 (ix2 (j 0) (0 : Fin 1)))))) (v10 (ix2 (0 : Fin 1) (j 1))))
      (Scalar.ofBits .f32 0x00000000#32) := by
  unfold k3_pay1
  simp only [shapeCast_self]
  have e1 : broadcastTo S4000x128 (mulf (F := Ideal) (φ := .f32) v0 v0) broadcasts_S4000x1_S4000x128 j
      = FloatOps.mulf (F := Ideal) (φ := .f32) (v0 (ix2 (j 0) (0 : Fin 1))) (v0 (ix2 (j 0) (0 : Fin 1))) :=
    broadcastTo_apply (mulf (F := Ideal) (φ := .f32) v0 v0) broadcasts_S4000x1_S4000x128 j (ix2 (j 0) (0 : Fin 1)) (fun a => match a with
      | ⟨0, _⟩ => by show (j 0).val = if (4000 : Nat) = 1 then 0 else (j 0).val; rw [if_neg (by decide)]
      | ⟨1, _⟩ => by show 0 = if (1 : Nat) = 1 then 0 else (j 1).val; rw [if_pos rfl])
  have e2 : broadcastTo S4000x128 v10 broadcasts_S1x128_S4000x128 j = v10 (ix2 (0 : Fin 1) (j 1)) :=
    broadcastTo_apply (α := Elt Ideal .f32) v10 broadcasts_S1x128_S4000x128 j (ix2 (0 : Fin 1) (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  show FloatOps.maximumf (F := Ideal) (FloatOps.addf (FloatOps.addf (v7 j) (FloatOps.mulf (v2 j)
      (broadcastTo S4000x128 (mulf (F := Ideal) (φ := .f32) v0 v0) broadcasts_S4000x1_S4000x128 j))) (broadcastTo S4000x128 v10 broadcasts_S1x128_S4000x128 j)) _ = _
  rw [e1, e2]
  rfl

/-- The payload as a function of the block's entries. -/
theorem pay3_eq (v0 : Vec Ideal S4000x1 .f32) (v2 v7 : Vec Ideal S4000x128 .f32) (v10 : Vec Ideal S1x128 .f32) :
    k3_pay1 v0 v2 v7 v10 = fun j => FloatOps.maximumf (F := Ideal) (FloatOps.addf (FloatOps.addf (v7 j) (FloatOps.mulf (v2 j)
      (FloatOps.mulf (v0 (ix2 (j 0) (0 : Fin 1))) (v0 (ix2 (j 0) (0 : Fin 1)))))) (v10 (ix2 (0 : Fin 1) (j 1))))
      (Scalar.ofBits .f32 0x00000000#32) :=
  funext fun j => pay3_apply v0 v2 v7 v10 j
/-- The printed index maps over the grid: the two wide inputs and the degree column move with the output's row block,
    every column block is 0, the bias row stays at block (0, 0), and the output's row block is below 50. -/
theorem idx_facts3 : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 49 :=
  (by decide +kernel : ∀ t : Fin grid3.N, _)

/-- Every row block of the output is some point's. -/
theorem idx_onto3 : ∀ q0 : Fin 50, ∃ t : Fin cfg3.N, win3_4.index t = ![q0.val, 0] :=
  (by decide +kernel : ∀ q0 : Fin 50, ∃ t : Fin grid3.N, win3_4.index t = ![q0.val, 0])

set_option maxHeartbeats 1000000 in
/-- What point `t` writes back is block `t` of `G3` of the four input arrays as the region finds them. -/
theorem flushed3_eq (c : Dev nD) (t : Fin cfg3.N) :
    (dat3 (F := Ideal) V c).flushed 4 t = ((cfg3.win 4).blk t).view.read (Elt Ideal)
      (G3 (V c (Pipeline.arrRef spec3 0)) (V c (Pipeline.arrRef spec3 1)) (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero hz3]
  simp only [View.ld_unit_zero (S := S4000x128) hz3, View.ld_unit_zero (S := S4000x1) hz3, View.ld_unit_zero (S := S1x128) hz3]
  rw [pay3_eq]
  obtain ⟨e0, e1, e2, e3, e4, e5, e6, e7, e8, e9⟩ := idx_facts3 t
  funext j
  have h0 : ((cfg3.win 0).blk t).view.emb j = ((cfg3.win 4).blk t).view.emb j := by
    funext a; apply Fin.ext
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 4000 + 1 * (j 0).val = win3_4.index t (0 : Fin 2) * 4000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (ix2 (j 0) (0 : Fin 1)) = ix2 ((((cfg3.win 4).blk t).view.emb j) 0) (0 : Fin 1) := by
    funext a; apply Fin.ext
    match a with
    | ⟨0, _⟩ => show win3_2.index t (0 : Fin 2) * 4000 + 1 * (j 0).val = win3_4.index t (0 : Fin 2) * 4000 + 1 * (j 0).val; omega
    | ⟨1, _⟩ => show win3_2.index t (1 : Fin 2) * 1 + 1 * 0 = 0; omega
  have h3 : ((cfg3.win 3).blk t).view.emb (ix2 (0 : Fin 1) (j 1)) = ix2 (0 : Fin 1) ((((cfg3.win 4).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  show FloatOps.maximumf (F := Ideal) (FloatOps.addf (FloatOps.addf (V c (Pipeline.arrRef spec3 0) (((cfg3.win 0).blk t).view.emb j))
      (FloatOps.mulf (V c (Pipeline.arrRef spec3 1) (((cfg3.win 1).blk t).view.emb j))
        (FloatOps.mulf (V c (Pipeline.arrRef spec3 2) (((cfg3.win 2).blk t).view.emb (ix2 (j 0) (0 : Fin 1))))
          (V c (Pipeline.arrRef spec3 2) (((cfg3.win 2).blk t).view.emb (ix2 (j 0) (0 : Fin 1)))))))
      (V c (Pipeline.arrRef spec3 3) (((cfg3.win 3).blk t).view.emb (ix2 (0 : Fin 1) (j 1))))) (Scalar.ofBits .f32 0x00000000#32)
    = G3 (V c (Pipeline.arrRef spec3 0)) (V c (Pipeline.arrRef spec3 1)) (V c (Pipeline.arrRef spec3 2)) (V c (Pipeline.arrRef spec3 3)) (((cfg3.win 4).blk t).view.emb j)
  rw [h0, h1, h2, h3]
  rfl

/-- An entry of the array is in point `t`'s block iff each coordinate is in the block's range on its axis. -/
theorem mem_blk3 (t : Fin cfg3.N) (i : S200000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v64).slice (win3_4.rect t)).set ↔ _
  rw [View.set_slice_whole, Rect.mem_set_unit]
  exact Iff.rfl

/-- The 50 row blocks cover the array: row `r` is in the block of the point whose row block is `r / 4000`. -/
theorem cover3 (i : S200000x128.Idx) :
    ∃ t : Fin cfg3.N, (cfg3.win 4).flush t = true ∧ i ∈ ((cfg3.win 4).blk t).view.set := by
  have hi0 : (i 0).val < 200000 := (i 0).isLt
  have hi1 : (i 1).val < 128 := (i 1).isLt
  obtain ⟨t, ht⟩ := idx_onto3 ⟨(i 0).val / 4000, by omega⟩
  have q0 : win3_4.index t (0 : Fin 2) = (i 0).val / 4000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 128 ≤ (i 1).val ∧ (i 1).val < win3_4.index t (1 : Fin 2) * 128 + 128; omega

/-- The array the write-backs leave is `G3` of the four input arrays at region entry. -/
theorem final3 (c : Dev nD) : (dat3 (F := Ideal) V c).arrAt 4 cfg3.N
    = G3 (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => flushed3_eq V c t) cover3

/-- The degree column (a one-axis array broadcast along a new unit axis) read at row `r` is the array at `r`. -/
theorem col_apply3 (d : S200000.Idx → Elt Ideal .f32) (k : S200000.Idx) (r : Fin 200000) (hk : (k 0).val = r.val) :
    broadcastInDim S200000x1 ![0] bcast_S200000_S200000x1_0 d (ix2 r (0 : Fin 1)) = d k :=
  broadcastInDim_apply _ bcast_S200000_S200000x1_0 d _ k (fun a => match a with
    | ⟨0, _⟩ => by show (k 0).val = if (200000 : Nat) = 1 then 0 else r.val; rw [if_neg (by decide)]; exact hk)

/-- The bias row (a one-axis array reshaped to one row) read at column `q` is the array at `q`. -/
theorem row_apply3 (b : S128.Idx → Elt Ideal .f32) (k : S128.Idx) (q : Fin 128) (hk : (k 0).val = q.val) :
    shapeCast S1x128 b shapeCasts_S128_S1x128 (ix2 (0 : Fin 1) q) = b k :=
  shapeCast_apply b shapeCasts_S128_S1x128 _ k (by
    rw [Shape.rowMajor_val_one, Shape.rowMajor_val_two]
    show (k 0).val = 0 * 128 + q.val
    omega)

/-- `G3` of the region's four inputs as the reference names them is the reference's finalize result, entry by entry:
    the same sums and products in the same grouping, each broadcast read at the entry's row or column. -/
theorem G3_ref
    (x0 : (⟨Cert.ReferenceIdeal.S200000x2, .f32⟩ : BufTy).Contents (Elt Ideal))
    (x2 : (⟨Cert.ReferenceIdeal.S2x64, .f32⟩ : BufTy).Contents (Elt Ideal))
    (x3 : (⟨Cert.ReferenceIdeal.S64, .f32⟩ : BufTy).Contents (Elt Ideal))
    (x4 : (⟨Cert.ReferenceIdeal.S64x128, .f32⟩ : BufTy).Contents (Elt Ideal))
    (x5 : (⟨Cert.ReferenceIdeal.S128, .f32⟩ : BufTy).Contents (Elt Ideal))
    (x28 : (⟨Cert.ReferenceIdeal.S2x600000, .i32⟩ : BufTy).Contents (Elt Ideal)) :
    G3 (Cert.ReferenceIdeal.Read.val_main_v96 (F := Ideal) x0 x2 x3 x4 x28) (Cert.ReferenceIdeal.Read.val_main_v55 (F := Ideal) x0 x2 x3 x4 x28)
      (broadcastInDim S200000x1 ![0] bcast_S200000_S200000x1_0 (Cert.ReferenceIdeal.Read.val_main_v68 (F := Ideal) x28))
      (shapeCast S1x128 x5 shapeCasts_S128_S1x128)
    = Cert.ReferenceIdeal.Read.val_main_v105 (F := Ideal) x0 x2 x3 x4 x5 x28 := by
  funext i
  rw [Cert.ReferenceIdeal.Read.val_main_v105_apply, Cert.ReferenceIdeal.Read.val_main_v104_apply,
    Cert.ReferenceIdeal.Read.val_main_v101_apply, Cert.ReferenceIdeal.Read.val_main_v100_apply,
    Cert.ReferenceIdeal.Read.val_main_v99_apply, Cert.ReferenceIdeal.Read.val_main_v98_apply,
    Cert.ReferenceIdeal.Read.val_main_v97_apply, Cert.ReferenceIdeal.Read.val_main_v103_apply,
    Cert.ReferenceIdeal.Read.val_main_v102_apply, Cert.ReferenceIdeal.Read.val_main_call1_v0_apply,
    Cert.ReferenceIdeal.Read.val_main_call1_cst_apply]
  unfold G3
  rw [col_apply3 (Cert.ReferenceIdeal.Read.val_main_v68 (F := Ideal) x28)
      (Cert.ReferenceIdeal.Read.idx_main_v98 (Cert.ReferenceIdeal.Read.idx_main_v99 i)) (i 0) rfl,
    row_apply3 x5 (Cert.ReferenceIdeal.Read.idx_main_v102 (Cert.ReferenceIdeal.Read.idx_main_v103 i)) (i 1) rfl]

theorem arr3 (c : Dev nD)
    (x0 : (⟨Cert.ReferenceIdeal.S200000x2, .f32⟩ : BufTy).Contents (Elt Ideal))
    (x2 : (⟨Cert.ReferenceIdeal.S2x64, .f32⟩ : BufTy).Contents (Elt Ideal))
    (x3 : (⟨Cert.ReferenceIdeal.S64, .f32⟩ : BufTy).Contents (Elt Ideal))
    (x4 : (⟨Cert.ReferenceIdeal.S64x128, .f32⟩ : BufTy).Contents (Elt Ideal))
    (x5 : (⟨Cert.ReferenceIdeal.S128, .f32⟩ : BufTy).Contents (Elt Ideal))
    (x28 : (⟨Cert.ReferenceIdeal.S2x600000, .i32⟩ : BufTy).Contents (Elt Ideal))
    (h62 : V c (Pipeline.arrRef spec3 0) = Cert.ReferenceIdeal.Read.val_main_v96 (F := Ideal) x0 x2 x3 x4 x28)
    (h49 : V c (Pipeline.arrRef spec3 1) = Cert.ReferenceIdeal.Read.val_main_v55 (F := Ideal) x0 x2 x3 x4 x28)
    (h32 : V c (Pipeline.arrRef spec3 2) = broadcastInDim S200000x1 ![0] bcast_S200000_S200000x1_0 (Cert.ReferenceIdeal.Read.val_main_v68 (F := Ideal) x28))
    (h63 : V c (Pipeline.arrRef spec3 3) = shapeCast S1x128 x5 shapeCasts_S128_S1x128) :
    (dat3 (F := Ideal) V c).arrAt 4 cfg3.N = Cert.ReferenceIdeal.Read.val_main_v105 (F := Ideal) x0 x2 x3 x4 x5 x28 := by
  rw [final3 V c, h62, h49, h32, h63]
  exact G3_ref x0 x2 x3 x4 x5 x28

end Cert.KernelIdeal.KV

end
-- ==== Proof.GlueA.lean ====
/- The kernel's first four pallas_calls and the host stretches between them, boundary by boundary: each buffer the
   later stages read holds the reference's stage of the same meaning. A linear call's output array is the host matrix
   product of its operands; the gather of its rows along the edges, the scaling by the per-edge product and the
   scatter-add onto the destination nodes are the reference's own operations applied to equal operands; a finalize call's
   output array is the reference's rectified sum of the aggregate, the self term and the bias. -/
import proofs.«147598_j30477087932519_1_alg».proof.Proof.StageA
import proofs.«147598_j30477087932519_1_alg».proof.Proof.Reg0
import proofs.«147598_j30477087932519_1_alg».proof.Proof.Reg1
import proofs.«147598_j30477087932519_1_alg».proof.Proof.Reg2
import proofs.«147598_j30477087932519_1_alg».proof.Proof.Reg3

set_option maxRecDepth 16384
-- reading a long host stretch back rewrites once per operation
set_option maxHeartbeats 8000000

noncomputable section

namespace Cert.KernelIdeal.KV

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first linear call leaves x · W1. -/
theorem w2_v33 (c : Dev nD) : W2 m ρ c (Proc.devRef .tc main_v33)
    = Cert.ReferenceIdeal.Read.val_main_v4 (F := Ideal) (m ((c : Thread nD τ).loc main_arg0)) (m ((c : Thread nD τ).loc main_arg2)) := by
  refine (W2_arr m ρ c 2).trans ?_
  rw [arr0 (V1 m ρ) c]
  have e0 : V1 m ρ c (Pipeline.arrRef spec0 0) = m ((c : Thread nD τ).loc main_arg0) := w1_arg0 m ρ c
  have e1 : V1 m ρ c (Pipeline.arrRef spec0 1) = m ((c : Thread nD τ).loc main_arg2) := w1_arg2 m ρ c
  rw [e0, e1]
  rfl

/-- The first layer's aggregate over incoming edges. -/
theorem w3_v46 (c : Dev nD) : W3 m ρ c (Proc.devRef .tc main_v46)
    = Cert.ReferenceIdeal.Read.val_main_v45 (F := Ideal) (m ((c : Thread nD τ).loc main_arg0)) (m ((c : Thread nD τ).loc main_arg2))
        (m ((c : Thread nD τ).loc main_arg28)) := by
  show StableHlo.after hostOps1 (W2 m ρ c) (Proc.devRef .tc main_v46) = _
  simp only [hostOps1]
  after_results
  rw [w2_v1_from1, w2_v3_from1, w2_v31_from1, w1_v1, w1_v3, w1_v31, w2_v33]
  rfl

/-- The first layer's bias as a row. -/
theorem w3_v47 (c : Dev nD) : W3 m ρ c (Proc.devRef .tc main_v47)
    = shapeCast S1x64 (m ((c : Thread nD τ).loc main_arg3)) shapeCasts_S64_S1x64 := by
  show StableHlo.after hostOps1 (W2 m ρ c) (Proc.devRef .tc main_v47) = _
  simp only [hostOps1]
  after_results
  rw [w2_arg3]
  rfl

/-- The first finalize call leaves the first layer's activations. -/
theorem w4_v48 (c : Dev nD) : W4 m ρ c (Proc.devRef .tc main_v48)
    = Cert.ReferenceIdeal.Read.val_main_v54 (F := Ideal) (m ((c : Thread nD τ).loc main_arg0)) (m ((c : Thread nD τ).loc main_arg2))
        (m ((c : Thread nD τ).loc main_arg3)) (m ((c : Thread nD τ).loc main_arg28)) :=
  (W4_arr m ρ c 4).trans (arr1 (V3 m ρ) c _ _ _ _ (w3_v46 m ρ c) ((w3_v33_from2 m ρ c).trans (w2_v33 m ρ c))
    ((w3_v32_from1 m ρ c).trans (w1_v32 m ρ c)) (w3_v47 m ρ c))

/-- The second linear call leaves h1 · W2. -/
theorem w5_v49 (c : Dev nD) : W5 m ρ c (Proc.devRef .tc main_v49)
    = Cert.ReferenceIdeal.Read.val_main_v55 (F := Ideal) (m ((c : Thread nD τ).loc main_arg0)) (m ((c : Thread nD τ).loc main_arg2))
        (m ((c : Thread nD τ).loc main_arg3)) (m ((c : Thread nD τ).loc main_arg4)) (m ((c : Thread nD τ).loc main_arg28)) := by
  refine (W5_arr m ρ c 2).trans ?_
  rw [arr2 (V4 m ρ) c]
  have e0 : V4 m ρ c (Pipeline.arrRef spec2 0) = _ := w4_v48 m ρ c
  have e1 : V4 m ρ c (Pipeline.arrRef spec2 1) = m ((c : Thread nD τ).loc main_arg4) := w4_arg4 m ρ c
  rw [e0, e1]
  rfl

/-- The second layer's aggregate over incoming edges. -/
theorem w6_v62 (c : Dev nD) : W6 m ρ c (Proc.devRef .tc main_v62)
    = Cert.ReferenceIdeal.Read.val_main_v96 (F := Ideal) (m ((c : Thread nD τ).loc main_arg0)) (m ((c : Thread nD τ).loc main_arg2))
        (m ((c : Thread nD τ).loc main_arg3)) (m ((c : Thread nD τ).loc main_arg4)) (m ((c : Thread nD τ).loc main_arg28)) := by
  show StableHlo.after hostOps3 (W5 m ρ c) (Proc.devRef .tc main_v62) = _
  simp only [hostOps3]
  after_results
  rw [w5_v1_from1, w5_v3_from1, w5_v31_from1, w1_v1, w1_v3, w1_v31, w5_v49]
  rfl

/-- The second layer's bias as a row. -/
theorem w6_v63 (c : Dev nD) : W6 m ρ c (Proc.devRef .tc main_v63)
    = shapeCast S1x128 (m ((c : Thread nD τ).loc main_arg5)) shapeCasts_S128_S1x128 := by
  show StableHlo.after hostOps3 (W5 m ρ c) (Proc.devRef .tc main_v63) = _
  simp only [hostOps3]
  after_results
  rw [w5_arg5]
  rfl

/-- The second finalize call leaves the second layer's activations. -/
theorem w7_v64 (c : Dev nD) : W7 m ρ c (Proc.devRef .tc main_v64)
    = Cert.ReferenceIdeal.Read.val_main_v105 (F := Ideal) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg28)) :=
  (W7_arr m ρ c 4).trans (arr3 (V6 m ρ) c _ _ _ _ _ _ (w6_v62 m ρ c) ((w6_v49_from5 m ρ c).trans (w5_v49 m ρ c))
    ((w6_v32_from4 m ρ c).trans ((w4_v32_from3 m ρ c).trans ((w3_v32_from1 m ρ c).trans ((w1_v32 m ρ c).trans
      (congrArg _ (dis_again _).symm))))) (w6_v63 m ρ c))

end Cert.KernelIdeal.KV

end
-- ==== Proof.PreBatch.lean ====
/-
  What the certificate's precondition says about the integer input 'batch' (200000 segment ids), and what that does
  to the kernel's index normalisation.

  The precondition's last conjunct is "every segment id is >= 0, read as a signed 32-bit word". The kernel
  normalises an id by the rule "a negative id wraps around: id + 512 when id < 0, otherwise id". Where no id
  is negative the comparison is false at every position, so the selection keeps the id: the normalisation is the
  identity on the launched 'batch' array.
-/
import proofs.«147598_j30477087932519_1_alg».proof.Defs
import proofs.«147598_j30477087932519_1_alg».proof.Proof.Gen.KernelIdeal
import proofs.«147598_j30477087932519_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.KernelIdeal.KV

open Idealize.ShloMosaic Idealize.SL.Sem
open Cert.KernelIdeal

/-- A signed 32-bit word that is not negative is not below zero: the comparison "w < 0" is false. -/
theorem slt_zero_of_nonneg (w : BitVec 32) (hw : 0 ≤ w.toInt) : IntOp.cmpi .slt w 0#32 = 0#1 := by
  have h0 : (0#32 : BitVec 32).toInt = 0 := by decide
  have : w.slt 0#32 = false := by
    simp only [BitVec.slt, h0, decide_eq_false_iff_not, not_lt]; exact hw
  simp only [IntOp.cmpi, this]; rfl

/-- Where no entry is negative, the wrap-around of negative ids (id + 512 when id < 0) does nothing. -/
theorem norm_idx_eq (b : IVec S200000 32) (hb : ∀ i, 0 ≤ (b i).toInt) :
    select (cmpi .slt b (broadcastInDim S200000 ![] Facts₀.bcast_S_S200000 (constantI S_ 32 0#32)))
      (addi b (broadcastInDim S200000 ![] Facts₀.bcast_S_S200000 (constantI S_ 32 512#32))) b = b := by
  funext i
  have hc : cmpi .slt b (broadcastInDim S200000 ![] Facts₀.bcast_S_S200000 (constantI S_ 32 0#32)) i = 0#1 :=
    slt_zero_of_nonneg (b i) (hb i)
  show Scalar.select (cmpi .slt b (broadcastInDim S200000 ![] Facts₀.bcast_S_S200000 (constantI S_ 32 0#32)) i) _ (b i) = b i
  rw [hc]
  rfl

/-- The last stretch of the printed precondition, read back: if it is 1, every entry of the integer input is
    nonnegative as a signed word. Its last operation is a conjunction whose right operand is "all of (entry ≥ 0)". -/
theorem last_part_nonneg {F : FTy → Type} [FloatOps F] (a : IVec Cert.Pre_finite_inputs.S200000 32)
    (X : IVec Cert.Pre_finite_inputs.S_ 1) (Y : IVec Cert.Pre_finite_inputs.S1 1) (j : Cert.Pre_finite_inputs.S_.Idx)
    (e : Cert.Pre_finite_inputs.fn_part8 (F := F) a X Y j = 1#1) (i : Cert.Pre_finite_inputs.S200000.Idx) :
    0 ≤ (a i).toInt := by
  -- the scalar shape has one index
  haveI : Subsingleton Cert.Pre_finite_inputs.S_.Idx := ⟨fun a b => funext fun d => d.elim0⟩
  unfold Cert.Pre_finite_inputs.fn_part8 at e
  dsimp only at e
  have e2 := (IntOp.andi_eq_one.1 e).2
  have e3 := Host.reduce_andi_all _ _ _ _ j e2 i
  have e4 : IntOp.cmpi .sge (a i) 0#32 = 1#1 := e3
  have h0 : (0#32 : BitVec 32).toInt = 0 := by decide
  have := IntOp.cmpi_sge.1 e4
  rwa [h0] at this

variable (m : (ℓ : Loc nD τ sig) → Buf (Elt Ideal) ℓ)

/-- THE PRECONDITION DECODED: every segment id of the launched 'batch' array is nonnegative, signed. -/
theorem batch_nonneg (h : Cert.Pre_KernelIdeal m) (c : Dev nD) (i : S200000.Idx) :
    0 ≤ (m ((c.tc : Thread nD τ).loc main_arg29) i).toInt :=
  last_part_nonneg (F := Ideal) _ _ _ ValueIdx.ix0 (congrFun (h c) ValueIdx.ix0) i

/-- On the launched 'batch' array the kernel's index normalisation is the identity. -/
theorem norm_batch_eq (h : Cert.Pre_KernelIdeal m) (c : Dev nD) :
    select (cmpi .slt (m ((c.tc : Thread nD τ).loc main_arg29)) (broadcastInDim S200000 ![] Facts₀.bcast_S_S200000 (constantI S_ 32 0#32)))
      (addi (m ((c.tc : Thread nD τ).loc main_arg29)) (broadcastInDim S200000 ![] Facts₀.bcast_S_S200000 (constantI S_ 32 512#32)))
      (m ((c.tc : Thread nD τ).loc main_arg29)) = m ((c.tc : Thread nD τ).loc main_arg29) :=
  norm_idx_eq _ (batch_nonneg m h c)

end Cert.KernelIdeal.KV

end
-- ==== Proof.Rows.lean ====
/- The batch-norm and bias parameters reach the feature network's and the fusion head's calls as rows: each is the
   reshape of a 1-D argument array, and the argument array is as launched. One theorem per row. -/
import proofs.«147598_j30477087932519_1_alg».proof.Proof.Walk

set_option maxRecDepth 16384
-- reading a long host stretch back rewrites once per operation
set_option maxHeartbeats 8000000

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem w8_v78 (c : Dev nD) : W8 m ρ c (Proc.devRef .tc main_v78)
    = shapeCast S1x256 (m ((c : Thread nD τ).loc main_arg7)) shapeCasts_S256_S1x256 := by
  show StableHlo.after hostOps4 (W7 m ρ c) (Proc.devRef .tc main_v78) = _
  simp only [hostOps4]
  after_results
  rw [w7_arg7]
  rfl

theorem w8_v79 (c : Dev nD) : W8 m ρ c (Proc.devRef .tc main_v79)
    = shapeCast S1x256 (m ((c : Thread nD τ).loc main_arg8)) shapeCasts_S256_S1x256 := by
  show StableHlo.after hostOps4 (W7 m ρ c) (Proc.devRef .tc main_v79) = _
  simp only [hostOps4]
  after_results
  rw [w7_arg8]
  rfl

theorem w8_v80 (c : Dev nD) : W8 m ρ c (Proc.devRef .tc main_v80)
    = shapeCast S1x256 (m ((c : Thread nD τ).loc main_arg9)) shapeCasts_S256_S1x256 := by
  show StableHlo.after hostOps4 (W7 m ρ c) (Proc.devRef .tc main_v80) = _
  simp only [hostOps4]
  after_results
  rw [w7_arg9]
  rfl

theorem w8_v81 (c : Dev nD) : W8 m ρ c (Proc.devRef .tc main_v81)
    = shapeCast S1x256 (m ((c : Thread nD τ).loc main_arg10)) shapeCasts_S256_S1x256 := by
  show StableHlo.after hostOps4 (W7 m ρ c) (Proc.devRef .tc main_v81) = _
  simp only [hostOps4]
  after_results
  rw [w7_arg10]
  rfl

theorem w8_v82 (c : Dev nD) : W8 m ρ c (Proc.devRef .tc main_v82)
    = shapeCast S1x256 (m ((c : Thread nD τ).loc main_arg11)) shapeCasts_S256_S1x256 := by
  show StableHlo.after hostOps4 (W7 m ρ c) (Proc.devRef .tc main_v82) = _
  simp only [hostOps4]
  after_results
  rw [w7_arg11]
  rfl

theorem w8_v83 (c : Dev nD) : W8 m ρ c (Proc.devRef .tc main_v83)
    = shapeCast S1x128 (m ((c : Thread nD τ).loc main_arg13)) shapeCasts_S128_S1x128 := by
  show StableHlo.after hostOps4 (W7 m ρ c) (Proc.devRef .tc main_v83) = _
  simp only [hostOps4]
  after_results
  rw [w7_arg13]
  rfl

theorem w10_v85 (c : Dev nD) : W10 m ρ c (Proc.devRef .tc main_v85)
    = shapeCast S1x192 (m ((c : Thread nD τ).loc main_arg15)) shapeCasts_S192_S1x192 := by
  show StableHlo.after hostOps5 (W9 m ρ c) (Proc.devRef .tc main_v85) = _
  simp only [hostOps5]
  after_results
  rw [w9_arg15]
  rfl

theorem w10_v86 (c : Dev nD) : W10 m ρ c (Proc.devRef .tc main_v86)
    = shapeCast S1x192 (m ((c : Thread nD τ).loc main_arg16)) shapeCasts_S192_S1x192 := by
  show StableHlo.after hostOps5 (W9 m ρ c) (Proc.devRef .tc main_v86) = _
  simp only [hostOps5]
  after_results
  rw [w9_arg16]
  rfl

theorem w10_v87 (c : Dev nD) : W10 m ρ c (Proc.devRef .tc main_v87)
    = shapeCast S1x192 (m ((c : Thread nD τ).loc main_arg17)) shapeCasts_S192_S1x192 := by
  show StableHlo.after hostOps5 (W9 m ρ c) (Proc.devRef .tc main_v87) = _
  simp only [hostOps5]
  after_results
  rw [w9_arg17]
  rfl

theorem w10_v88 (c : Dev nD) : W10 m ρ c (Proc.devRef .tc main_v88)
    = shapeCast S1x192 (m ((c : Thread nD τ).loc main_arg18)) shapeCasts_S192_S1x192 := by
  show StableHlo.after hostOps5 (W9 m ρ c) (Proc.devRef .tc main_v88) = _
  simp only [hostOps5]
  after_results
  rw [w9_arg18]
  rfl

theorem w10_v89 (c : Dev nD) : W10 m ρ c (Proc.devRef .tc main_v89)
    = shapeCast S1x192 (m ((c : Thread nD τ).loc main_arg19)) shapeCasts_S192_S1x192 := by
  show StableHlo.after hostOps5 (W9 m ρ c) (Proc.devRef .tc main_v89) = _
  simp only [hostOps5]
  after_results
  rw [w9_arg19]
  rfl

theorem w10_v90 (c : Dev nD) : W10 m ρ c (Proc.devRef .tc main_v90)
    = shapeCast S1x128 (m ((c : Thread nD τ).loc main_arg21)) shapeCasts_S128_S1x128 := by
  show StableHlo.after hostOps5 (W9 m ρ c) (Proc.devRef .tc main_v90) = _
  simp only [hostOps5]
  after_results
  rw [w9_arg21]
  rfl

theorem w10_v91 (c : Dev nD) : W10 m ρ c (Proc.devRef .tc main_v91)
    = shapeCast S1x128 (m ((c : Thread nD τ).loc main_arg22)) shapeCasts_S128_S1x128 := by
  show StableHlo.after hostOps5 (W9 m ρ c) (Proc.devRef .tc main_v91) = _
  simp only [hostOps5]
  after_results
  rw [w9_arg22]
  rfl

theorem w10_v92 (c : Dev nD) : W10 m ρ c (Proc.devRef .tc main_v92)
    = shapeCast S1x128 (m ((c : Thread nD τ).loc main_arg23)) shapeCasts_S128_S1x128 := by
  show StableHlo.after hostOps5 (W9 m ρ c) (Proc.devRef .tc main_v92) = _
  simp only [hostOps5]
  after_results
  rw [w9_arg23]
  rfl

theorem w10_v93 (c : Dev nD) : W10 m ρ c (Proc.devRef .tc main_v93)
    = shapeCast S1x128 (m ((c : Thread nD τ).loc main_arg24)) shapeCasts_S128_S1x128 := by
  show StableHlo.after hostOps5 (W9 m ρ c) (Proc.devRef .tc main_v93) = _
  simp only [hostOps5]
  after_results
  rw [w9_arg24]
  rfl

theorem w10_v94 (c : Dev nD) : W10 m ρ c (Proc.devRef .tc main_v94)
    = shapeCast S1x128 (m ((c : Thread nD τ).loc main_arg25)) shapeCasts_S128_S1x128 := by
  show StableHlo.after hostOps5 (W9 m ρ c) (Proc.devRef .tc main_v94) = _
  simp only [hostOps5]
  after_results
  rw [w9_arg25]
  rfl

theorem w10_v95 (c : Dev nD) : W10 m ρ c (Proc.devRef .tc main_v95)
    = shapeCast S1x1 (m ((c : Thread nD τ).loc main_arg27)) shapeCasts_S1_S1x1 := by
  show StableHlo.after hostOps5 (W9 m ρ c) (Proc.devRef .tc main_v95) = _
  simp only [hostOps5]
  after_results
  rw [w9_arg27]
  rfl

end Cert.KernelIdeal.KV

end
-- ==== Proof.Reg4K.lean ====
import proofs.«147598_j30477087932519_1_alg».proof.Proof.Gen.KernelIdeal.Frame
import Idealize.ShloMosaic.PureOps.Ideal
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! # Region 4, the kernel side: one grid point, every block its whole array

The region's grid has a single point and every window's block is the whole of its array (each index map is constantly
zero and each block has the array's extents). So the point reads every input array entire, its one store fills the whole
output buffer, and what it writes back is the final output array: the payload of the whole input arrays. -/

/-- The zero offsets of a rank-2 rectangle. -/
theorem reg4_zero : (![0, 0] : Fin 2 → Nat) = fun _ => 0 := funext fun a => by fin_cases a <;> rfl

/-! ## Every block index is zero -/

theorem reg4_idx0 : ∀ t : Fin cfg4.N, win4_0.index t (0 : Fin 2) = 0 ∧ win4_0.index t (1 : Fin 2) = 0 :=
  (by decide +kernel : ∀ t : Fin grid4.N, _)

theorem reg4_idx1 : ∀ t : Fin cfg4.N, win4_1.index t (0 : Fin 2) = 0 ∧ win4_1.index t (1 : Fin 2) = 0 :=
  (by decide +kernel : ∀ t : Fin grid4.N, _)

theorem reg4_idx2 : ∀ t : Fin cfg4.N, win4_2.index t (0 : Fin 2) = 0 ∧ win4_2.index t (1 : Fin 2) = 0 :=
  (by decide +kernel : ∀ t : Fin grid4.N, _)

theorem reg4_idx3 : ∀ t : Fin cfg4.N, win4_3.index t (0 : Fin 2) = 0 ∧ win4_3.index t (1 : Fin 2) = 0 :=
  (by decide +kernel : ∀ t : Fin grid4.N, _)

theorem reg4_idx4 : ∀ t : Fin cfg4.N, win4_4.index t (0 : Fin 2) = 0 ∧ win4_4.index t (1 : Fin 2) = 0 :=
  (by decide +kernel : ∀ t : Fin grid4.N, _)

theorem reg4_idx5 : ∀ t : Fin cfg4.N, win4_5.index t (0 : Fin 2) = 0 ∧ win4_5.index t (1 : Fin 2) = 0 :=
  (by decide +kernel : ∀ t : Fin grid4.N, _)

theorem reg4_idx6 : ∀ t : Fin cfg4.N, win4_6.index t (0 : Fin 2) = 0 ∧ win4_6.index t (1 : Fin 2) = 0 :=
  (by decide +kernel : ∀ t : Fin grid4.N, _)

theorem reg4_idx7 : ∀ t : Fin cfg4.N, win4_7.index t (0 : Fin 2) = 0 ∧ win4_7.index t (1 : Fin 2) = 0 :=
  (by decide +kernel : ∀ t : Fin grid4.N, _)

theorem reg4_idx8 : ∀ t : Fin cfg4.N, win4_8.index t (0 : Fin 2) = 0 ∧ win4_8.index t (1 : Fin 2) = 0 :=
  (by decide +kernel : ∀ t : Fin grid4.N, _)

theorem reg4_idx9 : ∀ t : Fin cfg4.N, win4_9.index t (0 : Fin 2) = 0 ∧ win4_9.index t (1 : Fin 2) = 0 :=
  (by decide +kernel : ∀ t : Fin grid4.N, _)

/-! ## Each input block is its whole array

A block's element at `y` sits in the array, on each axis, at block index × block extent + `y`; the index is zero. -/

theorem reg4_blk0 (c : Dev nD) (t : Fin cfg4.N) :
    iblk4 V c 0 t = (V c (Pipeline.arrRef spec4 0) : Vec Ideal S512x8 .f32) := by
  funext y
  show V c (Pipeline.arrRef spec4 0) (((cfg4.win 0).blk t).view.emb y) = V c (Pipeline.arrRef spec4 0) y
  obtain ⟨e0, e1⟩ := reg4_idx0 t
  refine congrArg _ ?_
  funext a; apply Fin.ext
  match a with
  | ⟨0, _⟩ => show win4_0.index t (0 : Fin 2) * 512 + 1 * (y 0).val = (y 0).val; omega
  | ⟨1, _⟩ => show win4_0.index t (1 : Fin 2) * 8 + 1 * (y 1).val = (y 1).val; omega

theorem reg4_blk1 (c : Dev nD) (t : Fin cfg4.N) :
    iblk4 V c 1 t = (V c (Pipeline.arrRef spec4 1) : Vec Ideal S8x256 .f32) := by
  funext y
  show V c (Pipeline.arrRef spec4 1) (((cfg4.win 1).blk t).view.emb y) = V c (Pipeline.arrRef spec4 1) y
  obtain ⟨e0, e1⟩ := reg4_idx1 t
  refine congrArg _ ?_
  funext a; apply Fin.ext
  match a with
  | ⟨0, _⟩ => show win4_1.index t (0 : Fin 2) * 8 + 1 * (y 0).val = (y 0).val; omega
  | ⟨1, _⟩ => show win4_1.index t (1 : Fin 2) * 256 + 1 * (y 1).val = (y 1).val; omega

theorem reg4_blk2 (c : Dev nD) (t : Fin cfg4.N) :
    iblk4 V c 2 t = (V c (Pipeline.arrRef spec4 2) : Vec Ideal S1x256 .f32) := by
  funext y
  show V c (Pipeline.arrRef spec4 2) (((cfg4.win 2).blk t).view.emb y) = V c (Pipeline.arrRef spec4 2) y
  obtain ⟨e0, e1⟩ := reg4_idx2 t
  refine congrArg _ ?_
  funext a; apply Fin.ext
  match a with
  | ⟨0, _⟩ => show win4_2.index t (0 : Fin 2) * 1 + 1 * (y 0).val = (y 0).val; omega
  | ⟨1, _⟩ => show win4_2.index t (1 : Fin 2) * 256 + 1 * (y 1).val = (y 1).val; omega

theorem reg4_blk3 (c : Dev nD) (t : Fin cfg4.N) :
    iblk4 V c 3 t = (V c (Pipeline.arrRef spec4 3) : Vec Ideal S1x256 .f32) := by
  funext y
  show V c (Pipeline.arrRef spec4 3) (((cfg4.win 3).blk t).view.emb y) = V c (Pipeline.arrRef spec4 3) y
  obtain ⟨e0, e1⟩ := reg4_idx3 t
  refine congrArg _ ?_
  funext a; apply Fin.ext
  match a with
  | ⟨0, _⟩ => show win4_3.index t (0 : Fin 2) * 1 + 1 * (y 0).val = (y 0).val; omega
  | ⟨1, _⟩ => show win4_3.index t (1 : Fin 2) * 256 + 1 * (y 1).val = (y 1).val; omega

theorem reg4_blk4 (c : Dev nD) (t : Fin cfg4.N) :
    iblk4 V c 4 t = (V c (Pipeline.arrRef spec4 4) : Vec Ideal S1x256 .f32) := by
  funext y
  show V c (Pipeline.arrRef spec4 4) (((cfg4.win 4).blk t).view.emb y) = V c (Pipeline.arrRef spec4 4) y
  obtain ⟨e0, e1⟩ := reg4_idx4 t
  refine congrArg _ ?_
  funext a; apply Fin.ext
  match a with
  | ⟨0, _⟩ => show win4_4.index t (0 : Fin 2) * 1 + 1 * (y 0).val = (y 0).val; omega
  | ⟨1, _⟩ => show win4_4.index t (1 : Fin 2) * 256 + 1 * (y 1).val = (y 1).val; omega

theorem reg4_blk5 (c : Dev nD) (t : Fin cfg4.N) :
    iblk4 V c 5 t = (V c (Pipeline.arrRef spec4 5) : Vec Ideal S1x256 .f32) := by
  funext y
  show V c (Pipeline.arrRef spec4 5) (((cfg4.win 5).blk t).view.emb y) = V c (Pipeline.arrRef spec4 5) y
  obtain ⟨e0, e1⟩ := reg4_idx5 t
  refine congrArg _ ?_
  funext a; apply Fin.ext
  match a with
  | ⟨0, _⟩ => show win4_5.index t (0 : Fin 2) * 1 + 1 * (y 0).val = (y 0).val; omega
  | ⟨1, _⟩ => show win4_5.index t (1 : Fin 2) * 256 + 1 * (y 1).val = (y 1).val; omega

theorem reg4_blk6 (c : Dev nD) (t : Fin cfg4.N) :
    iblk4 V c 6 t = (V c (Pipeline.arrRef spec4 6) : Vec Ideal S1x256 .f32) := by
  funext y
  show V c (Pipeline.arrRef spec4 6) (((cfg4.win 6).blk t).view.emb y) = V c (Pipeline.arrRef spec4 6) y
  obtain ⟨e0, e1⟩ := reg4_idx6 t
  refine congrArg _ ?_
  funext a; apply Fin.ext
  match a with
  | ⟨0, _⟩ => show win4_6.index t (0 : Fin 2) * 1 + 1 * (y 0).val = (y 0).val; omega
  | ⟨1, _⟩ => show win4_6.index t (1 : Fin 2) * 256 + 1 * (y 1).val = (y 1).val; omega

theorem reg4_blk7 (c : Dev nD) (t : Fin cfg4.N) :
    iblk4 V c 7 t = (V c (Pipeline.arrRef spec4 7) : Vec Ideal S256x128 .f32) := by
  funext y
  show V c (Pipeline.arrRef spec4 7) (((cfg4.win 7).blk t).view.emb y) = V c (Pipeline.arrRef spec4 7) y
  obtain ⟨e0, e1⟩ := reg4_idx7 t
  refine congrArg _ ?_
  funext a; apply Fin.ext
  match a with
  | ⟨0, _⟩ => show win4_7.index t (0 : Fin 2) * 256 + 1 * (y 0).val = (y 0).val; omega
  | ⟨1, _⟩ => show win4_7.index t (1 : Fin 2) * 128 + 1 * (y 1).val = (y 1).val; omega

theorem reg4_blk8 (c : Dev nD) (t : Fin cfg4.N) :
    iblk4 V c 8 t = (V c (Pipeline.arrRef spec4 8) : Vec Ideal S1x128 .f32) := by
  funext y
  show V c (Pipeline.arrRef spec4 8) (((cfg4.win 8).blk t).view.emb y) = V c (Pipeline.arrRef spec4 8) y
  obtain ⟨e0, e1⟩ := reg4_idx8 t
  refine congrArg _ ?_
  funext a; apply Fin.ext
  match a with
  | ⟨0, _⟩ => show win4_8.index t (0 : Fin 2) * 1 + 1 * (y 0).val = (y 0).val; omega
  | ⟨1, _⟩ => show win4_8.index t (1 : Fin 2) * 128 + 1 * (y 1).val = (y 1).val; omega

/-! ## The output buffer after the body

Its one store goes through the whole-buffer rectangle and every load reads a whole block: the buffer ends holding the
payload of the blocks themselves. -/

theorem reg4_out {F : FTy → Type} [FloatOps F] (x0 : Vec F S512x8 .f32) (x1 : Vec F S8x256 .f32) (x2 : Vec F S1x256 .f32) (x3 : Vec F S1x256 .f32) (x4 : Vec F S1x256 .f32) (x5 : Vec F S1x256 .f32) (x6 : Vec F S1x256 .f32) (x7 : Vec F S256x128 .f32) (x8 : Vec F S1x128 .f32) :
    out4_9 x0 x1 x2 x3 x4 x5 x6 x7 x8 = k4_pay1 (k4_pay2 x0 x1 x2 x5 x6 x3 x4 x7) (k4_pay3 x8) := by
  unfold out4_9
  rw [View.canon_unit_zero reg4_zero]
  simp only [View.ld_unit_zero (S := S512x8) reg4_zero, View.ld_unit_zero (S := S8x256) reg4_zero, View.ld_unit_zero (S := S1x256) reg4_zero, View.ld_unit_zero (S := S256x128) reg4_zero, View.ld_unit_zero (S := S1x128) reg4_zero, View.ld_unit_zero (S := S512x128) reg4_zero]

/-! ## What the point writes back, and the final array -/

/-- The output's block at the point is the whole output array: cutting contents to the block and reading them through
    the block's view are both the identity. -/
theorem reg4_whole (t : Fin cfg4.N) (G : Vec Ideal S512x128 .f32) :
    (cfg4.win 9).cut (grid4.coords t) G = ((cfg4.win 9).blk t).view.read (Elt Ideal) G := by
  funext y
  show G y = G (((cfg4.win 9).blk t).view.emb y)
  obtain ⟨e0, e1⟩ := reg4_idx9 t
  refine congrArg G ?_
  funext a; apply Fin.ext
  match a with
  | ⟨0, _⟩ => show (y 0).val = win4_9.index t (0 : Fin 2) * 512 + 1 * (y 0).val; omega
  | ⟨1, _⟩ => show (y 1).val = win4_9.index t (1 : Fin 2) * 128 + 1 * (y 1).val; omega

/-- What the point writes back is the block of the payload of the whole input arrays. -/
theorem reg4_flushed (c : Dev nD) (t : Fin cfg4.N) :
    (dat4 (F := Ideal) V c).flushed 9 t = ((cfg4.win 9).blk t).view.read (Elt Ideal)
      (k4_pay1 (k4_pay2 (V c (Pipeline.arrRef spec4 0)) (V c (Pipeline.arrRef spec4 1)) (V c (Pipeline.arrRef spec4 2)) (V c (Pipeline.arrRef spec4 5)) (V c (Pipeline.arrRef spec4 6)) (V c (Pipeline.arrRef spec4 3)) (V c (Pipeline.arrRef spec4 4)) (V c (Pipeline.arrRef spec4 7))) (k4_pay3 (V c (Pipeline.arrRef spec4 8)))) := by
  show (cfg4.win 9).cut (grid4.coords t) ((dat4 V c).after 9 t) = _
  rw [after4_9, reg4_out, reg4_blk0 V c t, reg4_blk1 V c t, reg4_blk2 V c t, reg4_blk3 V c t, reg4_blk4 V c t, reg4_blk5 V c t, reg4_blk6 V c t, reg4_blk7 V c t, reg4_blk8 V c t]
  exact reg4_whole t _

/-- An index of the output array is in the point's block iff each coordinate is in the block's range on its axis. -/
theorem reg4_mem (t : Fin cfg4.N) (i : S512x128.Idx) :
    i ∈ ((cfg4.win 9).blk t).view.set ↔ ∀ a : Fin 2, win4_9.index t a * S512x128.size a ≤ (i a).val ∧ (i a).val < win4_9.index t a * S512x128.size a + S512x128.size a := by
  show i ∈ ((View.whole main_v84).slice (win4_9.rect t)).set ↔ _
  rw [View.set_slice_whole, Rect.mem_set_unit]
  exact Iff.rfl

/-- The single block is the whole array: every index is covered by the grid's one point. -/
theorem reg4_cover (i : S512x128.Idx) :
    ∃ t : Fin cfg4.N, (cfg4.win 9).flush t = true ∧ i ∈ ((cfg4.win 9).blk t).view.set := by
  refine ⟨⟨0, by decide⟩, flush4_9 _, ?_⟩
  rw [reg4_mem]
  obtain ⟨e0, e1⟩ := reg4_idx9 ⟨0, by decide⟩
  intro a
  match a with
  | ⟨0, _⟩ => show win4_9.index ⟨0, _⟩ (0 : Fin 2) * 512 ≤ (i 0).val ∧ (i 0).val < win4_9.index ⟨0, _⟩ (0 : Fin 2) * 512 + 512; have h : (i 0).val < 512 := (i 0).isLt; omega
  | ⟨1, _⟩ => show win4_9.index ⟨0, _⟩ (1 : Fin 2) * 128 ≤ (i 1).val ∧ (i 1).val < win4_9.index ⟨0, _⟩ (1 : Fin 2) * 128 + 128; have h : (i 1).val < 128 := (i 1).isLt; omega

/-- THE OUTPUT ARRAY after the region: the payload of the whole input arrays as the region finds them. -/
theorem arr4_pay (c : Dev nD) : (dat4 (F := Ideal) V c).arrAt 9 cfg4.N
    = k4_pay1 (k4_pay2 (V c (Pipeline.arrRef spec4 0)) (V c (Pipeline.arrRef spec4 1)) (V c (Pipeline.arrRef spec4 2)) (V c (Pipeline.arrRef spec4 5)) (V c (Pipeline.arrRef spec4 6)) (V c (Pipeline.arrRef spec4 3)) (V c (Pipeline.arrRef spec4 4)) (V c (Pipeline.arrRef spec4 7))) (k4_pay3 (V c (Pipeline.arrRef spec4 8))) :=
  (dat4 (F := Ideal) V c).arrAt_eq_of_cover 9 _ (fun t _ => reg4_flushed V c t) reg4_cover

end Cert.KernelIdeal.KV

end
-- ==== Proof.Reg5K.lean ====
import proofs.«147598_j30477087932519_1_alg».proof.Proof.Gen.KernelIdeal.Frame
import Idealize.ShloMosaic.PureOps.Ideal
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! # Region 5, the kernel side: one grid point, every block its whole array

The region's grid has a single point and every window's block is the whole of its array (each index map is constantly
zero and each block has the array's extents). So the point reads every input array entire, its one store fills the whole
output buffer, and what it writes back is the final output array: the payload of the whole input arrays. -/

/-- The zero offsets of a rank-2 rectangle. -/
theorem reg5_zero : (![0, 0] : Fin 2 → Nat) = fun _ => 0 := funext fun a => by fin_cases a <;> rfl

/-! ## Every block index is zero -/

theorem reg5_idx0 : ∀ t : Fin cfg5.N, win5_0.index t (0 : Fin 2) = 0 ∧ win5_0.index t (1 : Fin 2) = 0 :=
  (by decide +kernel : ∀ t : Fin grid5.N, _)

theorem reg5_idx1 : ∀ t : Fin cfg5.N, win5_1.index t (0 : Fin 2) = 0 ∧ win5_1.index t (1 : Fin 2) = 0 :=
  (by decide +kernel : ∀ t : Fin grid5.N, _)

theorem reg5_idx2 : ∀ t : Fin cfg5.N, win5_2.index t (0 : Fin 2) = 0 ∧ win5_2.index t (1 : Fin 2) = 0 :=
  (by decide +kernel : ∀ t : Fin grid5.N, _)

theorem reg5_idx3 : ∀ t : Fin cfg5.N, win5_3.index t (0 : Fin 2) = 0 ∧ win5_3.index t (1 : Fin 2) = 0 :=
  (by decide +kernel : ∀ t : Fin grid5.N, _)

theorem reg5_idx4 : ∀ t : Fin cfg5.N, win5_4.index t (0 : Fin 2) = 0 ∧ win5_4.index t (1 : Fin 2) = 0 :=
  (by decide +kernel : ∀ t : Fin grid5.N, _)

theorem reg5_idx5 : ∀ t : Fin cfg5.N, win5_5.index t (0 : Fin 2) = 0 ∧ win5_5.index t (1 : Fin 2) = 0 :=
  (by decide +kernel : ∀ t : Fin grid5.N, _)

theorem reg5_idx6 : ∀ t : Fin cfg5.N, win5_6.index t (0 : Fin 2) = 0 ∧ win5_6.index t (1 : Fin 2) = 0 :=
  (by decide +kernel : ∀ t : Fin grid5.N, _)

theorem reg5_idx7 : ∀ t : Fin cfg5.N, win5_7.index t (0 : Fin 2) = 0 ∧ win5_7.index t (1 : Fin 2) = 0 :=
  (by decide +kernel : ∀ t : Fin grid5.N, _)

theorem reg5_idx8 : ∀ t : Fin cfg5.N, win5_8.index t (0 : Fin 2) = 0 ∧ win5_8.index t (1 : Fin 2) = 0 :=
  (by decide +kernel : ∀ t : Fin grid5.N, _)

theorem reg5_idx9 : ∀ t : Fin cfg5.N, win5_9.index t (0 : Fin 2) = 0 ∧ win5_9.index t (1 : Fin 2) = 0 :=
  (by decide +kernel : ∀ t : Fin grid5.N, _)

theorem reg5_idx10 : ∀ t : Fin cfg5.N, win5_10.index t (0 : Fin 2) = 0 ∧ win5_10.index t (1 : Fin 2) = 0 :=
  (by decide +kernel : ∀ t : Fin grid5.N, _)

theorem reg5_idx11 : ∀ t : Fin cfg5.N, win5_11.index t (0 : Fin 2) = 0 ∧ win5_11.index t (1 : Fin 2) = 0 :=
  (by decide +kernel : ∀ t : Fin grid5.N, _)

theorem reg5_idx12 : ∀ t : Fin cfg5.N, win5_12.index t (0 : Fin 2) = 0 ∧ win5_12.index t (1 : Fin 2) = 0 :=
  (by decide +kernel : ∀ t : Fin grid5.N, _)

theorem reg5_idx13 : ∀ t : Fin cfg5.N, win5_13.index t (0 : Fin 2) = 0 ∧ win5_13.index t (1 : Fin 2) = 0 :=
  (by decide +kernel : ∀ t : Fin grid5.N, _)

theorem reg5_idx14 : ∀ t : Fin cfg5.N, win5_14.index t (0 : Fin 2) = 0 ∧ win5_14.index t (1 : Fin 2) = 0 :=
  (by decide +kernel : ∀ t : Fin grid5.N, _)

theorem reg5_idx15 : ∀ t : Fin cfg5.N, win5_15.index t (0 : Fin 2) = 0 ∧ win5_15.index t (1 : Fin 2) = 0 :=
  (by decide +kernel : ∀ t : Fin grid5.N, _)

theorem reg5_idx16 : ∀ t : Fin cfg5.N, win5_16.index t (0 : Fin 2) = 0 ∧ win5_16.index t (1 : Fin 2) = 0 :=
  (by decide +kernel : ∀ t : Fin grid5.N, _)

theorem reg5_idx17 : ∀ t : Fin cfg5.N, win5_17.index t (0 : Fin 2) = 0 ∧ win5_17.index t (1 : Fin 2) = 0 :=
  (by decide +kernel : ∀ t : Fin grid5.N, _)

/-! ## Each input block is its whole array

A block's element at `y` sits in the array, on each axis, at block index × block extent + `y`; the index is zero. -/

theorem reg5_blk0 (c : Dev nD) (t : Fin cfg5.N) :
    iblk5 V c 0 t = (V c (Pipeline.arrRef spec5 0) : Vec Ideal S512x128 .f32) := by
  funext y
  show V c (Pipeline.arrRef spec5 0) (((cfg5.win 0).blk t).view.emb y) = V c (Pipeline.arrRef spec5 0) y
  obtain ⟨e0, e1⟩ := reg5_idx0 t
  refine congrArg _ ?_
  funext a; apply Fin.ext
  match a with
  | ⟨0, _⟩ => show win5_0.index t (0 : Fin 2) * 512 + 1 * (y 0).val = (y 0).val; omega
  | ⟨1, _⟩ => show win5_0.index t (1 : Fin 2) * 128 + 1 * (y 1).val = (y 1).val; omega

theorem reg5_blk1 (c : Dev nD) (t : Fin cfg5.N) :
    iblk5 V c 1 t = (V c (Pipeline.arrRef spec5 1) : Vec Ideal S512x1 .f32) := by
  funext y
  show V c (Pipeline.arrRef spec5 1) (((cfg5.win 1).blk t).view.emb y) = V c (Pipeline.arrRef spec5 1) y
  obtain ⟨e0, e1⟩ := reg5_idx1 t
  refine congrArg _ ?_
  funext a; apply Fin.ext
  match a with
  | ⟨0, _⟩ => show win5_1.index t (0 : Fin 2) * 512 + 1 * (y 0).val = (y 0).val; omega
  | ⟨1, _⟩ => show win5_1.index t (1 : Fin 2) * 1 + 1 * (y 1).val = (y 1).val; omega

theorem reg5_blk2 (c : Dev nD) (t : Fin cfg5.N) :
    iblk5 V c 2 t = (V c (Pipeline.arrRef spec5 2) : Vec Ideal S512x128 .f32) := by
  funext y
  show V c (Pipeline.arrRef spec5 2) (((cfg5.win 2).blk t).view.emb y) = V c (Pipeline.arrRef spec5 2) y
  obtain ⟨e0, e1⟩ := reg5_idx2 t
  refine congrArg _ ?_
  funext a; apply Fin.ext
  match a with
  | ⟨0, _⟩ => show win5_2.index t (0 : Fin 2) * 512 + 1 * (y 0).val = (y 0).val; omega
  | ⟨1, _⟩ => show win5_2.index t (1 : Fin 2) * 128 + 1 * (y 1).val = (y 1).val; omega

theorem reg5_blk3 (c : Dev nD) (t : Fin cfg5.N) :
    iblk5 V c 3 t = (V c (Pipeline.arrRef spec5 3) : Vec Ideal S256x192 .f32) := by
  funext y
  show V c (Pipeline.arrRef spec5 3) (((cfg5.win 3).blk t).view.emb y) = V c (Pipeline.arrRef spec5 3) y
  obtain ⟨e0, e1⟩ := reg5_idx3 t
  refine congrArg _ ?_
  funext a; apply Fin.ext
  match a with
  | ⟨0, _⟩ => show win5_3.index t (0 : Fin 2) * 256 + 1 * (y 0).val = (y 0).val; omega
  | ⟨1, _⟩ => show win5_3.index t (1 : Fin 2) * 192 + 1 * (y 1).val = (y 1).val; omega

theorem reg5_blk4 (c : Dev nD) (t : Fin cfg5.N) :
    iblk5 V c 4 t = (V c (Pipeline.arrRef spec5 4) : Vec Ideal S1x192 .f32) := by
  funext y
  show V c (Pipeline.arrRef spec5 4) (((cfg5.win 4).blk t).view.emb y) = V c (Pipeline.arrRef spec5 4) y
  obtain ⟨e0, e1⟩ := reg5_idx4 t
  refine congrArg _ ?_
  funext a; apply Fin.ext
  match a with
  | ⟨0, _⟩ => show win5_4.index t (0 : Fin 2) * 1 + 1 * (y 0).val = (y 0).val; omega
  | ⟨1, _⟩ => show win5_4.index t (1 : Fin 2) * 192 + 1 * (y 1).val = (y 1).val; omega

theorem reg5_blk5 (c : Dev nD) (t : Fin cfg5.N) :
    iblk5 V c 5 t = (V c (Pipeline.arrRef spec5 5) : Vec Ideal S1x192 .f32) := by
  funext y
  show V c (Pipeline.arrRef spec5 5) (((cfg5.win 5).blk t).view.emb y) = V c (Pipeline.arrRef spec5 5) y
  obtain ⟨e0, e1⟩ := reg5_idx5 t
  refine congrArg _ ?_
  funext a; apply Fin.ext
  match a with
  | ⟨0, _⟩ => show win5_5.index t (0 : Fin 2) * 1 + 1 * (y 0).val = (y 0).val; omega
  | ⟨1, _⟩ => show win5_5.index t (1 : Fin 2) * 192 + 1 * (y 1).val = (y 1).val; omega

theorem reg5_blk6 (c : Dev nD) (t : Fin cfg5.N) :
    iblk5 V c 6 t = (V c (Pipeline.arrRef spec5 6) : Vec Ideal S1x192 .f32) := by
  funext y
  show V c (Pipeline.arrRef spec5 6) (((cfg5.win 6).blk t).view.emb y) = V c (Pipeline.arrRef spec5 6) y
  obtain ⟨e0, e1⟩ := reg5_idx6 t
  refine congrArg _ ?_
  funext a; apply Fin.ext
  match a with
  | ⟨0, _⟩ => show win5_6.index t (0 : Fin 2) * 1 + 1 * (y 0).val = (y 0).val; omega
  | ⟨1, _⟩ => show win5_6.index t (1 : Fin 2) * 192 + 1 * (y 1).val = (y 1).val; omega

theorem reg5_blk7 (c : Dev nD) (t : Fin cfg5.N) :
    iblk5 V c 7 t = (V c (Pipeline.arrRef spec5 7) : Vec Ideal S1x192 .f32) := by
  funext y
  show V c (Pipeline.arrRef spec5 7) (((cfg5.win 7).blk t).view.emb y) = V c (Pipeline.arrRef spec5 7) y
  obtain ⟨e0, e1⟩ := reg5_idx7 t
  refine congrArg _ ?_
  funext a; apply Fin.ext
  match a with
  | ⟨0, _⟩ => show win5_7.index t (0 : Fin 2) * 1 + 1 * (y 0).val = (y 0).val; omega
  | ⟨1, _⟩ => show win5_7.index t (1 : Fin 2) * 192 + 1 * (y 1).val = (y 1).val; omega

theorem reg5_blk8 (c : Dev nD) (t : Fin cfg5.N) :
    iblk5 V c 8 t = (V c (Pipeline.arrRef spec5 8) : Vec Ideal S1x192 .f32) := by
  funext y
  show V c (Pipeline.arrRef spec5 8) (((cfg5.win 8).blk t).view.emb y) = V c (Pipeline.arrRef spec5 8) y
  obtain ⟨e0, e1⟩ := reg5_idx8 t
  refine congrArg _ ?_
  funext a; apply Fin.ext
  match a with
  | ⟨0, _⟩ => show win5_8.index t (0 : Fin 2) * 1 + 1 * (y 0).val = (y 0).val; omega
  | ⟨1, _⟩ => show win5_8.index t (1 : Fin 2) * 192 + 1 * (y 1).val = (y 1).val; omega

theorem reg5_blk9 (c : Dev nD) (t : Fin cfg5.N) :
    iblk5 V c 9 t = (V c (Pipeline.arrRef spec5 9) : Vec Ideal S192x128 .f32) := by
  funext y
  show V c (Pipeline.arrRef spec5 9) (((cfg5.win 9).blk t).view.emb y) = V c (Pipeline.arrRef spec5 9) y
  obtain ⟨e0, e1⟩ := reg5_idx9 t
  refine congrArg _ ?_
  funext a; apply Fin.ext
  match a with
  | ⟨0, _⟩ => show win5_9.index t (0 : Fin 2) * 192 + 1 * (y 0).val = (y 0).val; omega
  | ⟨1, _⟩ => show win5_9.index t (1 : Fin 2) * 128 + 1 * (y 1).val = (y 1).val; omega

theorem reg5_blk10 (c : Dev nD) (t : Fin cfg5.N) :
    iblk5 V c 10 t = (V c (Pipeline.arrRef spec5 10) : Vec Ideal S1x128 .f32) := by
  funext y
  show V c (Pipeline.arrRef spec5 10) (((cfg5.win 10).blk t).view.emb y) = V c (Pipeline.arrRef spec5 10) y
  obtain ⟨e0, e1⟩ := reg5_idx10 t
  refine congrArg _ ?_
  funext a; apply Fin.ext
  match a with
  | ⟨0, _⟩ => show win5_10.index t (0 : Fin 2) * 1 + 1 * (y 0).val = (y 0).val; omega
  | ⟨1, _⟩ => show win5_10.index t (1 : Fin 2) * 128 + 1 * (y 1).val = (y 1).val; omega

theorem reg5_blk11 (c : Dev nD) (t : Fin cfg5.N) :
    iblk5 V c 11 t = (V c (Pipeline.arrRef spec5 11) : Vec Ideal S1x128 .f32) := by
  funext y
  show V c (Pipeline.arrRef spec5 11) (((cfg5.win 11).blk t).view.emb y) = V c (Pipeline.arrRef spec5 11) y
  obtain ⟨e0, e1⟩ := reg5_idx11 t
  refine congrArg _ ?_
  funext a; apply Fin.ext
  match a with
  | ⟨0, _⟩ => show win5_11.index t (0 : Fin 2) * 1 + 1 * (y 0).val = (y 0).val; omega
  | ⟨1, _⟩ => show win5_11.index t (1 : Fin 2) * 128 + 1 * (y 1).val = (y 1).val; omega

theorem reg5_blk12 (c : Dev nD) (t : Fin cfg5.N) :
    iblk5 V c 12 t = (V c (Pipeline.arrRef spec5 12) : Vec Ideal S1x128 .f32) := by
  funext y
  show V c (Pipeline.arrRef spec5 12) (((cfg5.win 12).blk t).view.emb y) = V c (Pipeline.arrRef spec5 12) y
  obtain ⟨e0, e1⟩ := reg5_idx12 t
  refine congrArg _ ?_
  funext a; apply Fin.ext
  match a with
  | ⟨0, _⟩ => show win5_12.index t (0 : Fin 2) * 1 + 1 * (y 0).val = (y 0).val; omega
  | ⟨1, _⟩ => show win5_12.index t (1 : Fin 2) * 128 + 1 * (y 1).val = (y 1).val; omega

theorem reg5_blk13 (c : Dev nD) (t : Fin cfg5.N) :
    iblk5 V c 13 t = (V c (Pipeline.arrRef spec5 13) : Vec Ideal S1x128 .f32) := by
  funext y
  show V c (Pipeline.arrRef spec5 13) (((cfg5.win 13).blk t).view.emb y) = V c (Pipeline.arrRef spec5 13) y
  obtain ⟨e0, e1⟩ := reg5_idx13 t
  refine congrArg _ ?_
  funext a; apply Fin.ext
  match a with
  | ⟨0, _⟩ => show win5_13.index t (0 : Fin 2) * 1 + 1 * (y 0).val = (y 0).val; omega
  | ⟨1, _⟩ => show win5_13.index t (1 : Fin 2) * 128 + 1 * (y 1).val = (y 1).val; omega

theorem reg5_blk14 (c : Dev nD) (t : Fin cfg5.N) :
    iblk5 V c 14 t = (V c (Pipeline.arrRef spec5 14) : Vec Ideal S1x128 .f32) := by
  funext y
  show V c (Pipeline.arrRef spec5 14) (((cfg5.win 14).blk t).view.emb y) = V c (Pipeline.arrRef spec5 14) y
  obtain ⟨e0, e1⟩ := reg5_idx14 t
  refine congrArg _ ?_
  funext a; apply Fin.ext
  match a with
  | ⟨0, _⟩ => show win5_14.index t (0 : Fin 2) * 1 + 1 * (y 0).val = (y 0).val; omega
  | ⟨1, _⟩ => show win5_14.index t (1 : Fin 2) * 128 + 1 * (y 1).val = (y 1).val; omega

theorem reg5_blk15 (c : Dev nD) (t : Fin cfg5.N) :
    iblk5 V c 15 t = (V c (Pipeline.arrRef spec5 15) : Vec Ideal S128x1 .f32) := by
  funext y
  show V c (Pipeline.arrRef spec5 15) (((cfg5.win 15).blk t).view.emb y) = V c (Pipeline.arrRef spec5 15) y
  obtain ⟨e0, e1⟩ := reg5_idx15 t
  refine congrArg _ ?_
  funext a; apply Fin.ext
  match a with
  | ⟨0, _⟩ => show win5_15.index t (0 : Fin 2) * 128 + 1 * (y 0).val = (y 0).val; omega
  | ⟨1, _⟩ => show win5_15.index t (1 : Fin 2) * 1 + 1 * (y 1).val = (y 1).val; omega

theorem reg5_blk16 (c : Dev nD) (t : Fin cfg5.N) :
    iblk5 V c 16 t = (V c (Pipeline.arrRef spec5 16) : Vec Ideal S1x1 .f32) := by
  funext y
  show V c (Pipeline.arrRef spec5 16) (((cfg5.win 16).blk t).view.emb y) = V c (Pipeline.arrRef spec5 16) y
  obtain ⟨e0, e1⟩ := reg5_idx16 t
  refine congrArg _ ?_
  funext a; apply Fin.ext
  match a with
  | ⟨0, _⟩ => show win5_16.index t (0 : Fin 2) * 1 + 1 * (y 0).val = (y 0).val; omega
  | ⟨1, _⟩ => show win5_16.index t (1 : Fin 2) * 1 + 1 * (y 1).val = (y 1).val; omega

/-! ## The output buffer after the body

Its one store goes through the whole-buffer rectangle and every load reads a whole block: the buffer ends holding the
payload of the blocks themselves. -/

theorem reg5_out {F : FTy → Type} [FloatOps F] (x0 : Vec F S512x128 .f32) (x1 : Vec F S512x1 .f32) (x2 : Vec F S512x128 .f32) (x3 : Vec F S256x192 .f32) (x4 : Vec F S1x192 .f32) (x5 : Vec F S1x192 .f32) (x6 : Vec F S1x192 .f32) (x7 : Vec F S1x192 .f32) (x8 : Vec F S1x192 .f32) (x9 : Vec F S192x128 .f32) (x10 : Vec F S1x128 .f32) (x11 : Vec F S1x128 .f32) (x12 : Vec F S1x128 .f32) (x13 : Vec F S1x128 .f32) (x14 : Vec F S1x128 .f32) (x15 : Vec F S128x1 .f32) (x16 : Vec F S1x1 .f32) :
    out5_17 x0 x1 x2 x3 x4 x5 x6 x7 x8 x9 x10 x11 x12 x13 x14 x15 x16 = k5_pay1 (k5_pay3 (k5_pay2 x0 x1 x2 x3 x4 x7 x8 x5) x6 x9 x10 x13 x14 x11 x12 x15) x16 := by
  unfold out5_17
  rw [View.canon_unit_zero reg5_zero]
  simp only [View.ld_unit_zero (S := S512x128) reg5_zero, View.ld_unit_zero (S := S512x1) reg5_zero, View.ld_unit_zero (S := S256x192) reg5_zero, View.ld_unit_zero (S := S1x192) reg5_zero, View.ld_unit_zero (S := S192x128) reg5_zero, View.ld_unit_zero (S := S1x128) reg5_zero, View.ld_unit_zero (S := S128x1) reg5_zero, View.ld_unit_zero (S := S1x1) reg5_zero]

/-! ## What the point writes back, and the final array -/

/-- The output's block at the point is the whole output array: cutting contents to the block and reading them through
    the block's view are both the identity. -/
theorem reg5_whole (t : Fin cfg5.N) (G : Vec Ideal S512x1 .f32) :
    (cfg5.win 17).cut (grid5.coords t) G = ((cfg5.win 17).blk t).view.read (Elt Ideal) G := by
  funext y
  show G y = G (((cfg5.win 17).blk t).view.emb y)
  obtain ⟨e0, e1⟩ := reg5_idx17 t
  refine congrArg G ?_
  funext a; apply Fin.ext
  match a with
  | ⟨0, _⟩ => show (y 0).val = win5_17.index t (0 : Fin 2) * 512 + 1 * (y 0).val; omega
  | ⟨1, _⟩ => show (y 1).val = win5_17.index t (1 : Fin 2) * 1 + 1 * (y 1).val; omega

/-- What the point writes back is the block of the payload of the whole input arrays. -/
theorem reg5_flushed (c : Dev nD) (t : Fin cfg5.N) :
    (dat5 (F := Ideal) V c).flushed 17 t = ((cfg5.win 17).blk t).view.read (Elt Ideal)
      (k5_pay1 (k5_pay3 (k5_pay2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 7)) (V c (Pipeline.arrRef spec5 8)) (V c (Pipeline.arrRef spec5 5))) (V c (Pipeline.arrRef spec5 6)) (V c (Pipeline.arrRef spec5 9)) (V c (Pipeline.arrRef spec5 10)) (V c (Pipeline.arrRef spec5 13)) (V c (Pipeline.arrRef spec5 14)) (V c (Pipeline.arrRef spec5 11)) (V c (Pipeline.arrRef spec5 12)) (V c (Pipeline.arrRef spec5 15))) (V c (Pipeline.arrRef spec5 16))) := by
  show (cfg5.win 17).cut (grid5.coords t) ((dat5 V c).after 17 t) = _
  rw [after5_17, reg5_out]
  simp only [reg5_blk0 V c t, reg5_blk1 V c t, reg5_blk2 V c t, reg5_blk3 V c t, reg5_blk4 V c t, reg5_blk5 V c t, reg5_blk6 V c t, reg5_blk7 V c t, reg5_blk8 V c t, reg5_blk9 V c t, reg5_blk10 V c t, reg5_blk11 V c t, reg5_blk12 V c t, reg5_blk13 V c t, reg5_blk14 V c t, reg5_blk15 V c t, reg5_blk16 V c t]
  exact reg5_whole t _

/-- An index of the output array is in the point's block iff each coordinate is in the block's range on its axis. -/
theorem reg5_mem (t : Fin cfg5.N) (i : S512x1.Idx) :
    i ∈ ((cfg5.win 17).blk t).view.set ↔ ∀ a : Fin 2, win5_17.index t a * S512x1.size a ≤ (i a).val ∧ (i a).val < win5_17.index t a * S512x1.size a + S512x1.size a := by
  show i ∈ ((View.whole main_v96).slice (win5_17.rect t)).set ↔ _
  rw [View.set_slice_whole, Rect.mem_set_unit]
  exact Iff.rfl

/-- The single block is the whole array: every index is covered by the grid's one point. -/
theorem reg5_cover (i : S512x1.Idx) :
    ∃ t : Fin cfg5.N, (cfg5.win 17).flush t = true ∧ i ∈ ((cfg5.win 17).blk t).view.set := by
  refine ⟨⟨0, by decide⟩, flush5_17 _, ?_⟩
  rw [reg5_mem]
  obtain ⟨e0, e1⟩ := reg5_idx17 ⟨0, by decide⟩
  intro a
  match a with
  | ⟨0, _⟩ => show win5_17.index ⟨0, _⟩ (0 : Fin 2) * 512 ≤ (i 0).val ∧ (i 0).val < win5_17.index ⟨0, _⟩ (0 : Fin 2) * 512 + 512; have h : (i 0).val < 512 := (i 0).isLt; omega
  | ⟨1, _⟩ => show win5_17.index ⟨0, _⟩ (1 : Fin 2) * 1 ≤ (i 1).val ∧ (i 1).val < win5_17.index ⟨0, _⟩ (1 : Fin 2) * 1 + 1; have h : (i 1).val < 1 := (i 1).isLt; omega

/-- THE OUTPUT ARRAY after the region: the payload of the whole input arrays as the region finds them. -/
theorem arr5_pay (c : Dev nD) : (dat5 (F := Ideal) V c).arrAt 17 cfg5.N
    = k5_pay1 (k5_pay3 (k5_pay2 (V c (Pipeline.arrRef spec5 0)) (V c (Pipeline.arrRef spec5 1)) (V c (Pipeline.arrRef spec5 2)) (V c (Pipeline.arrRef spec5 3)) (V c (Pipeline.arrRef spec5 4)) (V c (Pipeline.arrRef spec5 7)) (V c (Pipeline.arrRef spec5 8)) (V c (Pipeline.arrRef spec5 5))) (V c (Pipeline.arrRef spec5 6)) (V c (Pipeline.arrRef spec5 9)) (V c (Pipeline.arrRef spec5 10)) (V c (Pipeline.arrRef spec5 13)) (V c (Pipeline.arrRef spec5 14)) (V c (Pipeline.arrRef spec5 11)) (V c (Pipeline.arrRef spec5 12)) (V c (Pipeline.arrRef spec5 15))) (V c (Pipeline.arrRef spec5 16)) :=
  (dat5 (F := Ideal) V c).arrAt_eq_of_cover 17 _ (fun t _ => reg5_flushed V c t) reg5_cover

end Cert.KernelIdeal.KV

end
-- ==== Proof.FeatPure.lean ====
/- The feature branch, as pure values: the kernel's feat_mlp payload of whole arrays is the reference's stage
   xf = relu(((feat @ fW1 + fb1) − frm1) · rsqrt(frv1 + eps) · fg1 + fbe1) @ fW2 + fb2, at the ideal values.
   No memory and no schedule enter: both sides are functions of the nine argument arrays. The two products have no
   rounding at the ideal values, so the kernel's narrowing of their operands is the identity and its zero accumulator
   adds nothing; a vector laid along every row reads the vector at the column on both sides; the two reciprocal square
   roots are one function; eps and the relu's zero are the same words on both sides and are never evaluated. -/
import proofs.«147598_j30477087932519_1_alg».proof.Proof.Gen.KernelIdeal.Skeleton
import proofs.«147598_j30477087932519_1_alg».proof.Proof.Gen.ReferenceIdeal.Read
import Idealize.ShloMosaic.Lib.Pipeline.Value
import Idealize.ShloMosaic.PureOps.Ideal.Laws

set_option maxRecDepth 16384

noncomputable section

namespace Cert.KernelIdeal.KV

open Cert.KernelIdeal Cert.KernelIdeal.Gen Idealize.ShloMosaic

/-- A product of two narrowed operands into the zero splat is the host's product of the operands. -/
theorem feat_matmul_trunc_eq {sl sr so : Shape} (d : DotDims sl sr so) (a : FVec Ideal sl .f32) (b : FVec Ideal sr .f32)
    (h : FTy.bits .bf16 < FTy.bits .f32) :
    matmul (F := Ideal) d none (truncf .bf16 a h) (truncf .bf16 b h) (constant so .f32 0x00000000#32)
      = Host.dotGeneral (F := Ideal) d none a b := by
  funext j
  refine (Ideal.matmul_constant_zero_apply d none _ _ j).trans ?_
  simp only [Host.dotGeneral]
  rw [Ideal.dotGeneral_apply]
  rfl

/-- A one-row matrix laid down the 512 rows, read at an index, is the row at the index's column. -/
theorem feat_bcRow_apply {α : Type} (y : S1x256.Idx → α) (i : S512x256.Idx) (j : S1x256.Idx)
    (h0 : (j 0).val = 0) (h1 : (j 1).val = (i 1).val) :
    broadcastTo S512x256 y broadcasts_S1x256_S512x256 i = y j :=
  broadcastTo_apply y broadcasts_S1x256_S512x256 i j (fun a => match a with
    | ⟨0, _⟩ => by show (j 0).val = if (1 : Nat) = 1 then 0 else (i 0).val; rw [if_pos rfl, h0]
    | ⟨1, _⟩ => by show (j 1).val = if (256 : Nat) = 1 then 0 else (i 1).val; rw [if_neg (by decide), h1])

/-- A vector cast to one row, and cast once more to the same shape, read at an index, is the vector at the index's column. -/
theorem feat_castRow_apply {α : Type} (x : S256.Idx → α) (j : S1x256.Idx) (k : S256.Idx) (hk : (k 0).val = (j 1).val) :
    shapeCast S1x256 (shapeCast S1x256 x shapeCasts_S256_S1x256) shapeCasts_S1x256_S1x256 j = x k := by
  refine (congrFun (shapeCast_self _ shapeCasts_S1x256_S1x256) j).trans ?_
  refine shapeCast_apply x shapeCasts_S256_S1x256 j k ?_
  have h0 : (j 0).val < 1 := (j 0).isLt
  rw [Shape.rowMajor_val_one, Shape.rowMajor_val_two, hk]
  show (j 1).val = (j 0).val * 256 + (j 1).val
  omega

/-- The same two facts for the 128-wide row of the second layer's bias. -/
theorem feat_bcRow128_apply {α : Type} (y : S1x128.Idx → α) (i : S512x128.Idx) (j : S1x128.Idx)
    (h0 : (j 0).val = 0) (h1 : (j 1).val = (i 1).val) :
    broadcastTo S512x128 y broadcasts_S1x128_S512x128 i = y j :=
  broadcastTo_apply y broadcasts_S1x128_S512x128 i j (fun a => match a with
    | ⟨0, _⟩ => by show (j 0).val = if (1 : Nat) = 1 then 0 else (i 0).val; rw [if_pos rfl, h0]
    | ⟨1, _⟩ => by show (j 1).val = if (128 : Nat) = 1 then 0 else (i 1).val; rw [if_neg (by decide), h1])

/-- The 128-wide vector cast to one row, and once more to the same shape, read at an index. -/
theorem feat_castRow128_apply {α : Type} (x : S128.Idx → α) (j : S1x128.Idx) (k : S128.Idx) (hk : (k 0).val = (j 1).val) :
    shapeCast S1x128 (shapeCast S1x128 x shapeCasts_S128_S1x128) shapeCasts_S1x128_S1x128 j = x k := by
  refine (congrFun (shapeCast_self _ shapeCasts_S1x128_S1x128) j).trans ?_
  refine shapeCast_apply x shapeCasts_S128_S1x128 j k ?_
  have h0 : (j 0).val < 1 := (j 0).isLt
  rw [Shape.rowMajor_val_one, Shape.rowMajor_val_two, hk]
  show (j 1).val = (j 0).val * 128 + (j 1).val
  omega

/-! ## Each piece of the first layer, the kernel's spelling against the reference's -/

/-- The two programs' dimension numbers of the first product are one record. -/
theorem feat_dot1_eq : dot_S512x8_S8x256_S512x256_1_0_0_1_n_n = Cert.ReferenceIdeal.dot_S512x8_S8x256_S512x256_1_0_0_1_n_n := rfl

/-- The two programs' dimension numbers of the second product are one record. -/
theorem feat_dot2_eq : dot_S512x256_S256x128_S512x128_1_0_0_1_n_n = Cert.ReferenceIdeal.dot_S512x256_S256x128_S512x128_1_0_0_1_n_n := rfl

/-- feat @ fW1: the kernel's product of the narrowed operands into a zero splat is the reference's dot_general. -/
theorem feat_mm1_eq (x1 : (⟨Cert.ReferenceIdeal.S512x8, .f32⟩ : BufTy).Contents (Elt Ideal))
    (x6 : (⟨Cert.ReferenceIdeal.S8x256, .f32⟩ : BufTy).Contents (Elt Ideal)) :
    matmul (F := Ideal) dot_S512x8_S8x256_S512x256_1_0_0_1_n_n none (truncf .bf16 x1 bitsLt_bf16_f32) (truncf .bf16 x6 bitsLt_bf16_f32)
        (constant S512x256 .f32 0x00000000#32)
      = Cert.ReferenceIdeal.Read.val_main_v118 (F := Ideal) x1 x6 :=
  (feat_matmul_trunc_eq _ x1 x6 _).trans (congrArg (fun d => Host.dotGeneral (F := Ideal) (φ₁ := .f32) (φ₂ := .f32) d none x1 x6) feat_dot1_eq)

/-- A vector laid along every row: the kernel broadcasts its one-row cast down the rows, the reference broadcasts it
    to one row and the row to the matrix. -/
theorem feat_row_eq (x : (⟨Cert.ReferenceIdeal.S256, .f32⟩ : BufTy).Contents (Elt Ideal)) :
    broadcastTo S512x256 (shapeCast S1x256 (shapeCast S1x256 x shapeCasts_S256_S1x256) shapeCasts_S1x256_S1x256) broadcasts_S1x256_S512x256
      = Cert.ReferenceIdeal.Read.val_main_v120 (F := Ideal) x := by
  funext i
  rw [Cert.ReferenceIdeal.Read.val_main_v120_apply, Cert.ReferenceIdeal.Read.val_main_v119_apply]
  refine (feat_bcRow_apply _ i (Cert.ReferenceIdeal.Read.idx_main_v120 i) rfl rfl).trans ?_
  exact feat_castRow_apply x _ _ rfl

/-- rsqrt(frv1 + eps) laid along every row: the kernel adds the splat of eps to the one-row cast and takes math.rsqrt,
    the reference adds the broadcast of the same word to the vector and takes stablehlo.rsqrt; at the ideal values the
    two reciprocal square roots are one function. -/
theorem feat_rsq_eq (x : (⟨Cert.ReferenceIdeal.S256, .f32⟩ : BufTy).Contents (Elt Ideal)) :
    broadcastTo S512x256 (rsqrt (F := Ideal) (φ := .f32) (addf (F := Ideal) (φ := .f32) (shapeCast S1x256 (shapeCast S1x256 x shapeCasts_S256_S1x256) shapeCasts_S1x256_S1x256)
        (broadcast S1x256 (Scalar.ofBits .f32 0x3727C5AC#32)))) broadcasts_S1x256_S512x256
      = Cert.ReferenceIdeal.Read.val_main_v129 (F := Ideal) x := by
  funext i
  rw [Cert.ReferenceIdeal.Read.val_main_v129_apply, Cert.ReferenceIdeal.Read.val_main_v128_apply, Cert.ReferenceIdeal.Read.val_main_v127_apply, Cert.ReferenceIdeal.Read.val_main_v126_apply,
    Cert.ReferenceIdeal.Read.val_main_v125_apply, Cert.ReferenceIdeal.Read.val_main_cst_28_apply]
  refine (feat_bcRow_apply _ i (Cert.ReferenceIdeal.Read.idx_main_v129 i) rfl rfl).trans ?_
  exact congrArg (fun t => FloatOps.rsqrt (F := Ideal) (φ := .f32) (FloatOps.addf t (Scalar.ofBits .f32 0x3727C5AC#32)))
    (feat_castRow_apply x (Cert.ReferenceIdeal.Read.idx_main_v129 i) (Cert.ReferenceIdeal.Read.idx_main_v128 (Cert.ReferenceIdeal.Read.idx_main_v129 i)) rfl)

/-- The relu's zero: the kernel's splat of the zero word is the reference's broadcast of the zero constant. -/
theorem feat_zero_eq : broadcast S512x256 (Scalar.ofBits (F := Ideal) .f32 0x00000000#32) = Cert.ReferenceIdeal.Read.val_main_call2_v0 (F := Ideal) :=
  funext fun _ => rfl

/-- fb2 laid along every row of the second layer's result. -/
theorem feat_row128_eq (x : (⟨Cert.ReferenceIdeal.S128, .f32⟩ : BufTy).Contents (Elt Ideal)) :
    broadcastTo S512x128 (shapeCast S1x128 (shapeCast S1x128 x shapeCasts_S128_S1x128) shapeCasts_S1x128_S1x128) broadcasts_S1x128_S512x128
      = Cert.ReferenceIdeal.Read.val_main_v140 (F := Ideal) x := by
  funext i
  rw [Cert.ReferenceIdeal.Read.val_main_v140_apply, Cert.ReferenceIdeal.Read.val_main_v139_apply]
  refine (feat_bcRow128_apply _ i (Cert.ReferenceIdeal.Read.idx_main_v140 i) rfl rfl).trans ?_
  exact feat_castRow128_apply x _ _ rfl

/-! ## The whole payload -/

/-- xf = relu(((feat @ fW1 + fb1) − frm1) · rsqrt(frv1 + eps) · fg1 + fbe1) @ fW2 + fb2, the kernel's whole-array
    payload against the reference's stage, piece by piece in the one grouping both programs use. -/
theorem feat_ref (x1 : (⟨Cert.ReferenceIdeal.S512x8, .f32⟩ : BufTy).Contents (Elt Ideal))
    (x6 : (⟨Cert.ReferenceIdeal.S8x256, .f32⟩ : BufTy).Contents (Elt Ideal))
    (x7 x8 x9 x10 x11 : (⟨Cert.ReferenceIdeal.S256, .f32⟩ : BufTy).Contents (Elt Ideal))
    (x12 : (⟨Cert.ReferenceIdeal.S256x128, .f32⟩ : BufTy).Contents (Elt Ideal))
    (x13 : (⟨Cert.ReferenceIdeal.S128, .f32⟩ : BufTy).Contents (Elt Ideal)) :
    k4_pay1 (F := Ideal) (k4_pay2 x1 x6 (shapeCast S1x256 x7 shapeCasts_S256_S1x256) (shapeCast S1x256 x10 shapeCasts_S256_S1x256) (shapeCast S1x256 x11 shapeCasts_S256_S1x256) (shapeCast S1x256 x8 shapeCasts_S256_S1x256) (shapeCast S1x256 x9 shapeCasts_S256_S1x256) x12) (k4_pay3 (shapeCast S1x128 x13 shapeCasts_S128_S1x128))
      = Cert.ReferenceIdeal.Read.val_main_v141 (F := Ideal) x1 x6 x7 x8 x9 x10 x11 x12 x13 := by
  have h1 := congrArg₂ (maximumf (F := Ideal)) (congrArg₂ addf (congrArg₂ mulf (congrArg₂ mulf (congrArg₂ subf
    (congrArg₂ addf (feat_mm1_eq x1 x6) (feat_row_eq x7)) (feat_row_eq x10)) (feat_rsq_eq x11)) (feat_row_eq x8)) (feat_row_eq x9)) feat_zero_eq
  have h2 := (feat_matmul_trunc_eq dot_S512x256_S256x128_S512x128_1_0_0_1_n_n _ x12 bitsLt_bf16_f32).trans
    (congrArg₂ (fun (d : DotDims S512x256 S256x128 S512x128) v => Host.dotGeneral (F := Ideal) (φ₁ := .f32) (φ₂ := .f32) d none v x12) feat_dot2_eq h1)
  exact congrArg₂ addf h2 (feat_row128_eq x13)

end Cert.KernelIdeal.KV
-- ==== Proof.Fus1.lean ====
/-
  The first layer of the fusion head, kernel against reference, at the ideal values.

  The kernel divides the pooled sums by max(counts, 1) (the counts a [512,1] column broadcast over the lanes), multiplies
  the quotient by the first 128 rows of the weight and the dense input by the last 128 rows (two block products into zero
  accumulators), adds the two, adds the bias row, subtracts the running mean, multiplies by rsqrt(running variance + eps)
  and by the scale. The reference joins [pooled / max(counts, 1), dense] along axis 1 and contracts ONCE over the 256 joined
  positions. A sum over 256 positions is the sum over the first 128 plus the sum over the last 128; on the first 128 the
  joined array reads its first piece, on the last 128 its second; everything else is pointwise with the same grouping.
-/
import proofs.«147598_j30477087932519_1_alg».proof.Proof.Gen.KernelIdeal.Skeleton
import proofs.«147598_j30477087932519_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic
open Idealize.ShloMosaic.ValueIdx
open scoped BigOperators

/-- The sum over 256 positions is the sum over the first 128 plus the sum over the last 128. -/
theorem sum_split_256 {M : Type*} [AddCommMonoid M] (f : Fin 256 → M) :
    ∑ k : Fin 256, f k
      = ∑ k : Fin 128, f ⟨k.val, by have := k.isLt; omega⟩ + ∑ k : Fin 128, f ⟨128 + k.val, by have := k.isLt; omega⟩ := by
  have h := Fin.sum_univ_add (a := 128) (b := 128) f
  exact h

/-! ### The block product [512,128] × [128,192] at an output index -/

theorem mm_lhs_0 (i : S512x192.Idx) (c : dot_S512x128_S128x192_S512x192_1_0_0_1_n_n.contr.Idx) :
    (dot_S512x128_S128x192_S512x192_1_0_0_1_n_n.lhsIdx i c 0).val = (i 0).val := by
  unfold DotDims.lhsIdx
  rw [dif_neg (show ¬(0 : Fin S512x128.rank) ∈ dot_S512x128_S128x192_S512x192_1_0_0_1_n_n.lhsBatch by decide),
    dif_pos (show (0 : Fin S512x128.rank) ∈ dot_S512x128_S128x192_S512x192_1_0_0_1_n_n.lhsNonContracting by decide)]
  rfl
theorem mm_lhs_1 (i : S512x192.Idx) (c : dot_S512x128_S128x192_S512x192_1_0_0_1_n_n.contr.Idx) :
    (dot_S512x128_S128x192_S512x192_1_0_0_1_n_n.lhsIdx i c 1).val = (c ⟨0, by decide⟩).val :=
  dot_S512x128_S128x192_S512x192_1_0_0_1_n_n.lhsIdx_val_of_single rfl i c
theorem mm_rhs_0 (i : S512x192.Idx) (c : dot_S512x128_S128x192_S512x192_1_0_0_1_n_n.contr.Idx) :
    (dot_S512x128_S128x192_S512x192_1_0_0_1_n_n.rhsIdx i c 0).val = (c ⟨0, by decide⟩).val :=
  dot_S512x128_S128x192_S512x192_1_0_0_1_n_n.rhsIdx_val_of_single rfl i c
theorem mm_rhs_1 (i : S512x192.Idx) (c : dot_S512x128_S128x192_S512x192_1_0_0_1_n_n.contr.Idx) :
    (dot_S512x128_S128x192_S512x192_1_0_0_1_n_n.rhsIdx i c 1).val = (i 1).val := by
  unfold DotDims.rhsIdx
  rw [dif_neg (show ¬(1 : Fin S128x192.rank) ∈ dot_S512x128_S128x192_S512x192_1_0_0_1_n_n.rhsBatch by decide),
    dif_pos (show (1 : Fin S128x192.rank) ∈ dot_S512x128_S128x192_S512x192_1_0_0_1_n_n.rhsNonContracting by decide)]
  rfl

/-- Into the zero accumulator, the block product at `(p, q)` is the sum over the 128 contraction positions. -/
theorem mm_apply {φ₁ φ₂ : FTy} (A : FVec Ideal S512x128 φ₁) (B : FVec Ideal S128x192 φ₂) (p : Fin 512) (q : Fin 192) :
    matmul dot_S512x128_S128x192_S512x192_1_0_0_1_n_n none A B (constant S512x192 .f32 0x00000000#32) (ix2 p q)
      = ∑ k : Fin 128, A (ix2 p k) * B (ix2 k q) := by
  simp only [matmul]
  rw [Ideal.matmul_constant_zero_apply,
    ← Equiv.sum_comp (contrEquiv1 dot_S512x128_S128x192_S512x192_1_0_0_1_n_n 128 rfl rfl).symm]
  refine Finset.sum_congr rfl fun k _ => ?_
  have hk := contrEquiv1_symm_val dot_S512x128_S128x192_S512x192_1_0_0_1_n_n 128 rfl rfl k
  have el : dot_S512x128_S128x192_S512x192_1_0_0_1_n_n.lhsIdx (ix2 p q)
      ((contrEquiv1 dot_S512x128_S128x192_S512x192_1_0_0_1_n_n 128 rfl rfl).symm k) = ix2 p k :=
    funext fun a => Fin.ext (by
      match a with
      | ⟨0, _⟩ => exact mm_lhs_0 _ _
      | ⟨1, _⟩ => exact (mm_lhs_1 _ _).trans hk)
  have er : dot_S512x128_S128x192_S512x192_1_0_0_1_n_n.rhsIdx (ix2 p q)
      ((contrEquiv1 dot_S512x128_S128x192_S512x192_1_0_0_1_n_n 128 rfl rfl).symm k) = ix2 k q :=
    funext fun a => Fin.ext (by
      match a with
      | ⟨0, _⟩ => exact (mm_rhs_0 _ _).trans hk
      | ⟨1, _⟩ => exact mm_rhs_1 _ _)
  rw [el, er]

/-- A [512,1] column broadcast over 128 lanes reads, at `(p, k)`, the column at row `p`. -/
theorem bcast_col_apply {α : Type} (v : S512x1.Idx → α) (p : Fin 512) (k : Fin 128) :
    broadcastTo S512x128 v broadcasts_S512x1_S512x128 (ix2 p k) = v (ix2 p (0 : Fin 1)) := by
  refine broadcastTo_apply v broadcasts_S512x1_S512x128 (ix2 p k) (ix2 p (0 : Fin 1)) fun ax => ?_
  match ax with
  | ⟨0, _⟩ => show p.val = if (512 : Nat) = 1 then 0 else p.val; rw [if_neg (by decide)]
  | ⟨1, _⟩ => show 0 = if (1 : Nat) = 1 then 0 else k.val; rw [if_pos rfl]

/-- The payload at an output index: the two half products over the pooled and the dense inputs, the bias, the running
    mean and variance and the scale, each read at its own coordinates. -/
theorem k5_pay2_apply (P : Vec Ideal S512x128 .f32) (C : Vec Ideal S512x1 .f32) (Xf : Vec Ideal S512x128 .f32)
    (W : Vec Ideal S256x192 .f32) (b rm rv g : Vec Ideal S1x192 .f32) (p : Fin 512) (q : Fin 192) :
    k5_pay2 (F := Ideal) P C Xf W b rm rv g (ix2 p q)
      = ((∑ k : Fin 128, Ideal.div (P (ix2 p k)) (max (C (ix2 p (0 : Fin 1))) (Ideal.ofBits .f32 0x3F800000#32))
              * W (ix2 (⟨k.val, by have := k.isLt; omega⟩ : Fin 256) q))
          + (∑ k : Fin 128, Xf (ix2 p k) * W (ix2 (⟨128 + k.val, by have := k.isLt; omega⟩ : Fin 256) q))
          + b (ix2 (0 : Fin 1) q) - rm (ix2 (0 : Fin 1) q))
        * Ideal.rsqrt (rv (ix2 (0 : Fin 1) q) + Ideal.ofBits .f32 0x3727C5AC#32) * g (ix2 (0 : Fin 1) q) := by
  unfold k5_pay2
  simp only [shapeCast_self]
  simp only [mulf_apply, subf_apply, addf_apply, broadcastTo_1b_ab_apply, mm_apply]
  have e0 : ∀ k : Fin 128, extractStridedSlice S128x192 ![0, 0] (truncf .bf16 W bitsLt_bf16_f32 : FVec Ideal S256x192 .bf16) slices_S256x192_o0_0_S128x192 (ix2 k q)
      = W (ix2 (⟨k.val, by have := k.isLt; omega⟩ : Fin 256) q) := fun k =>
    (slice2_axis0_apply 0 (truncf .bf16 W bitsLt_bf16_f32 : FVec Ideal S256x192 .bf16) slices_S256x192_o0_0_S128x192 k q ⟨k.val, by have := k.isLt; omega⟩ (Nat.zero_add _).symm).trans rfl
  have e1 : ∀ k : Fin 128, extractStridedSlice S128x192 ![128, 0] (truncf .bf16 W bitsLt_bf16_f32 : FVec Ideal S256x192 .bf16) slices_S256x192_o128_0_S128x192 (ix2 k q)
      = W (ix2 (⟨128 + k.val, by have := k.isLt; omega⟩ : Fin 256) q) := fun k =>
    (slice2_axis0_apply 128 (truncf .bf16 W bitsLt_bf16_f32 : FVec Ideal S256x192 .bf16) slices_S256x192_o128_0_S128x192 k q ⟨128 + k.val, by have := k.isLt; omega⟩ rfl).trans rfl
  have ep : ∀ k : Fin 128, (truncf .bf16 (divf P (broadcastTo S512x128 (maximumf C (broadcast S512x1 (FloatOps.ofBits .f32 0x3F800000#32))) broadcasts_S512x1_S512x128)) bitsLt_bf16_f32 : FVec Ideal S512x128 .bf16) (ix2 p k)
      = Ideal.div (P (ix2 p k)) (max (C (ix2 p (0 : Fin 1))) (Ideal.ofBits .f32 0x3F800000#32)) := fun k => by
    rw [truncf_apply, divf_apply, bcast_col_apply]
    rfl
  simp only [e0, e1, ep]
  rfl

/-! ### The reference at an index -/

/-- The host's contraction over the 256 joined positions at `(p, q)`. -/
theorem ref_dot_apply (Y : FVec Ideal Cert.ReferenceIdeal.S512x256 .f32) (W : FVec Ideal Cert.ReferenceIdeal.S256x192 .f32) (p : Fin 512) (q : Fin 192) :
    Host.dotGeneral Cert.ReferenceIdeal.dot_S512x256_S256x192_S512x192_1_0_0_1_n_n none Y W (ix2 p q) = ∑ k : Fin 256, Y (ix2 p k) * W (ix2 k q) := by
  simp only [Host.dotGeneral]
  rw [Ideal.dotGeneral_apply, ← Equiv.sum_comp (contrEquiv1 Cert.ReferenceIdeal.dot_S512x256_S256x192_S512x192_1_0_0_1_n_n 256 rfl rfl).symm]
  refine Finset.sum_congr rfl fun k _ => ?_
  have hk := contrEquiv1_symm_val Cert.ReferenceIdeal.dot_S512x256_S256x192_S512x192_1_0_0_1_n_n 256 rfl rfl k
  have el : Cert.ReferenceIdeal.dot_S512x256_S256x192_S512x192_1_0_0_1_n_n.lhsIdx (ix2 p q) ((contrEquiv1 Cert.ReferenceIdeal.dot_S512x256_S256x192_S512x192_1_0_0_1_n_n 256 rfl rfl).symm k) = ix2 p k :=
    funext fun a => Fin.ext (by
      match a with
      | ⟨0, _⟩ => exact Cert.ReferenceIdeal.Read.lhs_main_v143_0 _ _
      | ⟨1, _⟩ => exact (Cert.ReferenceIdeal.Read.lhs_main_v143_1 _ _).trans hk)
  have er : Cert.ReferenceIdeal.dot_S512x256_S256x192_S512x192_1_0_0_1_n_n.rhsIdx (ix2 p q) ((contrEquiv1 Cert.ReferenceIdeal.dot_S512x256_S256x192_S512x192_1_0_0_1_n_n 256 rfl rfl).symm k) = ix2 k q :=
    funext fun a => Fin.ext (by
      match a with
      | ⟨0, _⟩ => exact (Cert.ReferenceIdeal.Read.rhs_main_v143_0 _ _).trans hk
      | ⟨1, _⟩ => exact Cert.ReferenceIdeal.Read.rhs_main_v143_1 _ _)
  rw [el, er]

/-- On the first 128 joined positions the joined array reads its first piece. -/
theorem ref_cat_left {α : Type} (A B : Cert.ReferenceIdeal.S512x128.Idx → α) (p : Fin 512) (k : Fin 128) :
    concatenate Cert.ReferenceIdeal.S512x256 1 [⟨Cert.ReferenceIdeal.S512x128, A⟩, ⟨Cert.ReferenceIdeal.S512x128, B⟩] Cert.ReferenceIdeal.Gen.concatenates_S512x128_S512x128_S512x256_d1
        (ix2 p (⟨k.val, by have := k.isLt; omega⟩ : Fin 256)) = A (ix2 p k) :=
  concatenate_pair_apply_left 1 A B Cert.ReferenceIdeal.Gen.concatenates_S512x128_S512x128_S512x256_d1 _ rfl (ix2 p k) (fun b => by
    match b with
    | ⟨0, _⟩ => rfl
    | ⟨1, _⟩ => rfl)

/-- On the last 128 joined positions it reads its second piece. -/
theorem ref_cat_right {α : Type} (A B : Cert.ReferenceIdeal.S512x128.Idx → α) (p : Fin 512) (k : Fin 128) :
    concatenate Cert.ReferenceIdeal.S512x256 1 [⟨Cert.ReferenceIdeal.S512x128, A⟩, ⟨Cert.ReferenceIdeal.S512x128, B⟩] Cert.ReferenceIdeal.Gen.concatenates_S512x128_S512x128_S512x256_d1
        (ix2 p (⟨128 + k.val, by have := k.isLt; omega⟩ : Fin 256)) = B (ix2 p k) :=
  concatenate_pair_apply_right 1 A B Cert.ReferenceIdeal.Gen.concatenates_S512x128_S512x128_S512x256_d1 _ rfl rfl (ix2 p k) (fun b hb => by
    match b, hb with
    | ⟨0, _⟩, _ => rfl
    | ⟨1, _⟩, hb => exact absurd rfl hb) (Nat.add_comm _ _)

/-- The counts as a column: row `p` of the column is the count of segment `p`. -/
theorem col_apply {α : Type} (Cn : Cert.ReferenceIdeal.S512.Idx → α) (h : Cert.ReferenceIdeal.S512.BroadcastsInDim Cert.ReferenceIdeal.S512x1 ![0]) (p : Fin 512) :
    broadcastInDim Cert.ReferenceIdeal.S512x1 ![0] h Cn (ix2 p (0 : Fin 1)) = Cn (ix1 p) :=
  broadcastInDim_apply _ h Cn (ix2 p (0 : Fin 1)) (ix1 p) (fun a => by
    match a with
    | ⟨0, _⟩ => show p.val = if (512 : Nat) = 1 then 0 else p.val; rw [if_neg (by decide)])

/-- The reference's pooled mean at `(p, k)`: the pooled sum over max(count, 1). -/
theorem ref_pooled_apply (P : FVec Ideal Cert.ReferenceIdeal.S512x128 .f32) (Cn : FVec Ideal Cert.ReferenceIdeal.S512 .f32) (p : Fin 512) (k : Fin 128) :
    Host.divf P (broadcastInDim Cert.ReferenceIdeal.S512x128 ![0, 1] Cert.ReferenceIdeal.Gen.bcast_S512x1_S512x128_0_1
        (broadcastInDim Cert.ReferenceIdeal.S512x1 ![0] Cert.ReferenceIdeal.Gen.bcast_S512_S512x1_0 (maximumf Cn (Cert.ReferenceIdeal.Read.val_main_v113 (F := Ideal))))) (ix2 p k)
      = Ideal.div (P (ix2 p k)) (max (Cn (ix1 p)) (Ideal.ofBits .f32 0x3F800000#32)) := by
  show Ideal.div (P (ix2 p k)) (broadcastInDim Cert.ReferenceIdeal.S512x128 ![0, 1] Cert.ReferenceIdeal.Gen.bcast_S512x1_S512x128_0_1
        (broadcastInDim Cert.ReferenceIdeal.S512x1 ![0] Cert.ReferenceIdeal.Gen.bcast_S512_S512x1_0 (maximumf Cn (Cert.ReferenceIdeal.Read.val_main_v113 (F := Ideal)))) (ix2 p k)) = _
  rw [broadcastInDim_apply _ Cert.ReferenceIdeal.Gen.bcast_S512x1_S512x128_0_1 _ (ix2 p k) (ix2 p (0 : Fin 1)) (fun a => by
      match a with
      | ⟨0, _⟩ => show p.val = if (512 : Nat) = 1 then 0 else p.val; rw [if_neg (by decide)]
      | ⟨1, _⟩ => show 0 = if (1 : Nat) = 1 then 0 else k.val; rw [if_pos rfl]),
    col_apply]
  show Ideal.div _ (max (Cn (ix1 p)) (Cert.ReferenceIdeal.Read.val_main_v113 (F := Ideal) (ix1 p))) = _
  rw [Cert.ReferenceIdeal.Read.val_main_v113_apply]
  rfl

/-- A [192] row made a [1,192] array and broadcast down 512 rows reads, at `(p, q)`, the row at `q`. -/
theorem ref_v145_apply (x : (⟨Cert.ReferenceIdeal.S192, .f32⟩ : BufTy).Contents (Elt Ideal)) (p : Fin 512) (q : Fin 192) : Cert.ReferenceIdeal.Read.val_main_v145 (F := Ideal) x (ix2 p q) = x (ix1 q) := by
  rw [Cert.ReferenceIdeal.Read.val_main_v145_apply, Cert.ReferenceIdeal.Read.val_main_v144_apply]
  exact congrArg x (funext fun a => by match a with | ⟨0, _⟩ => rfl)
theorem ref_v148_apply (x : (⟨Cert.ReferenceIdeal.S192, .f32⟩ : BufTy).Contents (Elt Ideal)) (p : Fin 512) (q : Fin 192) : Cert.ReferenceIdeal.Read.val_main_v148 (F := Ideal) x (ix2 p q) = x (ix1 q) := by
  rw [Cert.ReferenceIdeal.Read.val_main_v148_apply, Cert.ReferenceIdeal.Read.val_main_v147_apply]
  exact congrArg x (funext fun a => by match a with | ⟨0, _⟩ => rfl)
theorem ref_v157_apply (x : (⟨Cert.ReferenceIdeal.S192, .f32⟩ : BufTy).Contents (Elt Ideal)) (p : Fin 512) (q : Fin 192) : Cert.ReferenceIdeal.Read.val_main_v157 (F := Ideal) x (ix2 p q) = x (ix1 q) := by
  rw [Cert.ReferenceIdeal.Read.val_main_v157_apply, Cert.ReferenceIdeal.Read.val_main_v156_apply]
  exact congrArg x (funext fun a => by match a with | ⟨0, _⟩ => rfl)
/-- The reciprocal square root of the running variance plus eps, at `(p, q)`. -/
theorem ref_v154_apply (x : (⟨Cert.ReferenceIdeal.S192, .f32⟩ : BufTy).Contents (Elt Ideal)) (p : Fin 512) (q : Fin 192) :
    Cert.ReferenceIdeal.Read.val_main_v154 (F := Ideal) x (ix2 p q) = Ideal.rsqrt (x (ix1 q) + Ideal.ofBits .f32 0x3727C5AC#32) := by
  rw [Cert.ReferenceIdeal.Read.val_main_v154_apply, Cert.ReferenceIdeal.Read.val_main_v153_apply, Cert.ReferenceIdeal.Read.val_main_v152_apply, Cert.ReferenceIdeal.Read.val_main_v151_apply,
    Cert.ReferenceIdeal.Read.val_main_v150_apply, Cert.ReferenceIdeal.Read.val_main_cst_29_apply]
  have e : Cert.ReferenceIdeal.Read.idx_main_v153 (Cert.ReferenceIdeal.Read.idx_main_v154 (ix2 p q)) = ix1 q := funext fun a => by match a with | ⟨0, _⟩ => rfl
  rw [e]
  rfl

/-- The reference's first fusion layer over the three arrays it reads. -/
def fus1Rhs (P : FVec Ideal S512x128 .f32) (Cn : FVec Ideal S512 .f32) (Xf : FVec Ideal S512x128 .f32)
    (x14 : (⟨Cert.ReferenceIdeal.S256x192, .f32⟩ : BufTy).Contents (Elt Ideal)) (x15 x16 x18 x19 : (⟨Cert.ReferenceIdeal.S192, .f32⟩ : BufTy).Contents (Elt Ideal)) : (⟨Cert.ReferenceIdeal.S512x192, .f32⟩ : BufTy).Contents (Elt Ideal) :=
  mulf (mulf (subf (addf
    (Host.dotGeneral (φ₁ := .f32) (φ₂ := .f32) Cert.ReferenceIdeal.dot_S512x256_S256x192_S512x192_1_0_0_1_n_n none
      (concatenate Cert.ReferenceIdeal.S512x256 1
        [⟨Cert.ReferenceIdeal.S512x128, Host.divf P
            (broadcastInDim Cert.ReferenceIdeal.S512x128 ![0, 1] Cert.ReferenceIdeal.Gen.bcast_S512x1_S512x128_0_1
              (broadcastInDim Cert.ReferenceIdeal.S512x1 ![0] Cert.ReferenceIdeal.Gen.bcast_S512_S512x1_0
                (maximumf Cn (Cert.ReferenceIdeal.Read.val_main_v113 (F := Ideal)))))⟩,
         ⟨Cert.ReferenceIdeal.S512x128, Xf⟩]
        Cert.ReferenceIdeal.Gen.concatenates_S512x128_S512x128_S512x256_d1)
      x14)
    (Cert.ReferenceIdeal.Read.val_main_v145 (F := Ideal) x15))
    (Cert.ReferenceIdeal.Read.val_main_v148 (F := Ideal) x18))
    (Cert.ReferenceIdeal.Read.val_main_v154 (F := Ideal) x19))
    (Cert.ReferenceIdeal.Read.val_main_v157 (F := Ideal) x16)

theorem fus1_ref_folded (P : FVec Ideal S512x128 .f32) (Cn : FVec Ideal S512 .f32) (Xf : FVec Ideal S512x128 .f32)
    (x14 : (⟨Cert.ReferenceIdeal.S256x192, .f32⟩ : BufTy).Contents (Elt Ideal)) (x15 x16 x18 x19 : (⟨Cert.ReferenceIdeal.S192, .f32⟩ : BufTy).Contents (Elt Ideal)) :
    k5_pay2 (F := Ideal) P (broadcastInDim S512x1 ![0] bcast_S512_S512x1_0 Cn) Xf x14
        (shapeCast S1x192 x15 shapeCasts_S192_S1x192) (shapeCast S1x192 x18 shapeCasts_S192_S1x192)
        (shapeCast S1x192 x19 shapeCasts_S192_S1x192) (shapeCast S1x192 x16 shapeCasts_S192_S1x192)
      = fus1Rhs P Cn Xf x14 x15 x16 x18 x19 := by
  funext i
  obtain ⟨p, q, rfl⟩ : ∃ (p : Fin 512) (q : Fin 192), i = ix2 p q := ⟨i 0, i 1, eq_ix2 i⟩
  rw [k5_pay2_apply]
  unfold fus1Rhs
  simp only [mulf_apply, subf_apply, addf_apply]
  rw [ref_dot_apply, sum_split_256, ref_v145_apply, ref_v148_apply, ref_v154_apply, ref_v157_apply]
  simp only [ref_cat_left, ref_cat_right, shapeCast_a_1a_apply]
  have hc : broadcastInDim S512x1 ![0] bcast_S512_S512x1_0 Cn (ix2 p (0 : Fin 1)) = Cn (ix1 p) := col_apply Cn _ p
  have hp : ∀ k : Fin 128, Host.divf P (broadcastInDim Cert.ReferenceIdeal.S512x128 ![0, 1] Cert.ReferenceIdeal.Gen.bcast_S512x1_S512x128_0_1
        (broadcastInDim Cert.ReferenceIdeal.S512x1 ![0] Cert.ReferenceIdeal.Gen.bcast_S512_S512x1_0 (maximumf Cn (Cert.ReferenceIdeal.Read.val_main_v113 (F := Ideal))))) (ix2 p k)
      = Ideal.div (P (ix2 p k)) (max (Cn (ix1 p)) (Ideal.ofBits .f32 0x3F800000#32)) := fun k => ref_pooled_apply P Cn p k
  rw [hc]
  simp only [hp]

/-- THE FIRST FUSION LAYER: the kernel's payload over the whole arrays is the reference's stage over the same arrays, the
    reference's expression written out operation by operation. -/
theorem fus1_ref (P : FVec Ideal S512x128 .f32) (Cn : FVec Ideal S512 .f32) (Xf : FVec Ideal S512x128 .f32)
    (x14 : (⟨Cert.ReferenceIdeal.S256x192, .f32⟩ : BufTy).Contents (Elt Ideal)) (x15 x16 x18 x19 : (⟨Cert.ReferenceIdeal.S192, .f32⟩ : BufTy).Contents (Elt Ideal)) :
    k5_pay2 (F := Ideal) P (broadcastInDim S512x1 ![0] bcast_S512_S512x1_0 Cn) Xf x14
        (shapeCast S1x192 x15 shapeCasts_S192_S1x192) (shapeCast S1x192 x18 shapeCasts_S192_S1x192)
        (shapeCast S1x192 x19 shapeCasts_S192_S1x192) (shapeCast S1x192 x16 shapeCasts_S192_S1x192)
      = mulf (mulf (subf (addf
          (Host.dotGeneral (φ₁ := .f32) (φ₂ := .f32) Cert.ReferenceIdeal.dot_S512x256_S256x192_S512x192_1_0_0_1_n_n none
            (concatenate Cert.ReferenceIdeal.S512x256 1
              [⟨Cert.ReferenceIdeal.S512x128, Host.divf P
                  (broadcastInDim Cert.ReferenceIdeal.S512x128 ![0, 1] Cert.ReferenceIdeal.Gen.bcast_S512x1_S512x128_0_1
                    (broadcastInDim Cert.ReferenceIdeal.S512x1 ![0] Cert.ReferenceIdeal.Gen.bcast_S512_S512x1_0
                      (maximumf Cn (broadcastInDim Cert.ReferenceIdeal.S512 ![] Cert.ReferenceIdeal.Gen.bcast_S_S512
                        (constant (F := Ideal) Cert.ReferenceIdeal.S_ .f32 0x3F800000#32)))))⟩,
               ⟨Cert.ReferenceIdeal.S512x128, Xf⟩]
              Cert.ReferenceIdeal.Gen.concatenates_S512x128_S512x128_S512x256_d1)
            x14)
          (broadcastInDim Cert.ReferenceIdeal.S512x192 ![0, 1] Cert.ReferenceIdeal.Gen.bcast_S1x192_S512x192_0_1 (broadcastInDim Cert.ReferenceIdeal.S1x192 ![1] Cert.ReferenceIdeal.Gen.bcast_S192_S1x192_1 x15)))
          (broadcastInDim Cert.ReferenceIdeal.S512x192 ![0, 1] Cert.ReferenceIdeal.Gen.bcast_S1x192_S512x192_0_1 (broadcastInDim Cert.ReferenceIdeal.S1x192 ![1] Cert.ReferenceIdeal.Gen.bcast_S192_S1x192_1 x18)))
          (broadcastInDim Cert.ReferenceIdeal.S512x192 ![0, 1] Cert.ReferenceIdeal.Gen.bcast_S1x192_S512x192_0_1 (broadcastInDim Cert.ReferenceIdeal.S1x192 ![1] Cert.ReferenceIdeal.Gen.bcast_S192_S1x192_1 (Host.rsqrt (addf (φ := .f32) x19 (broadcastInDim Cert.ReferenceIdeal.S192 ![] Cert.ReferenceIdeal.Gen.bcast_S_S192 (constant (F := Ideal) Cert.ReferenceIdeal.S_ .f32 0x3727C5AC#32)))))))
          (broadcastInDim Cert.ReferenceIdeal.S512x192 ![0, 1] Cert.ReferenceIdeal.Gen.bcast_S1x192_S512x192_0_1 (broadcastInDim Cert.ReferenceIdeal.S1x192 ![1] Cert.ReferenceIdeal.Gen.bcast_S192_S1x192_1 x16)) :=
  fus1_ref_folded P Cn Xf x14 x15 x16 x18 x19

/-- The reference's stage %158 is that expression over its own pooled sums, counts and dense features. -/
theorem fus1Rhs_eq_v158 (x0 : (⟨Cert.ReferenceIdeal.S200000x2, .f32⟩ : BufTy).Contents (Elt Ideal)) (x1 : (⟨Cert.ReferenceIdeal.S512x8, .f32⟩ : BufTy).Contents (Elt Ideal)) (x2 : (⟨Cert.ReferenceIdeal.S2x64, .f32⟩ : BufTy).Contents (Elt Ideal)) (x3 : (⟨Cert.ReferenceIdeal.S64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S8x256, .f32⟩ : BufTy).Contents (Elt Ideal)) (x7 x8 x9 x10 x11 : (⟨Cert.ReferenceIdeal.S256, .f32⟩ : BufTy).Contents (Elt Ideal)) (x12 : (⟨Cert.ReferenceIdeal.S256x128, .f32⟩ : BufTy).Contents (Elt Ideal)) (x13 : (⟨Cert.ReferenceIdeal.S128, .f32⟩ : BufTy).Contents (Elt Ideal)) (x14 : (⟨Cert.ReferenceIdeal.S256x192, .f32⟩ : BufTy).Contents (Elt Ideal))
    (x15 x16 x18 x19 : (⟨Cert.ReferenceIdeal.S192, .f32⟩ : BufTy).Contents (Elt Ideal)) (x28 : (⟨Cert.ReferenceIdeal.S2x600000, .i32⟩ : BufTy).Contents (Elt Ideal)) (x29 : (⟨Cert.ReferenceIdeal.S200000, .i32⟩ : BufTy).Contents (Elt Ideal)) :
    fus1Rhs (Cert.ReferenceIdeal.Read.val_main_v112 (F := Ideal) x0 x2 x3 x4 x5 x28 x29) (Cert.ReferenceIdeal.Read.val_main_v109 (F := Ideal) x29)
        (Cert.ReferenceIdeal.Read.val_main_v141 (F := Ideal) x1 x6 x7 x8 x9 x10 x11 x12 x13) x14 x15 x16 x18 x19
      = Cert.ReferenceIdeal.Read.val_main_v158 (F := Ideal) x0 x1 x2 x3 x4 x5 x6 x7 x8 x9 x10 x11 x12 x13 x14 x15 x16 x18 x19 x28 x29 := rfl

/-- The kernel's payload over the reference's pooled sums, counts column and dense features is the reference's %158. -/
theorem fus1_ref' (x0 : (⟨Cert.ReferenceIdeal.S200000x2, .f32⟩ : BufTy).Contents (Elt Ideal)) (x1 : (⟨Cert.ReferenceIdeal.S512x8, .f32⟩ : BufTy).Contents (Elt Ideal)) (x2 : (⟨Cert.ReferenceIdeal.S2x64, .f32⟩ : BufTy).Contents (Elt Ideal)) (x3 : (⟨Cert.ReferenceIdeal.S64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S8x256, .f32⟩ : BufTy).Contents (Elt Ideal)) (x7 x8 x9 x10 x11 : (⟨Cert.ReferenceIdeal.S256, .f32⟩ : BufTy).Contents (Elt Ideal)) (x12 : (⟨Cert.ReferenceIdeal.S256x128, .f32⟩ : BufTy).Contents (Elt Ideal)) (x13 : (⟨Cert.ReferenceIdeal.S128, .f32⟩ : BufTy).Contents (Elt Ideal)) (x14 : (⟨Cert.ReferenceIdeal.S256x192, .f32⟩ : BufTy).Contents (Elt Ideal))
    (x15 x16 x18 x19 : (⟨Cert.ReferenceIdeal.S192, .f32⟩ : BufTy).Contents (Elt Ideal)) (x28 : (⟨Cert.ReferenceIdeal.S2x600000, .i32⟩ : BufTy).Contents (Elt Ideal)) (x29 : (⟨Cert.ReferenceIdeal.S200000, .i32⟩ : BufTy).Contents (Elt Ideal)) :
    k5_pay2 (F := Ideal) (Cert.ReferenceIdeal.Read.val_main_v112 (F := Ideal) x0 x2 x3 x4 x5 x28 x29)
        (broadcastInDim S512x1 ![0] bcast_S512_S512x1_0 (Cert.ReferenceIdeal.Read.val_main_v109 (F := Ideal) x29))
        (Cert.ReferenceIdeal.Read.val_main_v141 (F := Ideal) x1 x6 x7 x8 x9 x10 x11 x12 x13) x14
        (shapeCast S1x192 x15 shapeCasts_S192_S1x192) (shapeCast S1x192 x18 shapeCasts_S192_S1x192)
        (shapeCast S1x192 x19 shapeCasts_S192_S1x192) (shapeCast S1x192 x16 shapeCasts_S192_S1x192)
      = Cert.ReferenceIdeal.Read.val_main_v158 (F := Ideal) x0 x1 x2 x3 x4 x5 x6 x7 x8 x9 x10 x11 x12 x13 x14 x15 x16 x18 x19 x28 x29 :=
  (fus1_ref_folded _ _ _ x14 x15 x16 x18 x19).trans (fus1Rhs_eq_v158 x0 x1 x2 x3 x4 x5 x6 x7 x8 x9 x10 x11 x12 x13 x14 x15 x16 x18 x19 x28 x29)

end Cert.KernelIdeal.KV
-- ==== Proof.Fus23.lean ====
/-
  Layers 2 and 3 of the kernel's fusion head against the reference's stages %159 … %192, as a pure equation between
  whole arrays at the ideal values. With `H` the first layer's array:
    c1  = max (H + be1, 0)
    h2  = c1 · W2 + b2
    c2  = max ((h2 − rm2) · rsqrt (rv2 + ε) · g2 + be2, 0)
    out = logistic (c2 · W3 + b3)
  with the same grouping on both sides. The two spellings meet operation by operation: a vector laid along every row
  (the kernel casts it to one row and broadcasts the row down; the reference broadcasts it along axis 1 into one row and
  that row down) reads the vector's entry at the column on both sides; narrowing to bf16 is the identity at the ideal
  values, and a product accumulated into a zero splat is the host's product, both the same sum over the contraction;
  the reciprocal square root is one function; a zero the host broadcasts is the kernel's splat of it; and the logistic
  is `1 / (1 + exp (−z))` by definition, the two ones being the constant 1.
-/
import proofs.«147598_j30477087932519_1_alg».proof.Proof.Gen.KernelIdeal.Skeleton
import proofs.«147598_j30477087932519_1_alg».proof.Proof.Gen.ReferenceIdeal.Read
import Idealize.ShloMosaic.Lib.KernelVsHost
import Idealize.ShloMosaic.Lib.IdealHost
import Idealize.ShloMosaic.Lib.ValueLayout

set_option maxRecDepth 16384

noncomputable section

namespace Cert.KernelIdeal.KV

open Cert.KernelIdeal Cert.KernelIdeal.Gen Idealize.ShloMosaic
open Idealize.ShloMosaic.ValueIdx
open Cert.ReferenceIdeal.Read

/-! ## A vector laid along every row, the two spellings -/

section Rows
variable {α β : Type}

/-- A one-row matrix broadcast down `m` rows by the kernel's broadcast, read at (p, q), is the row at (0, q). -/
theorem broadcastTo_oneRow_apply {m n : Nat} (hb : (⟨2, ![1, n]⟩ : Shape).Broadcasts ⟨2, ![m, n]⟩)
    (y : (⟨2, ![1, n]⟩ : Shape).Idx → α) (p : Fin m) (q : Fin n) :
    broadcastTo ⟨2, ![m, n]⟩ y hb (ix2 p q) = y (ix2 (0 : Fin 1) q) := by
  refine broadcastTo_apply y hb (ix2 p q) (ix2 (0 : Fin 1) q) ?_
  intro a
  match a with
  | ⟨0, _⟩ => rfl
  | ⟨1, _⟩ =>
    show q.val = if n = 1 then 0 else q.val
    split
    · have := q.isLt; omega
    · rfl

/-- A vector broadcast along axis 1 into one row, read at (u, q), is the vector at q. -/
theorem broadcastInDim_a_1a_apply {n : Nat} (hd1 : (⟨1, ![n]⟩ : Shape).BroadcastsInDim ⟨2, ![1, n]⟩ ![1])
    (x : (⟨1, ![n]⟩ : Shape).Idx → α) (u : Fin 1) (q : Fin n) :
    broadcastInDim ⟨2, ![1, n]⟩ ![1] hd1 x (ix2 u q) = x (ix1 q) := by
  refine broadcastInDim_apply ![1] hd1 x (ix2 u q) (ix1 q) ?_
  intro a
  match a with
  | ⟨0, _⟩ =>
    show q.val = if n = 1 then 0 else q.val
    split
    · have := q.isLt; omega
    · rfl

/-- A function `f` of a vector's entries laid along each of `m` rows. The kernel casts the vector to one row (and
    that row to itself), applies `f` and broadcasts down the rows; the reference applies `f`, broadcasts along axis 1
    into one row, and broadcasts that row down the rows. Both read `f (x q)` at (p, q). -/
theorem row_map_eq {m n : Nat} (x : (⟨1, ![n]⟩ : Shape).Idx → α) (f : α → β)
    (h1 : (⟨1, ![n]⟩ : Shape).ShapeCasts ⟨2, ![1, n]⟩) (h11 : (⟨2, ![1, n]⟩ : Shape).ShapeCasts ⟨2, ![1, n]⟩)
    (hb : (⟨2, ![1, n]⟩ : Shape).Broadcasts ⟨2, ![m, n]⟩)
    (hd1 : (⟨1, ![n]⟩ : Shape).BroadcastsInDim ⟨2, ![1, n]⟩ ![1])
    (hd : (⟨2, ![1, n]⟩ : Shape).BroadcastsInDim ⟨2, ![m, n]⟩ ![0, 1]) :
    broadcastTo ⟨2, ![m, n]⟩ (fun i => f (shapeCast ⟨2, ![1, n]⟩ (shapeCast ⟨2, ![1, n]⟩ x h1) h11 i)) hb
      = broadcastInDim ⟨2, ![m, n]⟩ ![0, 1] hd (broadcastInDim ⟨2, ![1, n]⟩ ![1] hd1 (fun i => f (x i))) := by
  funext i
  obtain ⟨p, q, rfl⟩ : ∃ (p : Fin m) (q : Fin n), i = ix2 p q := ⟨i 0, i 1, eq_ix2 i⟩
  rw [broadcastTo_oneRow_apply, broadcastInDim_oneRow_apply, broadcastInDim_a_1a_apply, shapeCast_self,
    shapeCast_a_1a_apply]

/-- The same of the vector itself. -/
theorem row_eq {m n : Nat} (x : (⟨1, ![n]⟩ : Shape).Idx → α)
    (h1 : (⟨1, ![n]⟩ : Shape).ShapeCasts ⟨2, ![1, n]⟩) (h11 : (⟨2, ![1, n]⟩ : Shape).ShapeCasts ⟨2, ![1, n]⟩)
    (hb : (⟨2, ![1, n]⟩ : Shape).Broadcasts ⟨2, ![m, n]⟩)
    (hd1 : (⟨1, ![n]⟩ : Shape).BroadcastsInDim ⟨2, ![1, n]⟩ ![1])
    (hd : (⟨2, ![1, n]⟩ : Shape).BroadcastsInDim ⟨2, ![m, n]⟩ ![0, 1]) :
    broadcastTo ⟨2, ![m, n]⟩ (shapeCast ⟨2, ![1, n]⟩ (shapeCast ⟨2, ![1, n]⟩ x h1) h11) hb
      = broadcastInDim ⟨2, ![m, n]⟩ ![0, 1] hd (broadcastInDim ⟨2, ![1, n]⟩ ![1] hd1 x) :=
  row_map_eq x id h1 h11 hb hd1 hd

end Rows

/-! ## The matrix unit against the host's product; the logistic against its expansion -/

/-- The kernel's product of two operands narrowed to bf16, accumulated into a zero splat, is the host's product of
    the operands: at the ideal values narrowing is the identity and both are the same sum over the contraction. -/
theorem matmul_truncf_eq_dotGeneral {sl sr so : Shape} (d d' : DotDims sl sr so) (hd : d = d')
    (a : FVec Ideal sl .f32) (b : FVec Ideal sr .f32) (h : FTy.bits .bf16 < FTy.bits .f32) (h' : FTy.bits .bf16 < FTy.bits .f32) :
    matmul d none (truncf .bf16 a h) (truncf .bf16 b h') (constant so .f32 0x00000000#32)
      = Host.dotGeneral d' none a b := by
  subst hd
  funext j
  show FloatOps.matmul d none (truncf .bf16 a h) (truncf .bf16 b h') (constant so .f32 0x00000000#32) j
      = FloatOps.dotGeneral d none _ a b j
  rw [Ideal.matmul_constant_zero_apply, Ideal.dotGeneral_apply]
  rfl

/-- The kernel's logistic is the host's `1 / (1 + exp (−z))` with both ones broadcast constants. -/
theorem logistic_eq_host {s : Shape} (z one one' : FVec Ideal s .f32)
    (h1 : ∀ i, one i = Ideal.ofBits .f32 0x3F800000#32) (h1' : ∀ i, one' i = Ideal.ofBits .f32 0x3F800000#32) :
    logistic z = Host.divf one (addf one' (Host.exp (Host.negf z))) := by
  funext i
  show Ideal.logistic (z i) = Ideal.div (one i) (one' i + Ideal.exp (-(z i)))
  rw [h1, h1', Ideal.ofBits_one_f32]
  rfl

/-! ## Layer 2: the second linear map and its normalization -/

/-- Layer 2 of the kernel's fusion head up to the second activation's argument (statements %39 … %70 of the payload
    `k5_pay3`): `c1 = max (v37 + be1, 0)`, `h2 = c1 · W2 + b2`, then `(h2 − rm2) · rsqrt (rv2 + ε) · g2 + be2`. -/
def k5_v70 (v37 : FVec Ideal S512x192 .f32) (v38 : Vec Ideal S1x192 .f32) (v45 : Vec Ideal S192x128 .f32)
    (v48 v52 v56 v63 v67 : Vec Ideal S1x128 .f32) : FVec Ideal S512x128 .f32 :=
  addf (mulf (mulf (subf (addf
    (matmul dot_S512x192_S192x128_S512x128_1_0_0_1_n_n none
      (truncf .bf16 (maximumf (addf v37 (broadcastTo S512x192 (shapeCast S1x192 v38 shapeCasts_S1x192_S1x192) broadcasts_S1x192_S512x192))
        (broadcast S512x192 (Scalar.ofBits .f32 0x00000000#32))) bitsLt_bf16_f32)
      (truncf .bf16 v45 bitsLt_bf16_f32) (constant S512x128 .f32 0x00000000#32))
    (broadcastTo S512x128 (shapeCast S1x128 v48 shapeCasts_S1x128_S1x128) broadcasts_S1x128_S512x128))
    (broadcastTo S512x128 (shapeCast S1x128 v52 shapeCasts_S1x128_S1x128) broadcasts_S1x128_S512x128))
    (broadcastTo S512x128 (rsqrt (addf (shapeCast S1x128 v56 shapeCasts_S1x128_S1x128)
      (broadcast S1x128 (Scalar.ofBits .f32 0x3727C5AC#32)))) broadcasts_S1x128_S512x128))
    (broadcastTo S512x128 (shapeCast S1x128 v63 shapeCasts_S1x128_S1x128) broadcasts_S1x128_S512x128))
    (broadcastTo S512x128 (shapeCast S1x128 v67 shapeCasts_S1x128_S1x128) broadcasts_S1x128_S512x128)

/-- The payload `k5_pay3` is the third linear map applied to the activation of `k5_v70`. -/
theorem k5_pay3_eq (v37 : FVec Ideal S512x192 .f32) (v38 : Vec Ideal S1x192 .f32) (v45 : Vec Ideal S192x128 .f32)
    (v48 v52 v56 v63 v67 : Vec Ideal S1x128 .f32) (v74 : Vec Ideal S128x1 .f32) :
    k5_pay3 (F := Ideal) v37 v38 v45 v48 v52 v56 v63 v67 v74
      = matmul dot_S512x128_S128x1_S512x1_1_0_0_1_n_n none
          (truncf .bf16 (maximumf (k5_v70 v37 v38 v45 v48 v52 v56 v63 v67)
            (broadcast S512x128 (Scalar.ofBits .f32 0x00000000#32))) bitsLt_bf16_f32)
          (truncf .bf16 v74 bitsLt_bf16_f32) (constant S512x1 .f32 0x00000000#32) := rfl

/-- Layer 2 against the reference's stage %181, the first layer's array `H` in place of %158. -/
theorem fus2_ref (H : FVec Ideal S512x192 .f32)
    (x17 : (⟨Cert.ReferenceIdeal.S192, .f32⟩ : BufTy).Contents (Elt Ideal))
    (x20 : (⟨Cert.ReferenceIdeal.S192x128, .f32⟩ : BufTy).Contents (Elt Ideal))
    (x21 x22 x23 x24 x25 : (⟨Cert.ReferenceIdeal.S128, .f32⟩ : BufTy).Contents (Elt Ideal)) :
    k5_v70 H (shapeCast S1x192 x17 shapeCasts_S192_S1x192) x20 (shapeCast S1x128 x21 shapeCasts_S128_S1x128)
        (shapeCast S1x128 x24 shapeCasts_S128_S1x128) (shapeCast S1x128 x25 shapeCasts_S128_S1x128)
        (shapeCast S1x128 x22 shapeCasts_S128_S1x128) (shapeCast S1x128 x23 shapeCasts_S128_S1x128)
      = addf (mulf (mulf (subf (addf
          (Host.dotGeneral (φ₁ := .f32) (φ₂ := .f32) Cert.ReferenceIdeal.dot_S512x192_S192x128_S512x128_1_0_0_1_n_n none
            (maximumf (addf H (val_main_v160 (F := Ideal) x17)) (val_main_call3_v0 (F := Ideal))) (x20))
          (val_main_v165 (F := Ideal) x21)) (val_main_v168 (F := Ideal) x24)) (val_main_v174 (F := Ideal) x25))
          (val_main_v177 (F := Ideal) x22)) (val_main_v180 (F := Ideal) x23) := by
  have e17 : broadcastTo S512x192 (shapeCast S1x192 (shapeCast S1x192 x17 shapeCasts_S192_S1x192) shapeCasts_S1x192_S1x192) broadcasts_S1x192_S512x192
      = val_main_v160 (F := Ideal) x17 :=
    row_eq x17 _ _ _ Cert.ReferenceIdeal.Gen.bcast_S192_S1x192_1 Cert.ReferenceIdeal.Gen.bcast_S1x192_S512x192_0_1
  have e21 : broadcastTo S512x128 (shapeCast S1x128 (shapeCast S1x128 x21 shapeCasts_S128_S1x128) shapeCasts_S1x128_S1x128) broadcasts_S1x128_S512x128
      = val_main_v165 (F := Ideal) x21 :=
    row_eq x21 _ _ _ Cert.ReferenceIdeal.Gen.bcast_S128_S1x128_1 Cert.ReferenceIdeal.Gen.bcast_S1x128_S512x128_0_1
  have e24 : broadcastTo S512x128 (shapeCast S1x128 (shapeCast S1x128 x24 shapeCasts_S128_S1x128) shapeCasts_S1x128_S1x128) broadcasts_S1x128_S512x128
      = val_main_v168 (F := Ideal) x24 :=
    row_eq x24 _ _ _ Cert.ReferenceIdeal.Gen.bcast_S128_S1x128_1 Cert.ReferenceIdeal.Gen.bcast_S1x128_S512x128_0_1
  have e22 : broadcastTo S512x128 (shapeCast S1x128 (shapeCast S1x128 x22 shapeCasts_S128_S1x128) shapeCasts_S1x128_S1x128) broadcasts_S1x128_S512x128
      = val_main_v177 (F := Ideal) x22 :=
    row_eq x22 _ _ _ Cert.ReferenceIdeal.Gen.bcast_S128_S1x128_1 Cert.ReferenceIdeal.Gen.bcast_S1x128_S512x128_0_1
  have e23 : broadcastTo S512x128 (shapeCast S1x128 (shapeCast S1x128 x23 shapeCasts_S128_S1x128) shapeCasts_S1x128_S1x128) broadcasts_S1x128_S512x128
      = val_main_v180 (F := Ideal) x23 :=
    row_eq x23 _ _ _ Cert.ReferenceIdeal.Gen.bcast_S128_S1x128_1 Cert.ReferenceIdeal.Gen.bcast_S1x128_S512x128_0_1
  have e25 : broadcastTo S512x128 (rsqrt (F := Ideal) (φ := .f32) (addf (F := Ideal) (φ := .f32)
        (shapeCast S1x128 (shapeCast S1x128 x25 shapeCasts_S128_S1x128) shapeCasts_S1x128_S1x128)
        (broadcast S1x128 (Scalar.ofBits (F := Ideal) .f32 0x3727C5AC#32)))) broadcasts_S1x128_S512x128
      = val_main_v174 (F := Ideal) x25 :=
    row_map_eq (α := Ideal .f32) (β := Ideal .f32) x25 (fun v => FloatOps.rsqrt (FloatOps.addf v (FloatOps.ofBits .f32 0x3727C5AC#32))) _ _ _
      Cert.ReferenceIdeal.Gen.bcast_S128_S1x128_1 Cert.ReferenceIdeal.Gen.bcast_S1x128_S512x128_0_1
  have z1 : broadcast S512x192 (Scalar.ofBits (F := Ideal) .f32 0x00000000#32) = val_main_call3_v0 (F := Ideal) := rfl
  unfold k5_v70
  rw [e17, e21, e24, e22, e23, e25, z1,
    matmul_truncf_eq_dotGeneral dot_S512x192_S192x128_S512x128_1_0_0_1_n_n
      Cert.ReferenceIdeal.dot_S512x192_S192x128_S512x128_1_0_0_1_n_n rfl]

/-! ## Layer 3 and the logistic: the reference's stage %192 -/

/-- The payload `k5_pay1` is the logistic of its operand plus the bias laid along the rows. -/
theorem k5_pay1_eq (v76 : FVec Ideal S512x1 .f32) (v77 : Vec Ideal S1x1 .f32) :
    k5_pay1 (F := Ideal) v76 v77
      = logistic (addf v76 (broadcastTo S512x1 (shapeCast S1x1 v77 shapeCasts_S1x1_S1x1) broadcasts_S1x1_S512x1)) := rfl

/-- Layers 2 and 3 of the kernel's fusion head, `logistic (max (c2, 0) · W3 + b3)`, are the reference's stage %192
    with the first layer's array `H` in place of %158: the right-hand side is `val_main_v192` unfolded down to, and
    not through, `val_main_v158`. -/
theorem fus23_ref (H : FVec Ideal S512x192 .f32)
    (x17 : (⟨Cert.ReferenceIdeal.S192, .f32⟩ : BufTy).Contents (Elt Ideal))
    (x20 : (⟨Cert.ReferenceIdeal.S192x128, .f32⟩ : BufTy).Contents (Elt Ideal))
    (x21 x22 x23 x24 x25 : (⟨Cert.ReferenceIdeal.S128, .f32⟩ : BufTy).Contents (Elt Ideal))
    (x26 : (⟨Cert.ReferenceIdeal.S128x1, .f32⟩ : BufTy).Contents (Elt Ideal))
    (x27 : (⟨Cert.ReferenceIdeal.S1, .f32⟩ : BufTy).Contents (Elt Ideal)) :
    k5_pay1 (F := Ideal) (k5_pay3 H (shapeCast S1x192 x17 shapeCasts_S192_S1x192) x20 (shapeCast S1x128 x21 shapeCasts_S128_S1x128)
        (shapeCast S1x128 x24 shapeCasts_S128_S1x128) (shapeCast S1x128 x25 shapeCasts_S128_S1x128)
        (shapeCast S1x128 x22 shapeCasts_S128_S1x128) (shapeCast S1x128 x23 shapeCasts_S128_S1x128) x26) (shapeCast S1x1 x27 shapeCasts_S1_S1x1)
      = Host.divf (val_main_v191 (F := Ideal)) (addf (val_main_v189 (F := Ideal)) (Host.exp (Host.negf (addf
          (Host.dotGeneral (φ₁ := .f32) (φ₂ := .f32) Cert.ReferenceIdeal.dot_S512x128_S128x1_S512x1_1_0_0_1_n_n none
            (maximumf (addf (mulf (mulf (subf (addf
          (Host.dotGeneral (φ₁ := .f32) (φ₂ := .f32) Cert.ReferenceIdeal.dot_S512x192_S192x128_S512x128_1_0_0_1_n_n none
            (maximumf (addf H (val_main_v160 (F := Ideal) x17)) (val_main_call3_v0 (F := Ideal))) (x20))
          (val_main_v165 (F := Ideal) x21)) (val_main_v168 (F := Ideal) x24)) (val_main_v174 (F := Ideal) x25))
          (val_main_v177 (F := Ideal) x22)) (val_main_v180 (F := Ideal) x23)) (val_main_call4_v0 (F := Ideal))) (x26))
          (val_main_v185 (F := Ideal) x27))))) := by
  have e27 : broadcastTo S512x1 (shapeCast S1x1 (shapeCast S1x1 x27 shapeCasts_S1_S1x1) shapeCasts_S1x1_S1x1) broadcasts_S1x1_S512x1
      = val_main_v185 (F := Ideal) x27 :=
    row_eq x27 _ _ _ Cert.ReferenceIdeal.Gen.bcast_S1_S1x1_1 Cert.ReferenceIdeal.Gen.bcast_S1x1_S512x1_0_1
  have z2 : broadcast S512x128 (Scalar.ofBits (F := Ideal) .f32 0x00000000#32) = val_main_call4_v0 (F := Ideal) := rfl
  rw [k5_pay1_eq, k5_pay3_eq, fus2_ref, z2,
    matmul_truncf_eq_dotGeneral dot_S512x128_S128x1_S512x1_1_0_0_1_n_n
      Cert.ReferenceIdeal.dot_S512x128_S128x1_S512x1_1_0_0_1_n_n rfl, e27]
  exact logistic_eq_host _ _ _ (fun _ => rfl) (fun _ => rfl)

/-- The same at the reference's own first layer: the kernel's head applied to %158 is %192. -/
theorem fus23_ref' (x0 : (⟨Cert.ReferenceIdeal.S200000x2, .f32⟩ : BufTy).Contents (Elt Ideal)) (x1 : (⟨Cert.ReferenceIdeal.S512x8, .f32⟩ : BufTy).Contents (Elt Ideal))
    (x2 : (⟨Cert.ReferenceIdeal.S2x64, .f32⟩ : BufTy).Contents (Elt Ideal)) (x3 : (⟨Cert.ReferenceIdeal.S64, .f32⟩ : BufTy).Contents (Elt Ideal))
    (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S8x256, .f32⟩ : BufTy).Contents (Elt Ideal)) (x7 x8 x9 x10 x11 : (⟨Cert.ReferenceIdeal.S256, .f32⟩ : BufTy).Contents (Elt Ideal))
    (x12 : (⟨Cert.ReferenceIdeal.S256x128, .f32⟩ : BufTy).Contents (Elt Ideal)) (x13 : (⟨Cert.ReferenceIdeal.S128, .f32⟩ : BufTy).Contents (Elt Ideal))
    (x14 : (⟨Cert.ReferenceIdeal.S256x192, .f32⟩ : BufTy).Contents (Elt Ideal)) (x15 x16 x17 x18 x19 : (⟨Cert.ReferenceIdeal.S192, .f32⟩ : BufTy).Contents (Elt Ideal))
    (x20 : (⟨Cert.ReferenceIdeal.S192x128, .f32⟩ : BufTy).Contents (Elt Ideal)) (x21 x22 x23 x24 x25 : (⟨Cert.ReferenceIdeal.S128, .f32⟩ : BufTy).Contents (Elt Ideal))
    (x26 : (⟨Cert.ReferenceIdeal.S128x1, .f32⟩ : BufTy).Contents (Elt Ideal)) (x27 : (⟨Cert.ReferenceIdeal.S1, .f32⟩ : BufTy).Contents (Elt Ideal))
    (x28 : (⟨Cert.ReferenceIdeal.S2x600000, .i32⟩ : BufTy).Contents (Elt Ideal)) (x29 : (⟨Cert.ReferenceIdeal.S200000, .i32⟩ : BufTy).Contents (Elt Ideal)) :
    k5_pay1 (F := Ideal) (k5_pay3 (val_main_v158 (F := Ideal) x0 x1 x2 x3 x4 x5 x6 x7 x8 x9 x10 x11 x12 x13 x14 x15 x16 x18 x19 x28 x29)
        (shapeCast S1x192 x17 shapeCasts_S192_S1x192) x20 (shapeCast S1x128 x21 shapeCasts_S128_S1x128)
        (shapeCast S1x128 x24 shapeCasts_S128_S1x128) (shapeCast S1x128 x25 shapeCasts_S128_S1x128)
        (shapeCast S1x128 x22 shapeCasts_S128_S1x128) (shapeCast S1x128 x23 shapeCasts_S128_S1x128) x26) (shapeCast S1x1 x27 shapeCasts_S1_S1x1)
      = val_main_v192 (F := Ideal) x0 x1 x2 x3 x4 x5 x6 x7 x8 x9 x10 x11 x12 x13 x14 x15 x16 x17 x18 x19 x20 x21 x22 x23 x24 x25 x26 x27 x28 x29 :=
  fus23_ref (val_main_v158 (F := Ideal) x0 x1 x2 x3 x4 x5 x6 x7 x8 x9 x10 x11 x12 x13 x14 x15 x16 x18 x19 x28 x29)
    x17 x20 x21 x22 x23 x24 x25 x26 x27

end Cert.KernelIdeal.KV

end
-- ==== Proof.GlueB.lean ====
/- The pooling stretch, the feature network's call, the fusion head's call and the final reshape, boundary by boundary.
   Per-graph node counts: the kernel's program first wraps a negative graph id around (id + 512) and the reference's does
   not; where every id is non-negative, as the precondition says, the wrap does nothing and the two counts are the same
   scatter-add. The per-graph sums of the second layer's activations are the same scatter-add on both sides. The feature
   network and the fusion head are each one pallas_call whose single block is the whole array, so the call's output array
   is the body's arithmetic of its operands, which is the reference's stage. -/
import proofs.«147598_j30477087932519_1_alg».proof.Proof.GlueA
import proofs.«147598_j30477087932519_1_alg».proof.Proof.PreBatch
import proofs.«147598_j30477087932519_1_alg».proof.Proof.Rows
import proofs.«147598_j30477087932519_1_alg».proof.Proof.Reg4K
import proofs.«147598_j30477087932519_1_alg».proof.Proof.Reg5K
import proofs.«147598_j30477087932519_1_alg».proof.Proof.FeatPure
import proofs.«147598_j30477087932519_1_alg».proof.Proof.Fus1
import proofs.«147598_j30477087932519_1_alg».proof.Proof.Fus23

set_option maxRecDepth 16384
-- reading a long host stretch back rewrites once per operation
set_option maxHeartbeats 8000000

noncomputable section

namespace Cert.KernelIdeal.KV

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The per-graph sums of the second layer's activations. -/
theorem w8_v76 (c : Dev nD) : W8 m ρ c (Proc.devRef .tc main_v76)
    = Cert.ReferenceIdeal.Read.val_main_v112 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg28)) (m ((c : Thread nD τ).loc main_arg29)) := by
  show StableHlo.after hostOps4 (W7 m ρ c) (Proc.devRef .tc main_v76) = _
  simp only [hostOps4]
  after_results
  rw [w7_arg29, w7_v64]
  rfl

/-- The per-graph node counts, as a column: where no graph id is negative the kernel's wrap-around of negative ids does
    nothing, and the count is the reference's. -/
theorem w8_v77 (hpre : Cert.Pre_KernelIdeal m) (c : Dev nD) : W8 m ρ c (Proc.devRef .tc main_v77)
    = broadcastInDim S512x1 ![0] bcast_S512_S512x1_0 (Cert.ReferenceIdeal.Read.val_main_v109 (F := Ideal) (m ((c : Thread nD τ).loc main_arg29))) := by
  show StableHlo.after hostOps4 (W7 m ρ c) (Proc.devRef .tc main_v77) = _
  simp only [hostOps4]
  after_results
  rw [w7_arg29, norm_batch_eq m hpre c]
  rfl

/-- The feature network's call leaves the reference's feature embedding. -/
theorem w9_v84 (c : Dev nD) : W9 m ρ c (Proc.devRef .tc main_v84)
    = Cert.ReferenceIdeal.Read.val_main_v141 (F := Ideal) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W9_arr m ρ c 9).trans ?_
  rw [arr4_pay (V8 m ρ) c]
  have e0 : V8 m ρ c (Pipeline.arrRef spec4 0) = _ := w8_arg1 m ρ c
  have e1 : V8 m ρ c (Pipeline.arrRef spec4 1) = _ := w8_arg6 m ρ c
  have e2 : V8 m ρ c (Pipeline.arrRef spec4 2) = _ := w8_v78 m ρ c
  have e3 : V8 m ρ c (Pipeline.arrRef spec4 3) = _ := w8_v79 m ρ c
  have e4 : V8 m ρ c (Pipeline.arrRef spec4 4) = _ := w8_v80 m ρ c
  have e5 : V8 m ρ c (Pipeline.arrRef spec4 5) = _ := w8_v81 m ρ c
  have e6 : V8 m ρ c (Pipeline.arrRef spec4 6) = _ := w8_v82 m ρ c
  have e7 : V8 m ρ c (Pipeline.arrRef spec4 7) = _ := w8_arg12 m ρ c
  have e8 : V8 m ρ c (Pipeline.arrRef spec4 8) = _ := w8_v83 m ρ c
  rw [e0, e1, e2, e3, e4, e5, e6, e7, e8]
  exact feat_ref _ _ _ _ _ _ _ _ _

/-- The fusion head's call leaves the reference's sigmoid output as a column. -/
theorem w11_v96 (hpre : Cert.Pre_KernelIdeal m) (c : Dev nD) : W11 m ρ c (Proc.devRef .tc main_v96)
    = Cert.ReferenceIdeal.Read.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  refine (W11_arr m ρ c 17).trans ?_
  rw [arr5_pay (V10 m ρ) c]
  have e0 : V10 m ρ c (Pipeline.arrRef spec5 0) = _ := (w10_v76_from8 m ρ c).trans (w8_v76 m ρ c)
  have e1 : V10 m ρ c (Pipeline.arrRef spec5 1) = _ := (w10_v77_from8 m ρ c).trans (w8_v77 m ρ hpre c)
  have e2 : V10 m ρ c (Pipeline.arrRef spec5 2) = _ := (w10_v84_from9 m ρ c).trans (w9_v84 m ρ c)
  have e3 : V10 m ρ c (Pipeline.arrRef spec5 3) = _ := w10_arg14 m ρ c
  have e4 : V10 m ρ c (Pipeline.arrRef spec5 4) = _ := w10_v85 m ρ c
  have e5 : V10 m ρ c (Pipeline.arrRef spec5 5) = _ := w10_v86 m ρ c
  have e6 : V10 m ρ c (Pipeline.arrRef spec5 6) = _ := w10_v87 m ρ c
  have e7 : V10 m ρ c (Pipeline.arrRef spec5 7) = _ := w10_v88 m ρ c
  have e8 : V10 m ρ c (Pipeline.arrRef spec5 8) = _ := w10_v89 m ρ c
  have e9 : V10 m ρ c (Pipeline.arrRef spec5 9) = _ := w10_arg20 m ρ c
  have e10 : V10 m ρ c (Pipeline.arrRef spec5 10) = _ := w10_v90 m ρ c
  have e11 : V10 m ρ c (Pipeline.arrRef spec5 11) = _ := w10_v91 m ρ c
  have e12 : V10 m ρ c (Pipeline.arrRef spec5 12) = _ := w10_v92 m ρ c
  have e13 : V10 m ρ c (Pipeline.arrRef spec5 13) = _ := w10_v93 m ρ c
  have e14 : V10 m ρ c (Pipeline.arrRef spec5 14) = _ := w10_v94 m ρ c
  have e15 : V10 m ρ c (Pipeline.arrRef spec5 15) = _ := w10_arg26 m ρ c
  have e16 : V10 m ρ c (Pipeline.arrRef spec5 16) = _ := w10_v95 m ρ c
  rw [e0, e1, e2, e3, e4, e5, e6, e7, e8, e9, e10, e11, e12, e13, e14, e15, e16]
  rw [fus1_ref']
  exact fus23_ref' _ _ _ _ _ _ _ _ _ _ _ _ _ _ _ _ _ _ _ _ _ _ _ _ _ _ _ _ _ _

/-- The kernel's result array holds the reference's result. -/
theorem result_eq (hpre : Cert.Pre_KernelIdeal m) (c : Dev nD) : W12 m ρ c (Proc.devRef .tc main_v97)
    = Cert.ReferenceIdeal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  show StableHlo.after hostOps6 (W11 m ρ c) (Proc.devRef .tc main_v97) = _
  simp only [hostOps6]
  after_results
  rw [w11_v96 m ρ hpre c]
  rfl

end Cert.KernelIdeal.KV

end
-- ==== Proof.lean ====
/- The graph network (two graph-convolution layers, mean pooling per graph, a feature network and a fusion head
   ending in a sigmoid) as six pallas_calls among host operations, against its plain jnp reference, over the extended
   reals. The host operations that depend on the graph's structure (degrees, the gather along edges, the scatter-adds onto
   nodes and onto graphs) are the same on both sides and are carried as they stand. Each pallas_call's output array is the
   reference's stage of the same meaning: a tiled matrix product is the whole matrix product; the tiled finalize step is
   the reference's rectified sum, entry by entry; the feature network and the fusion head compute the reference's
   expressions with the same grouping, the head's first product over the concatenated width 256 being the sum of the
   products over its two halves of width 128. The only place the two programs differ is the per-graph node count, where
   the kernel's program wraps a negative graph id around and the reference drops it; the precondition asks every graph id
   to be non-negative, and there the two counts agree. The three frames are the generated ones (the reference's is its
   generated run with the result dropped); no ideal-pass rewrite was applied, so the kernel's idealization claim is empty. -/
import proofs.«147598_j30477087932519_1_alg».proof.Defs
import proofs.«147598_j30477087932519_1_alg».proof.Proof.Gen.Kernel
import proofs.«147598_j30477087932519_1_alg».proof.Proof.Gen.Kernel.Skeleton
import proofs.«147598_j30477087932519_1_alg».proof.Proof.Gen.Kernel.Launch
import proofs.«147598_j30477087932519_1_alg».proof.Proof.Gen.Kernel.Points
import proofs.«147598_j30477087932519_1_alg».proof.Proof.Gen.Kernel.Frame
import proofs.«147598_j30477087932519_1_alg».proof.Proof.Gen.KernelIdeal
import proofs.«147598_j30477087932519_1_alg».proof.Proof.Gen.KernelIdeal.Skeleton
import proofs.«147598_j30477087932519_1_alg».proof.Proof.Gen.KernelIdeal.Launch
import proofs.«147598_j30477087932519_1_alg».proof.Proof.Gen.KernelIdeal.Points
import proofs.«147598_j30477087932519_1_alg».proof.Proof.Gen.KernelIdeal.Frame
import proofs.«147598_j30477087932519_1_alg».proof.Proof.Gen.ReferenceIdeal
import proofs.«147598_j30477087932519_1_alg».proof.Proof.Gen.Pre_finite_inputs
import proofs.«147598_j30477087932519_1_alg».proof.Proof.Gen.ReferenceIdeal.Run
import proofs.«147598_j30477087932519_1_alg».proof.Proof.Gen.ReferenceIdeal.Read
import proofs.«147598_j30477087932519_1_alg».proof.Proof.KRun
import proofs.«147598_j30477087932519_1_alg».proof.Proof.GlueB
import Idealize.ShloMosaic.Adequacy
import Idealize.ShloMosaic.Init

noncomputable section

namespace Cert.Proof

open Idealize.ShloMosaic Idealize.SL.Sem

/-- The kernel's program at the word level runs and leaves its arguments as launched. -/
theorem frame_k : Cert.frame_Kernel := fun m ρ _ => Cert.Kernel.Gen.frame m ρ

/-- The idealized kernel's program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories that agree on the arguments, with every float argument finite and every graph id non-negative, both
    idealized programs run and end with the same result array: the kernel's run ends at the last boundary's contents of
    its result buffer, which is the reference's last stage of the same arguments. -/
theorem algebraic : Cert.algebraic_KernelIdeal_ReferenceIdeal := by
  intro m ρ m' ρ' hpre hagree
  refine ⟨fun c => Cert.KernelIdeal.Gen.W12 m ρ c (Proc.devRef .tc Cert.KernelIdeal.main_v97),
    Cert.KernelIdeal.KV.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29⟩ := hagree c
  rw [Cert.ReferenceIdeal.Read.val_main_v193_eq m' c, h0, h1, h2, h3, h4, h5, h6, h7, h8, h9, h10, h11, h12, h13, h14, h15, h16, h17, h18, h19, h20, h21, h22, h23, h24, h25, h26, h27, h28, h29]
  exact (Cert.KernelIdeal.KV.result_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
